-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S512x5000 : Shape := ⟨2, ![512, 5000]⟩
abbrev S_ : Shape := ⟨0, ![]⟩
abbrev S5000 : Shape := ⟨1, ![5000]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x5000 : S_.BroadcastsInDim S512x5000 (![] : Fin 0 → Fin S512x5000.rank)
  reducesTo_S512x5000_S_d0_1 : S512x5000.ReducesTo [0, 1] S_
  bcast_S_S4096 : S_.BroadcastsInDim S4096 (![] : Fin 0 → Fin S4096.rank)
  reducesTo_S4096_S_d0 : S4096.ReducesTo [0] S_
  reducesTo_S512x5000_S5000_d0 : S512x5000.ReducesTo [0] S5000
  bcast_S_S5000 : S_.BroadcastsInDim S5000 (![] : Fin 0 → Fin S5000.rank)
  reducesTo_S5000_S_d0 : S5000.ReducesTo [0] S_

variable [Facts]

def fn_part1 {F : FTy → Type} [FloatOps F] (main_arg2 : IVec S4096 32) (main_arg3 : FVec F S512x5000 .f32) (main_v13 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v13 main_v16
  let main_c_6 : IVec S_ 32 := constantI S_ 32 5000#32
  let main_v18 : IVec S4096 32 := broadcastInDim S4096 ![] bcast_S_S4096 main_c_6
  let main_v19 : IVec S4096 1 := cmpi .slt main_arg2 main_v18
  let main_c_7 : IVec S_ 1 := constantI S_ 1 1#1
  let main_v20 : IVec S_ 1 := (fun x v => Host.reduce IntOp.andi x v reducesTo_S4096_S_d0 h_S_) main_v19 main_c_7
  let main_v21 : IVec S_ 1 := andi main_v17 main_v20
  let main_v22 : FVec F S512x5000 .f32 := mulf main_arg3 main_arg3
  let main_cst_8 : FVec F S_ .f32 := constant S_ .f32 0x00000000#32
  let main_v23 : FVec F S5000 .f32 := (fun x v => Host.reduceAdd x v reducesTo_S512x5000_S5000_d0 h_S_) main_v22 main_cst_8
  let main_cst_9 : FVec F S_ .f32 := constant S_ .f32 0x00000000#32
  let main_v24 : FVec F S5000 .f32 := broadcastInDim S5000 ![] bcast_S_S5000 main_cst_9
  let main_v25 : IVec S5000 1 := cmpf .ogt main_v23 main_v24
  let main_c_10 : IVec S_ 1 := constantI S_ 1 1#1
  let main_v26 : IVec S_ 1 := (fun x v => Host.reduce IntOp.andi x v reducesTo_S5000_S_d0 h_S_) main_v25 main_c_10
  let main_v27 : IVec S_ 1 := andi main_v21 main_v26
  main_v27

def fn {F : FTy → Type} [FloatOps F] (main_arg0 : FVec F S4096x512 .f32) (main_arg1 : FVec F S4096x512 .f32) (main_arg2 : IVec S4096 32) (main_arg3 : FVec F S512x5000 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x5000 .f32 := Host.absf main_arg3
  let main_cst_2 : FVec F S_ .f32 := constant S_ .f32 0x7F800000#32
  let main_v10 : FVec F S512x5000 .f32 := broadcastInDim S512x5000 ![] bcast_S_S512x5000 main_cst_2
  let main_v11 : IVec S512x5000 1 := cmpf .olt main_v9 main_v10
  let main_c_3 : IVec S_ 1 := constantI S_ 1 1#1
  let main_v12 : IVec S_ 1 := (fun x v => Host.reduce IntOp.andi x v reducesTo_S512x5000_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg2 main_v14
  let main_c_5 : IVec S_ 1 := constantI S_ 1 1#1
  fn_part1 (F := F) main_arg2 main_arg3 main_v13 main_v15 main_c_5
-- ==== Kernel.lean ====
abbrev S4096x512 : Shape := ⟨2, ![4096, 512]⟩
abbrev S4096 : Shape := ⟨1, ![4096]⟩
abbrev S512x5000 : Shape := ⟨2, ![512, 5000]⟩
abbrev S_ : Shape := ⟨0, ![]⟩
abbrev S5000 : Shape := ⟨1, ![5000]⟩
abbrev S1x5000 : Shape := ⟨2, ![1, 5000]⟩
abbrev S4096x1 : Shape := ⟨2, ![4096, 1]⟩
abbrev S1x4096 : Shape := ⟨2, ![1, 4096]⟩
abbrev S8192x512 : Shape := ⟨2, ![8192, 512]⟩
abbrev S8192 : Shape := ⟨1, ![8192]⟩
abbrev S8192x1 : Shape := ⟨2, ![8192, 1]⟩
abbrev S256x512 : Shape := ⟨2, ![256, 512]⟩
abbrev S256x1 : Shape := ⟨2, ![256, 1]⟩
abbrev S256x5000 : Shape := ⟨2, ![256, 5000]⟩
abbrev S256 : Shape := ⟨1, ![256]⟩
abbrev S1024x512 : Shape := ⟨2, ![1024, 512]⟩
abbrev S1024x1 : Shape := ⟨2, ![1024, 1]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩

abbrev nBuf : Space → Nat
  | .hbm => 38
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S512x5000, .f32⟩
  | .hbm, ⟨4, _⟩ => ⟨S512x5000, .f32⟩
  | .hbm, ⟨5, _⟩ => ⟨S_, .f32⟩
  | .hbm, ⟨6, _⟩ => ⟨S5000, .f32⟩
  | .hbm, ⟨7, _⟩ => ⟨S1x5000, .f32⟩
  | .hbm, ⟨8, _⟩ => ⟨S1x5000, .f32⟩
  | .hbm, ⟨9, _⟩ => ⟨S512x5000, .f32⟩
  | .hbm, ⟨10, _⟩ => ⟨S512x5000, .f32⟩
  | .hbm, ⟨11, _⟩ => ⟨S4096x512, .bf16⟩
  | .hbm, ⟨12, _⟩ => ⟨S4096x512, .bf16⟩
  | .hbm, ⟨13, _⟩ => ⟨S512x5000, .bf16⟩
  | .hbm, ⟨14, _⟩ => ⟨S4096x1, .i32⟩
  | .hbm, ⟨15, _⟩ => ⟨S1x4096, .i32⟩
  | .hbm, ⟨16, _⟩ => ⟨S8192x512, .bf16⟩
  | .hbm, ⟨17, _⟩ => ⟨S8192, .i32⟩
  | .hbm, ⟨18, _⟩ => ⟨S8192x1, .i32⟩
  | .hbm, ⟨19, _⟩ => ⟨S8192x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S256x512, .bf16⟩
  | .local _ .vmem, ⟨1, _⟩ => ⟨S256x512, .bf16⟩
  | .local _ .vmem, ⟨2, _⟩ => ⟨S512x5000, .bf16⟩
  | .local _ .vmem, ⟨3, _⟩ => ⟨S256x1, .i32⟩
  | .local _ .vmem, ⟨4, _⟩ => ⟨S256x1, .i32⟩
  | .local _ .vmem, ⟨5, _⟩ => ⟨S256x1, .f32⟩
  | .local _ .vmem, ⟨6, _⟩ => ⟨S256x1, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x1, .i32⟩
  | .local _ .vmem, ⟨12, _⟩ => ⟨S1024x1, .i32⟩
  | .local _ .vmem, ⟨13, _⟩ => ⟨S1x1024, .i32⟩
  | .local _ .vmem, ⟨14, _⟩ => ⟨S1x1024, .i32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x5000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_19 : BitVec 32 := 0#32
  let v48 : BitVec 1 := Scalar.cmpi .ne v47 c0_i32_19
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S512x5000_S5000_d0 : S512x5000.ReducesTo [0] S5000
  h_S_ : 0 < S_.numel
  bcast_S5000_S1x5000_1 : S5000.BroadcastsInDim S1x5000 (![1] : Fin 1 → Fin S1x5000.rank)
  bcast_S1x5000_S512x5000_0_1 : S1x5000.BroadcastsInDim S512x5000 (![0, 1] : Fin 2 → Fin S512x5000.rank)
  bitsLt_bf16_f32 : FTy.bits .bf16 < FTy.bits .f32
  shapeCasts_S4096_S4096x1 : S4096.ShapeCasts S4096x1
  shapeCasts_S4096_S1x4096 : S4096.ShapeCasts S1x4096
  concatenates_S4096x512_S4096x512_S8192x512_d0 : Shape.Concatenates [S4096x512, S4096x512] S8192x512 0
  concatenates_S4096_S4096_S8192_d0 : Shape.Concatenates [S4096, S4096] S8192 0
  shapeCasts_S8192_S8192x1 : S8192.ShapeCasts S8192x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x5000_S512x5000_0_0 : ∀ a, (![0, 0] : Fin 2 → Nat) a + S512x5000.size a ≤ S512x5000.size a
  h_S512x5000 : 0 < S512x5000.numel
  shapeCasts_S512x5000_S512x5000 : S512x5000.ShapeCasts S512x5000
  reduces_S256x5000_S256 : S256x5000.Reduces [1] S256
  shapeCasts_S256_S256x1 : S256.ShapeCasts S256x1
  broadcasts_S256x1_S256x5000 : S256x1.Broadcasts S256x5000
  iota_S256x5000_d1_w32 : S256x5000.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  slices_S8192x1_S4096x1_0_0 : S8192x1.Slices ![0, 0] S4096x1
  slices_S8192x1_S4096x1_4096_0 : S8192x1.Slices ![4096, 0] S4096x1
  reducesTo_S4096x1_S_d0_1 : S4096x1.ReducesTo [0, 1] S_
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  dot_S256x512_S512x5000_S256x5000_1_0_0_1_n_n_wf : DotDims.WF S256x512 S512x5000 S256x5000 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .bf16 = 32 ∨ (Rect.block (s := S8192x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x5000.size a ≤ S512x5000.size a
  hwx0_1 : ∀ i : grid0.Coords, EltTy.bits .bf16 = 32 ∨ (Rect.block (s := S512x5000) S512x5000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .bf16 = 32 ∨ (Rect.block (s := S4096x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x512.size a
  hwx1_1 : ∀ i : grid1.Coords, EltTy.bits .bf16 = 32 ∨ (Rect.block (s := S4096x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .i32 = 32 ∨ (Rect.block (s := S4096x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .i32 = 32 ∨ (Rect.block (s := S1x4096) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)

variable [Facts₀]

def dot_S256x512_S512x5000_S256x5000_1_0_0_1_n_n : DotDims S256x512 S512x5000 S256x5000 where
  lhsContracting := [1]
  rhsContracting := [0]
  lhsNonContracting := [0]
  rhsNonContracting := [1]
  lhsBatch := []
  rhsBatch := []
  wf := dot_S256x512_S512x5000_S256x5000_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v8) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x5000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S512x5000 : Shape := ⟨2, ![512, 5000]⟩
abbrev S_ : Shape := ⟨0, ![]⟩
abbrev S5000 : Shape := ⟨1, ![5000]⟩
abbrev S1x5000 : Shape := ⟨2, ![1, 5000]⟩
abbrev S4096x5000 : Shape := ⟨2, ![4096, 5000]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S512x4096 : Shape := ⟨2, ![512, 4096]⟩
abbrev S4096x4096 : Shape := ⟨2, ![4096, 4096]⟩
abbrev S1x4096 : Shape := ⟨2, ![1, 4096]⟩

abbrev nBuf : Space → Nat
  | .hbm => 162
  | .vmem => 0
  | .smem => 0
  | _ => 0

abbrev hbmTy0_0 (i : Nat) : BufTy := match i % 128 with
  | 0 => ⟨S4096x512, .f32⟩
  | 1 => ⟨S4096x512, .f32⟩
  | 2 => ⟨S4096, .i32⟩
  | 3 => ⟨S512x5000, .f32⟩
  | 4 => ⟨S512x5000, .f32⟩
  | 5 => ⟨S_, .f32⟩
  | 6 => ⟨S5000, .f32⟩
  | 7 => ⟨S1x5000, .f32⟩
  | 8 => ⟨S1x5000, .f32⟩
  | 9 => ⟨S512x5000, .f32⟩
  | 10 => ⟨S512x5000, .f32⟩
  | 11 => ⟨S4096x5000, .f32⟩
  | 12 => ⟨S_, .f32⟩
  | 13 => ⟨S4096x5000, .f32⟩
  | 14 => ⟨S4096x5000, .f32⟩
  | 15 => ⟨S4096x5000, .f32⟩
  | 16 => ⟨S_, .f32⟩
  | 17 => ⟨S4096x5000, .f32⟩
  | 18 => ⟨S4096x5000, .f32⟩
  | 19 => ⟨S_, .f32⟩
  | 20 => ⟨S4096, .f32⟩
  | 21 => ⟨S_, .f32⟩
  | 22 => ⟨S4096, .f32⟩
  | 23 => ⟨S4096, .f32⟩
  | 24 => ⟨S4096x1, .f32⟩
  | 25 => ⟨S4096x5000, .f32⟩
  | 26 => ⟨S4096x5000, .f32⟩
  | 27 => ⟨S4096x5000, .f32⟩
  | 28 => ⟨S_, .f32⟩
  | 29 => ⟨S4096, .f32⟩
  | 30 => ⟨S4096x1, .f32⟩
  | 31 => ⟨S4096x1, .f32⟩
  | 32 => ⟨S4096x5000, .f32⟩
  | 33 => ⟨S4096x5000, .f32⟩
  | 34 => ⟨S4096x1, .i32⟩
  | 35 => ⟨S_, .i32⟩
  | 36 => ⟨S4096x1, .i32⟩
  | 37 => ⟨S4096x1, .i1⟩
  | 38 => ⟨S_, .i32⟩
  | 39 => ⟨S4096x1, .i32⟩
  | 40 => ⟨S4096x1, .i32⟩
  | 41 => ⟨S4096x1, .i32⟩
  | 42 => ⟨S4096x1x1, .i32⟩
  | 43 => ⟨S1, .i32⟩
  | 44 => ⟨S_, .i32⟩
  | 45 => ⟨S4096x1x1, .i32⟩
  | 46 => ⟨S4096x1x1, .i1⟩
  | 47 => ⟨S1x1x1, .i32⟩
  | 48 => ⟨S4096x1x1, .i32⟩
  | 49 => ⟨S4096x1x1, .i1⟩
  | 50 => ⟨S4096x1x1, .i1⟩
  | 51 => ⟨S_, .i1⟩
  | 52 => ⟨S4096x1, .i1⟩
  | 53 => ⟨S4096x1, .f32⟩
  | 54 => ⟨S_, .f32⟩
  | 55 => ⟨S4096x1, .f32⟩
  | 56 => ⟨S4096x1, .f32⟩
  | 57 => ⟨S4096, .f32⟩
  | 58 => ⟨S4096, .f32⟩
  | 59 => ⟨S_, .f32⟩
  | 60 => ⟨S_, .f32⟩
  | 61 => ⟨S_, .f32⟩
  | 62 => ⟨S_, .f32⟩
  | 63 => ⟨S_, .f32⟩
  | 64 => ⟨S4096, .f32⟩
  | 65 => ⟨S_, .f32⟩
  | 66 => ⟨S4096, .f32⟩
  | 67 => ⟨S4096, .f32⟩
  | 68 => ⟨S4096x1, .f32⟩
  | 69 => ⟨S4096x5000, .f32⟩
  | 70 => ⟨S4096x5000, .f32⟩
  | 71 => ⟨S4096x5000, .f32⟩
  | 72 => ⟨S_, .f32⟩
  | 73 => ⟨S4096, .f32⟩
  | 74 => ⟨S4096x1, .f32⟩
  | 75 => ⟨S4096x1, .f32⟩
  | 76 => ⟨S4096x5000, .f32⟩
  | 77 => ⟨S4096x5000, .f32⟩
  | 78 => ⟨S4096x1, .i32⟩
  | 79 => ⟨S_, .i32⟩
  | 80 => ⟨S4096x1, .i32⟩
  | 81 => ⟨S4096x1, .i1⟩
  | 82 => ⟨S_, .i32⟩
  | 83 => ⟨S4096x1, .i32⟩
  | 84 => ⟨S4096x1, .i32⟩
  | 85 => ⟨S4096x1, .i32⟩
  | 86 => ⟨S4096x1x1, .i32⟩
  | 87 => ⟨S1, .i32⟩
  | 88 => ⟨S_, .i32⟩
  | 89 => ⟨S4096x1x1, .i32⟩
  | 90 => ⟨S4096x1x1, .i1⟩
  | 91 => ⟨S1x1x1, .i32⟩
  | 92 => ⟨S4096x1x1, .i32⟩
  | 93 => ⟨S4096x1x1, .i1⟩
  | 94 => ⟨S4096x1x1, .i1⟩
  | 95 => ⟨S_, .i1⟩
  | 96 => ⟨S4096x1, .i1⟩
  | 97 => ⟨S4096x1, .f32⟩
  | 98 => ⟨S_, .f32⟩
  | 99 => ⟨S4096x1, .f32⟩
  | 100 => ⟨S4096x1, .f32⟩
  | 101 => ⟨S4096, .f32⟩
  | 102 => ⟨S4096, .f32⟩
  | 103 => ⟨S_, .f32⟩
  | 104 => ⟨S_, .f32⟩
  | 105 => ⟨S_, .f32⟩
  | 106 => ⟨S_, .f32⟩
  | 107 => ⟨S_, .f32⟩
  | 108 => ⟨S512x4096, .f32⟩
  | 109 => ⟨S4096x4096, .f32⟩
  | 110 => ⟨S4096x1, .i32⟩
  | 111 => ⟨S1x4096, .i32⟩
  | 112 => ⟨S4096x4096, .i32⟩
  | 113 => ⟨S4096x4096, .i32⟩
  | 114 => ⟨S4096x4096, .i1⟩
  | 115 => ⟨S_, .f32⟩
  | 116 => ⟨S4096x4096, .f32⟩
  | 117 => ⟨S4096x4096, .f32⟩
  | 118 => ⟨S_, .f32⟩
  | 119 => ⟨S4096x4096, .f32⟩
  | 120 => ⟨S4096x4096, .f32⟩
  | 121 => ⟨S_, .f32⟩
  | 122 => ⟨S4096x4096, .f32⟩
  | 123 => ⟨S4096x4096, .f32⟩
  | 124 => ⟨S4096x4096, .f32⟩
  | 125 => ⟨S4096x4096, .f32⟩
  | 126 => ⟨S4096x4096, .i1⟩
  | 127 => ⟨S4096x4096, .f32⟩
  | _ => ⟨S4096x512, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S4096x4096, .f32⟩
  | 5 => ⟨S4096x4096, .f32⟩
  | 6 => ⟨S4096x4096, .f32⟩
  | 7 => ⟨S_, .f32⟩
  | 8 => ⟨S4096x4096, .f32⟩
  | 9 => ⟨S4096x4096, .f32⟩
  | 10 => ⟨S_, .f32⟩
  | 11 => ⟨S4096x4096, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S4096x4096, .f32⟩
  | 18 => ⟨S4096x4096, .i1⟩
  | 19 => ⟨S4096x4096, .f32⟩
  | 20 => ⟨S4096x4096, .f32⟩
  | 21 => ⟨S4096x4096, .f32⟩
  | 22 => ⟨S4096x4096, .f32⟩
  | 23 => ⟨S4096x4096, .f32⟩
  | 24 => ⟨S4096x4096, .f32⟩
  | 25 => ⟨S4096x4096, .f32⟩
  | 26 => ⟨S4096x4096, .f32⟩
  | 27 => ⟨S4096x4096, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v9 : Ref sig .tc := ⟨.hbm, 33, rfl⟩
abbrev main_v10 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_cst_1 : Ref sig .tc := ⟨.hbm, 59, rfl⟩
abbrev main_v14 : Ref sig .tc := ⟨.hbm, 60, rfl⟩
abbrev main_cst_2 : Ref sig .tc := ⟨.hbm, 61, rfl⟩
abbrev main_v15 : Ref sig .tc := ⟨.hbm, 62, rfl⟩
abbrev main_call3_cst : Ref sig .tc := ⟨.hbm, 63, rfl⟩
abbrev main_call3_v0 : Ref sig .tc := ⟨.hbm, 64, rfl⟩
abbrev main_call3_cst_0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_cst_1 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_v16 : Ref sig .tc := ⟨.hbm, 77, rfl⟩
abbrev main_v17 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_cst : Ref sig .tc := ⟨.hbm, 98, rfl⟩
abbrev main_call4_v14 : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_v21 : Ref sig .tc := ⟨.hbm, 104, rfl⟩
abbrev main_cst_4 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_cst_5 : Ref sig .tc := ⟨.hbm, 115, rfl⟩
abbrev main_v31 : Ref sig .tc := ⟨.hbm, 116, rfl⟩
abbrev main_v32 : Ref sig .tc := ⟨.hbm, 117, rfl⟩
abbrev main_cst_6 : Ref sig .tc := ⟨.hbm, 118, rfl⟩
abbrev main_v33 : Ref sig .tc := ⟨.hbm, 119, rfl⟩
abbrev main_v34 : Ref sig .tc := ⟨.hbm, 120, rfl⟩
abbrev main_call5_cst : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_v6 : Ref sig .tc := ⟨.hbm, 128, rfl⟩
abbrev main_call5_v7 : Ref sig .tc := ⟨.hbm, 129, rfl⟩
abbrev main_call5_v8 : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_v35 : Ref sig .tc := ⟨.hbm, 134, rfl⟩
abbrev main_cst_7 : Ref sig .tc := ⟨.hbm, 135, rfl⟩
abbrev main_v36 : Ref sig .tc := ⟨.hbm, 136, rfl⟩
abbrev main_v37 : Ref sig .tc := ⟨.hbm, 137, rfl⟩
abbrev main_cst_8 : Ref sig .tc := ⟨.hbm, 138, rfl⟩
abbrev main_v38 : Ref sig .tc := ⟨.hbm, 139, rfl⟩
abbrev main_v39 : Ref sig .tc := ⟨.hbm, 140, rfl⟩
abbrev main_call6_cst : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_call6_v5 : Ref sig .tc := ⟨.hbm, 147, rfl⟩
abbrev main_call6_v6 : Ref sig .tc := ⟨.hbm, 148, rfl⟩
abbrev main_call6_v7 : Ref sig .tc := ⟨.hbm, 149, rfl⟩
abbrev main_call6_v8 : Ref sig .tc := ⟨.hbm, 150, rfl⟩
abbrev main_call6_v9 : Ref sig .tc := ⟨.hbm, 151, rfl⟩
abbrev main_call6_v10 : Ref sig .tc := ⟨.hbm, 152, rfl⟩
abbrev main_call6_v11 : Ref sig .tc := ⟨.hbm, 153, rfl⟩
abbrev main_v40 : Ref sig .tc := ⟨.hbm, 154, rfl⟩
abbrev main_v41 : Ref sig .tc := ⟨.hbm, 155, rfl⟩
abbrev main_cst_9 : Ref sig .tc := ⟨.hbm, 156, rfl⟩
abbrev main_v42 : Ref sig .tc := ⟨.hbm, 157, rfl⟩
abbrev main_cst_10 : Ref sig .tc := ⟨.hbm, 158, rfl⟩
abbrev main_v43 : Ref sig .tc := ⟨.hbm, 159, rfl⟩
abbrev main_cst_11 : Ref sig .tc := ⟨.hbm, 160, rfl⟩
abbrev main_v44 : Ref sig .tc := ⟨.hbm, 161, rfl⟩

abbrev nD : Nat := 1
abbrev τ : Topo := Topo.v7x

variable {F : FTy → Type} [FloatOps F]

class Facts₀ : Prop where
  reducesTo_S512x5000_S5000_d0 : S512x5000.ReducesTo [0] S5000
  h_S_ : 0 < S_.numel
  bcast_S5000_S1x5000_1 : S5000.BroadcastsInDim S1x5000 (![1] : Fin 1 → Fin S1x5000.rank)
  bcast_S1x5000_S512x5000_0_1 : S1x5000.BroadcastsInDim S512x5000 (![0, 1] : Fin 2 → Fin S512x5000.rank)
  bcast_S_S4096x5000 : S_.BroadcastsInDim S4096x5000 (![] : Fin 0 → Fin S4096x5000.rank)
  reducesTo_S4096x5000_S4096_d1 : S4096x5000.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x5000_0_1 : S4096x1.BroadcastsInDim S4096x5000 (![0, 1] : Fin 2 → Fin S4096x5000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  transposes_S4096x512_S512x4096_1_0 : S4096x512.Transposes [1, 0] S512x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x512_S512x5000_S4096x5000_1_0_0_1_n_n_wf : DotDims.WF S4096x512 S512x5000 S4096x5000 [1] [0] [0] [1] [] []
  gather_S4096x5000_S4096x1x1_S4096x1_n_1_0_0_1_2_11_wf : GatherDims.WF S4096x5000 S4096x1x1 S4096x1 [] [1] [0] [1] [0] 2 ![1, 1]
  dot_S4096x512_S512x4096_S4096x4096_1_0_0_1_n_n_wf : DotDims.WF S4096x512 S512x4096 S4096x4096 [1] [0] [0] [1] [] []

variable [Facts₀]

def dot_S4096x512_S512x5000_S4096x5000_1_0_0_1_n_n : DotDims S4096x512 S512x5000 S4096x5000 where
  lhsContracting := [1]
  rhsContracting := [0]
  lhsNonContracting := [0]
  rhsNonContracting := [1]
  lhsBatch := []
  rhsBatch := []
  wf := dot_S4096x512_S512x5000_S4096x5000_1_0_0_1_n_n_wf
def gather_S4096x5000_S4096x1x1_S4096x1_n_1_0_0_1_2_11 : GatherDims S4096x5000 S4096x1x1 S4096x1 where
  offsetDims := []
  collapsedSliceDims := [1]
  operandBatchingDims := [0]
  startIndicesBatchingDims := [0]
  startIndexMap := [1]
  indexVectorDim := 2
  sliceSizes := ![1, 1]
  wf := gather_S4096x5000_S4096x1x1_S4096x1_n_1_0_0_1_2_11_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KI.Region0.lean ====
/-
  The cross-entropy kernel's region (pipeline 0, 32 grid points, one block of 256 rows per point) at an
  arbitrary contents `V` of the core's buffers at the region's entry: the windows' blocks, what the body
  leaves in the output window's buffer (its one store: the 256 rows' negative log-likelihoods), the body's
  triple, the pipeline's proof data and the body obligation.
-/
import proofs.«409325_j5102421147884_2_alg».proof.Proof.Gen.KernelIdeal.Launch
import proofs.«409325_j5102421147884_2_alg».proof.Proof.Gen.KernelIdeal.Skeleton
import proofs.«409325_j5102421147884_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rE : Rect S256x512 := Rect.unit (s := S256x512) ![0, 0] S256x512.size inb_S256x512_S256x512_0_0
abbrev rW : Rect S512x5000 := Rect.unit (s := S512x5000) ![0, 0] S512x5000.size inb_S512x5000_S512x5000_0_0
abbrev rL : Rect S256x1 := Rect.unit (s := S256x1) ![0, 0] S256x1.size inb_S256x1_S256x1_0_0

/-- The output window's buffer after the body: its one store, of the rows' negative log-likelihoods
    computed from the three input blocks. -/
def out0_3 (x0 : Vec F S256x512 .bf16) (x1 : Vec F S512x5000 .bf16) (x2 : Vec F S256x1 .i32) : Vec F S256x1 .f32 :=
  View.canon [⟨rL, k0_pay1 (View.ld x0 rE) (View.ld x1 rW) (View.ld x2 rL)⟩]

/-- The proof data of pipeline 0 on core `c`: the arrays as the region finds them; after the body each
    input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-! ## What the proof data says the body leaves, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The input windows' buffers hold their blocks at every point

Each of the three inputs is an uncut window that is never idle and that the body leaves as it found it. At a
point where it is fetched its buffer holds the fetched block; at a point where it is not (the weight window
after the first point: its block index is constant) the index has not moved since the previous point, whose
block is therefore this point's. -/

theorem before0_0 (c : Dev nD) (t : Fin cfg0.N) (d) : (dat0 V c).before 0 t d = iblk0 V c 0 t := by
  refine ((dat0 V c).before_in_eq_fetched 0 rfl (fun _ => rfl) (fun _ _ _ => rfl) (fun s => ?_) t d).trans ?_
  · rw [after0_0]; rfl
  · rfl

theorem before0_1 (c : Dev nD) (t : Fin cfg0.N) (d) : (dat0 V c).before 1 t d = iblk0 V c 1 t := by
  refine ((dat0 V c).before_in_eq_fetched 1 rfl (fun _ => rfl) (fun _ _ _ => rfl) (fun s => ?_) t d).trans ?_
  · rw [after0_1]; rfl
  · rfl

theorem before0_2 (c : Dev nD) (t : Fin cfg0.N) (d) : (dat0 V c).before 2 t d = iblk0 V c 2 t := by
  refine ((dat0 V c).before_in_eq_fetched 2 rfl (fun _ => rfl) (fun _ _ _ => rfl) (fun s => ?_) t d).trans ?_
  · rw [after0_2]; rfl
  · rfl

/-! ## The one store covers the output buffer -/

/-- The store's rectangle is the whole 256×1 shape, so every index of the buffer lies in it. -/
theorem cover0_3 (p : Vec F S256x1 .f32) (y : S256x1.Idx) :
    ∃ pc ∈ ([⟨rL, p⟩] : List (View.Piece (Elt F) S256x1 .f32)), y ∈ pc.1.set :=
  View.cover_of_tiled [⟨rL, p⟩] S256x1.size (by rfl) y

/-! ## The body's triple -/

set_option maxHeartbeats 1000000 in
/-- On whole memrefs whose contents read x0, x1, x2 (inputs) and anything (output), the kernel function runs
    to the continuation with the inputs unchanged and the output reading out0_3 x0 x1 x2: three
    whole-block loads, a load of the output that nothing uses, and one store over the whole output. -/
theorem sound_kernel0 (c : Dev nD) (E : Set ℕ) (i : grid0.Coords)
    (a0 : Memref sig .tc .vmem S256x512 .bf16) (h0 : a0.IsWhole)
    (a1 : Memref sig .tc .vmem S512x5000 .bf16) (h1 : a1.IsWhole)
    (a2 : Memref sig .tc .vmem S256x1 .i32) (h2 : a2.IsWhole)
    (a3 : Memref sig .tc .vmem S256x1 .f32) (h3 : a3.IsWhole)
    (x0 : Vec F S256x512 .bf16) (x1 : Vec F S512x5000 .bf16) (x2 : Vec F S256x1 .i32) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2 ∗ owns (c : Thread nD τ) a3 fullShare (out0_3 x0 x1 x2)) -∗ K ⟨⟩))
      ⊢ wp frame (wpE (defs₀ (F := F)) Variants.none c none) E (cc0__ce_kernel i a0 h0 a1 h1 a2 h2 a3 h3) K := by
  simp only [cc0__ce_kernel_eq_skeleton]; unfold cc0__ce_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation at one point -/

/-- What the body is handed at point t: the invariant, the core's owes, and the four windows' current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the inputs' buffers hold their blocks, so the kernel function's triple applies; the invariant
    and the core's owes are carried across unread (they do not depend on the point). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.Region1.lean ====
/-
  The global-align kernel's region (pipeline 1, a 4 × 4 grid: point t is row tile t / 4 against column
  tile t % 4) at an arbitrary contents `V` of the core's buffers at the region's entry. The body keeps a
  1024-row accumulator in a scratch buffer across the four points of a row tile: at column tile 0 it
  resets it, at every point it adds the row sums of the tile's 1024 × 1024 pair losses, and at column
  tile 3 it copies it into the output window's buffer, which the pipeline writes back at those points
  only. Here: the windows' blocks, the accumulator after each point (`accAt`), the region invariant that
  carries it (`PhiS`), the pipeline's proof data, the body's triple in each of its three control cases
  and the body obligation.
-/
import proofs.«409325_j5102421147884_2_alg».proof.Proof.Gen.KernelIdeal.Launch
import proofs.«409325_j5102421147884_2_alg».proof.Proof.Gen.KernelIdeal.Skeleton
import proofs.«409325_j5102421147884_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand: a whole scoped buffer of the kernel's own, passed beside the windows. -/
abbrev scM : Memref sig .tc .vmem S1024x1 .f32 := Memref.whole cc1_scratch0

/-- The 1024 × 1024 tile of pair losses at point `t`, from the four input blocks. -/
def tile (c : Dev nD) (t : Fin cfg1.N) : FVec F S1024x1024 .f32 :=
  k1_pay3 (iblk1 V c 0 t) (iblk1 V c 1 t) (iblk1 V c 2 t) (iblk1 V c 3 t)

/-- THE ACCUMULATION: what the scratch holds after the body at position `n`. At the first column tile of
    a row tile (`n % 4 = 0`) the row sums of the tile over the reset accumulator, otherwise over what the
    point before left. -/
def accAt (c : Dev nD) : (n : ℕ) → n < cfg1.N → Vec F S1024x1 .f32
  | 0, hn => k1_pay1 (tile V c ⟨0, hn⟩) (k1_pay2 (F := F))
  | n + 1, hn =>
    if (n + 1) % 4 = 0 then k1_pay1 (tile V c ⟨n + 1, hn⟩) (k1_pay2 (F := F))
    else k1_pay1 (tile V c ⟨n + 1, hn⟩) (accAt c n (Nat.lt_of_succ_lt hn))

/-- The scoped buffers of the core that are neither this region's staging buffers nor its scratch (the
    other region's staging buffers), each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region invariant before position `n`: before the first point the scoped rest (every scratch at
    anything) and the generator register; afterwards the same with the accumulator at what the point
    before left. -/
def PhiS (c : Dev nD) : (n : ℕ) → n ≤ cfg1.N → sProp 𝕄
  | 0, _ => Pipeline.ΦA spec1 c
  | n + 1, hn => iprop(otherScoped c ∗ owns (c : Thread nD τ) scM fullShare (accAt V c n hn) ∗ (∃ r, prngReg c r))

/-- The proof data of pipeline 1 on core `c`: the arrays as the region finds them; after the body each
    input's buffer at its block and the output's at the accumulator (consulted at the points where the
    window is written back, `t % 4 = 3`, where the body has just copied the accumulator into it); the
    invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

/-! ## The branch conditions over the grid, and where the output window is idle -/

/-- The first branch's condition at coordinates `i` (the column tile is 0), as the body computes it. -/
abbrev cond1_0 (i : grid1.Coords) : Prop := (Scalar.cmpi .ne (Scalar.extui (Scalar.cmpi .eq (BitVec.ofNat 32 (i 1).val) 0#32)) 0#32) = 1#1
/-- It holds exactly at the points ≡ 0 (mod 4): decided over the sixteen points. -/
theorem hcond1_0 : ∀ t : Fin cfg1.N, cond1_0 (grid1.coords t) ↔ t.val % 4 = 0 :=
  (by decide +kernel : ∀ t : Fin grid1.N, cond1_0 (grid1.coords t) ↔ t.val % 4 = 0)
/-- The second branch's condition (the column tile is 3). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The output window is idle wherever the second condition fails, and is not written back there. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it holds the window is live. -/
theorem liveAt1_4 : ∀ t : Fin cfg1.N, cond1_1 (grid1.coords t) → cfg1.idle 4 (grid1.coords t) = false := by decide +kernel

/-- The zero offsets of a whole-buffer access. -/
theorem hz : (![0, 0] : Fin 2 → Nat) = fun _ => 0 := funext fun a => by fin_cases a <;> rfl

/-! ## The body on any whole memrefs, one triple per control case

Every load and store of the body is of a whole buffer, so a load reads the contents and a store
replaces them. Writing `T = k1_pay3 x0 x1 x2 x3` for the tile of pair losses of the four input
contents: at column tile 0 the scratch ends at the row sums of `T` over the zero column; elsewhere at the
row sums of `T` over what it held; at column tile 3 the output buffer ends at the same value. -/

set_option maxHeartbeats 1000000 in
/-- Column tile 0: the accumulator is reset, then the tile's row sums are added. The output buffer is
    untouched. -/
theorem runA (c : Dev nD) (i : grid1.Coords)
    (a2 : Memref sig .tc .vmem S1024x512 .bf16) (h2 : a2.IsWhole) (a3 : Memref sig .tc .vmem S1024x512 .bf16) (h3 : a3.IsWhole)
    (a4 : Memref sig .tc .vmem S1024x1 .i32) (h4 : a4.IsWhole) (a5 : Memref sig .tc .vmem S1x1024 .i32) (h5 : a5.IsWhole)
    (a6 : Memref sig .tc .vmem S1024x1 .f32) (h6 : a6.IsWhole) (a7 : Memref sig .tc .vmem S1024x1 .f32) (h7 : a7.IsWhole)
    (hc0 : cond1_0 i) (hc1 : ¬cond1_1 i) (x0 : Vec F S1024x512 .bf16) (x1 : Vec F S1024x512 .bf16) (x2 : Vec F S1024x1 .i32) (x3 : Vec F S1x1024 .i32)
    (xo : Vec F S1024x1 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare xo ∗ (∃ d, owns (c : Thread nD τ) a7 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare xo
            ∗ owns (c : Thread nD τ) a7 fullShare (k1_pay1 (k1_pay3 x0 x1 x2 x3) (k1_pay2 (F := F)))) -∗ K ⟨⟩))
      ⊢ wp frame (wpE (defs₀ (F := F)) Variants.none c none) E (cc1__global_align_kernel i a2 h2 a3 h3 a4 h4 a5 h5 a6 h6 a7 h7) K := by
  simp only [cc1__global_align_kernel_eq_skeleton]; unfold cc1__global_align_kernel_skel
  simp only [k1_part1_eq_skeleton]
  unfold owns
  iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
  obtain rfl := h2.eq_unread hf0; obtain rfl := h3.eq_unread hf1; obtain rfl := h4.eq_unread hf2
  obtain rfl := h5.eq_unread hf3; obtain rfl := h6.eq_unread hf6
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H6]
  · iexists _; isplitr; · ipureintro; exact h6.read_unread _
    iexact H6
  iexists _; isplitr
  swap; · iexact H7
  ipureintro
  sl_unfold_words
  rw [View.read_writes_eq_canon _ _ _ (fun y => ⟨_, List.mem_cons.mpr (Or.inl rfl), View.mem_set_unit_zero hz inb_S1024x1_S1024x1_0_0 y⟩)]
  rw [View.canon_cons_unit_zero (S := S1024x1) hz, View.readCov_unit_zero (S := S1024x1) _ hz]
  simp only [View.readAt_eq_ld, h2.read_unread, h3.read_unread, h4.read_unread, h5.read_unread,
    View.ld_unit_zero (S := S1024x1) hz, View.ld_unit_zero (S := S1024x512) hz, View.ld_unit_zero (S := S1x1024) hz]

set_option maxHeartbeats 1000000 in
/-- Column tiles 1 and 2: the tile's row sums are added to the accumulator. The output buffer is
    untouched. -/
theorem runB (c : Dev nD) (i : grid1.Coords)
    (a2 : Memref sig .tc .vmem S1024x512 .bf16) (h2 : a2.IsWhole) (a3 : Memref sig .tc .vmem S1024x512 .bf16) (h3 : a3.IsWhole)
    (a4 : Memref sig .tc .vmem S1024x1 .i32) (h4 : a4.IsWhole) (a5 : Memref sig .tc .vmem S1x1024 .i32) (h5 : a5.IsWhole)
    (a6 : Memref sig .tc .vmem S1024x1 .f32) (h6 : a6.IsWhole) (a7 : Memref sig .tc .vmem S1024x1 .f32) (h7 : a7.IsWhole)
    (hc0 : ¬cond1_0 i) (hc1 : ¬cond1_1 i) (x0 : Vec F S1024x512 .bf16) (x1 : Vec F S1024x512 .bf16) (x2 : Vec F S1024x1 .i32) (x3 : Vec F S1x1024 .i32)
    (xo : Vec F S1024x1 .f32) (xs : Vec F S1024x1 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare xo
            ∗ owns (c : Thread nD τ) a7 fullShare (k1_pay1 (k1_pay3 x0 x1 x2 x3) xs)) -∗ K ⟨⟩))
      ⊢ wp frame (wpE (defs₀ (F := F)) Variants.none c none) E (cc1__global_align_kernel i a2 h2 a3 h3 a4 h4 a5 h5 a6 h6 a7 h7) K := by
  simp only [cc1__global_align_kernel_eq_skeleton]; unfold cc1__global_align_kernel_skel
  simp only [k1_part1_eq_skeleton]
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := h2.eq_unread hf0; obtain rfl := h3.eq_unread hf1; obtain rfl := h4.eq_unread hf2
  obtain rfl := h5.eq_unread hf3; obtain rfl := h6.eq_unread hf6; obtain rfl := h7.eq_unread hf7
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H6]
  · iexists _; isplitr; · ipureintro; exact h6.read_unread _
    iexact H6
  iexists _; isplitr
  swap; · iexact H7
  ipureintro
  sl_unfold_words
  rw [View.read_writes_eq_canon _ _ _ (fun y => ⟨_, List.mem_singleton_self _, View.mem_set_unit_zero hz inb_S1024x1_S1024x1_0_0 y⟩)]
  rw [View.canon_unit_zero hz]
  simp only [View.readAt_eq_ld, h2.read_unread, h3.read_unread, h4.read_unread, h5.read_unread, h7.read_unread,
    View.ld_unit_zero (S := S1024x1) hz, View.ld_unit_zero (S := S1024x512) hz, View.ld_unit_zero (S := S1x1024) hz]

set_option maxHeartbeats 1000000 in
/-- Column tile 3: the tile's row sums are added to the accumulator, which is then copied into the
    output buffer, whatever that held. -/
theorem runC (c : Dev nD) (i : grid1.Coords)
    (a2 : Memref sig .tc .vmem S1024x512 .bf16) (h2 : a2.IsWhole) (a3 : Memref sig .tc .vmem S1024x512 .bf16) (h3 : a3.IsWhole)
    (a4 : Memref sig .tc .vmem S1024x1 .i32) (h4 : a4.IsWhole) (a5 : Memref sig .tc .vmem S1x1024 .i32) (h5 : a5.IsWhole)
    (a6 : Memref sig .tc .vmem S1024x1 .f32) (h6 : a6.IsWhole) (a7 : Memref sig .tc .vmem S1024x1 .f32) (h7 : a7.IsWhole)
    (hc0 : ¬cond1_0 i) (hc1 : cond1_1 i) (x0 : Vec F S1024x512 .bf16) (x1 : Vec F S1024x512 .bf16) (x2 : Vec F S1024x1 .i32) (x3 : Vec F S1x1024 .i32)
    (xs : Vec F S1024x1 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ owns (c : Thread nD τ) a7 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare (k1_pay1 (k1_pay3 x0 x1 x2 x3) xs)
            ∗ owns (c : Thread nD τ) a7 fullShare (k1_pay1 (k1_pay3 x0 x1 x2 x3) xs)) -∗ K ⟨⟩))
      ⊢ wp frame (wpE (defs₀ (F := F)) Variants.none c none) E (cc1__global_align_kernel i a2 h2 a3 h3 a4 h4 a5 h5 a6 h6 a7 h7) K := by
  simp only [cc1__global_align_kernel_eq_skeleton]; unfold cc1__global_align_kernel_skel
  simp only [k1_part1_eq_skeleton]
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := h2.eq_unread hf0; obtain rfl := h3.eq_unread hf1; obtain rfl := h4.eq_unread hf2
  obtain rfl := h5.eq_unread hf3; obtain rfl := h7.eq_unread hf7
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H6]
  · iexists _; isplitr
    swap; · iexact H6
    ipureintro
    sl_unfold_words
    rw [View.read_writes_eq_canon _ _ _ (fun y => ⟨_, List.mem_singleton_self _, View.mem_set_unit_zero hz inb_S1024x1_S1024x1_0_0 y⟩)]
    rw [View.canon_unit_zero hz, View.readCov_unit_zero (S := S1024x1) _ hz]
    simp only [View.readAt_eq_ld, h2.read_unread, h3.read_unread, h4.read_unread, h5.read_unread, h7.read_unread,
    View.ld_unit_zero (S := S1024x1) hz, View.ld_unit_zero (S := S1024x512) hz, View.ld_unit_zero (S := S1x1024) hz]
  iexists _; isplitr
  swap; · iexact H7
  ipureintro
  sl_unfold_words
  rw [View.read_writes_eq_canon _ _ _ (fun y => ⟨_, List.mem_singleton_self _, View.mem_set_unit_zero hz inb_S1024x1_S1024x1_0_0 y⟩)]
  rw [View.canon_unit_zero hz]
  simp only [View.readAt_eq_ld, h2.read_unread, h3.read_unread, h4.read_unread, h5.read_unread, h7.read_unread,
    View.ld_unit_zero (S := S1024x1) hz, View.ld_unit_zero (S := S1024x512) hz, View.ld_unit_zero (S := S1x1024) hz]

/-! ## The accumulator point by point, and the invariant -/

/-- At the first column tile of a row tile the accumulator is the tile's row sums over the zero column. -/
theorem accAt_first (c : Dev nD) (t : Fin cfg1.N) (h0 : t.val % 4 = 0) :
    accAt V c t.val t.isLt = k1_pay1 (tile V c t) (k1_pay2 (F := F)) := by
  obtain ⟨n, hn⟩ := t
  cases n with
  | zero => rfl
  | succ n => exact if_pos h0

/-- At the other column tiles it is the tile's row sums over what the point before left. -/
theorem accAt_next (c : Dev nD) (t : Fin cfg1.N) (h0 : ¬t.val % 4 = 0) :
    accAt V c t.val t.isLt
      = k1_pay1 (tile V c t) (accAt V c (t.val - 1) (Nat.lt_of_le_of_lt (Nat.sub_le _ _) t.isLt)) := by
  obtain ⟨n, hn⟩ := t
  cases n with
  | zero => exact absurd (Nat.zero_mod _) h0
  | succ n => exact if_neg h0

/-- After point `n`: the accumulator at that point's contents. -/
theorem PhiS_succ (c : Dev nD) (n : ℕ) (hn : n < cfg1.N) :
    PhiS V c (n + 1) hn
      = iprop(otherScoped c ∗ owns (c : Thread nD τ) scM fullShare (accAt V c n hn) ∗ (∃ r, prngReg c r)) := rfl

/-- Before a point that is not the first: the accumulator at what the point before left. -/
theorem PhiS_pos (c : Dev nD) (n : ℕ) (h : n ≤ cfg1.N) (hn : n ≠ 0) :
    PhiS V c n h
      = iprop(otherScoped c ∗ owns (c : Thread nD τ) scM fullShare (accAt V c (n - 1) (by omega)) ∗ (∃ r, prngReg c r)) := by
  cases n with
  | zero => exact absurd rfl hn
  | succ n => rfl

/-- Separating conjunction re-associated: the last of eight conjuncts moved out of the first group. -/
theorem sep_regroup {M : Type} [URA M] (A0 A1 A2 A3 A4 A5 A6 S R : sProp M) :
    iprop((A0 ∗ A1 ∗ A2 ∗ A3 ∗ A4 ∗ A5 ∗ A6 ∗ S) ∗ R) = iprop((A0 ∗ A1 ∗ A2 ∗ A3 ∗ A4 ∗ A5 ∗ A6) ∗ S ∗ R) := by
  have h₁ : iprop((A0 ∗ A1 ∗ A2 ∗ A3 ∗ A4 ∗ A5 ∗ A6 ∗ S) ∗ R) ⊢ iprop((A0 ∗ A1 ∗ A2 ∗ A3 ∗ A4 ∗ A5 ∗ A6) ∗ S ∗ R) := by
    iintro ⟨⟨H0, H1, H2, H3, H4, H5, H6, HS⟩, HR⟩
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [HS]; · iexact HS
    iexact HR
  have h₂ : iprop((A0 ∗ A1 ∗ A2 ∗ A3 ∗ A4 ∗ A5 ∗ A6) ∗ S ∗ R) ⊢ iprop((A0 ∗ A1 ∗ A2 ∗ A3 ∗ A4 ∗ A5 ∗ A6 ∗ S) ∗ R) := by
    iintro ⟨⟨H0, H1, H2, H3, H4, H5, H6⟩, HS, HR⟩
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iexact HR
  exact BI.equiv_iff.mp ⟨h₁, h₂⟩

/-- The launch's invariant with the scratch buffer split off the scoped rest and owned, whole, at some
    contents. -/
theorem PhiA1_eq (c : Dev nD) :
    (Pipeline.ΦA spec1 c : sProp 𝕄)
      = iprop(otherScoped (F := F) c ∗ (∃ d, owns (c : Thread nD τ) scM fullShare d) ∗ (∃ r, prngReg c r)) := by
  unfold Pipeline.ΦA otherScoped; rw [scopedRest1_eq]; simp only [scM, owns_whole]
  exact sep_regroup _ _ _ _ _ _ _ _ _

/-- Before any point the invariant gives the scratch at SOME contents: named ones forgotten. -/
theorem PhiS_any (c : Dev nD) (n : ℕ) (h : n ≤ cfg1.N) :
    PhiS V c n h ⊢ iprop(otherScoped (F := F) c ∗ (∃ d, owns (c : Thread nD τ) scM fullShare d) ∗ (∃ r, prngReg c r)) := by
  cases n with
  | zero =>
    show (Pipeline.ΦA spec1 c : sProp 𝕄) ⊢ _
    rw [PhiA1_eq]
  | succ n =>
    rw [PhiS_succ]
    iintro ⟨Ho, Hs, Hg⟩
    isplitl [Ho]; · iexact Ho
    isplitl [Hs]; · iexists _; iexact Hs
    iexact Hg

/-- The invariant at a point's start, restated at the point's position. -/
theorem Phi_castSucc (c : Dev nD) (t : Fin cfg1.N) :
    (dat1 V c).Φ t.castSucc = PhiS V c t.val (Nat.le_of_lt t.isLt) := rfl

/-! ## What each window's buffer holds around the body -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = accAt V c t.val t.isLt := by dsimp only [dat1]

/-- Each input's current buffer holds its block at every point, fetched there or not: where it is not
    fetched the block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Each window's current staging memref at point `t`, as the pipeline passes it, and its wholeness. -/
abbrev m0 (t : Fin cfg1.N) : Memref sig .tc .vmem S1024x512 .bf16 := win1_0.stage (cfg1.slots t 0)
abbrev hm0 (t : Fin cfg1.N) : (m0 t).IsWhole := hstage1_0 ((cfg1.slots t 0).cast nbuf1_0)
abbrev m1 (t : Fin cfg1.N) : Memref sig .tc .vmem S1024x512 .bf16 := win1_1.stage (cfg1.slots t 1)
abbrev hm1 (t : Fin cfg1.N) : (m1 t).IsWhole := hstage1_1 ((cfg1.slots t 1).cast nbuf1_1)
abbrev m2 (t : Fin cfg1.N) : Memref sig .tc .vmem S1024x1 .i32 := win1_2.stage (cfg1.slots t 2)
abbrev hm2 (t : Fin cfg1.N) : (m2 t).IsWhole := hstage1_2 ((cfg1.slots t 2).cast nbuf1_2)
abbrev m3 (t : Fin cfg1.N) : Memref sig .tc .vmem S1x1024 .i32 := win1_3.stage (cfg1.slots t 3)
abbrev hm3 (t : Fin cfg1.N) : (m3 t).IsWhole := hstage1_3 ((cfg1.slots t 3).cast nbuf1_3)
abbrev m4 (t : Fin cfg1.N) : Memref sig .tc .vmem S1024x1 .f32 := win1_4.stage (cfg1.slots t 4)
abbrev hm4 (t : Fin cfg1.N) : (m4 t).IsWhole := hstage1_4 ((cfg1.slots t 4).cast nbuf1_4)

/-- An input window's post: its buffer at its block (never idle). -/
theorem leaves1_0 (c : Dev nD) (t : Fin cfg1.N) :
    (dat1 V c).leavesExact 0 t = owns (c : Thread nD τ) (m0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (m1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (m2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (m3 t) fullShare (iblk1 V c 3 t) := by
  unfold Dat.leavesExact; rw [show cfg1.idle 3 (cfg1.grid.coords t) = false from rfl, after1_3]

/-! ## The body obligation at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (m0 t) fullShare ((dat1 V c).before 0 t d))
    ∗ (∃ d, owns (c : Thread nD τ) (m1 t) fullShare ((dat1 V c).before 1 t d))
    ∗ (∃ d, owns (c : Thread nD τ) (m2 t) fullShare ((dat1 V c).before 2 t d))
    ∗ (∃ d, owns (c : Thread nD τ) (m3 t) fullShare ((dat1 V c).before 3 t d))
    ∗ (∃ d, owns (c : Thread nD τ) (m4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4000000 in
/-- The body at any point. The inputs' buffers hold their blocks; the position modulo 4 says which control
    case the point is in; the invariant hands the body the accumulator (at anything where it is reset, else at
    what the point before left) and takes it back at this point's value; the output window's buffer comes back
    as found except at column tile 3, where it comes back at the accumulator. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, Phi_castSucc]
  have hN : t.val < 16 := lt_of_lt_of_eq t.isLt (show cfg1.N = 16 from N_1)
  by_cases h0 : t.val % 4 = 0
  · -- column tile 0
    have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1), accAt_first V c t h0]
    iintro ⟨HΦ, Ho, ⟨%d0, H0⟩, ⟨%d1, H1⟩, ⟨%d2, H2⟩, ⟨%d3, H3⟩, ⟨%d4, H4⟩⟩
    ihave HΦ' := (PhiS_any V c t.val (Nat.le_of_lt t.isLt)) $$ HΦ
    icases HΦ' with ⟨Hr, HS, Hg⟩
    iapply (runA c (grid1.coords t) (m0 t) (hm0 t) (m1 t) (hm1 t) (m2 t) (hm2 t) (m3 t) (hm3 t) (m4 t) (hm4 t) scM (Memref.isWhole_whole _)
      hc0 hc1 (iblk1 V c 0 t) (iblk1 V c 1 t) (iblk1 V c 2 t) (iblk1 V c 3 t) ((dat1 V c).before 4 t d4) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    isplitl [H3]; · iexact H3
    iexists _; iexact H4
  · have hc0 : ¬cond1_0 (grid1.coords t) := fun h => h0 ((hcond1_0 t).mp h)
    have hpos : t.val ≠ 0 := fun e => h0 (by rw [e])
    rw [PhiS_pos V c t.val (Nat.le_of_lt t.isLt) hpos, accAt_next V c t h0]
    by_cases h1 : t.val % 4 = 3
    · -- column tile 3
      have hc1 : cond1_1 (grid1.coords t) := (hcond1_1 t).mpr h1
      rw [show (dat1 V c).leavesExact 4 t = owns (c : Thread nD τ) (m4 t) fullShare ((dat1 V c).after 4 t) from by
        unfold Dat.leavesExact; rw [liveAt1_4 t hc1], after1_4, accAt_next V c t h0]
      iintro ⟨⟨Hr, HS, Hg⟩, Ho, ⟨%d0, H0⟩, ⟨%d1, H1⟩, ⟨%d2, H2⟩, ⟨%d3, H3⟩, ⟨%d4, H4⟩⟩
      iapply (runC c (grid1.coords t) (m0 t) (hm0 t) (m1 t) (hm1 t) (m2 t) (hm2 t) (m3 t) (hm3 t) (m4 t) (hm4 t) scM (Memref.isWhole_whole _)
        hc0 hc1 (iblk1 V c 0 t) (iblk1 V c 1 t) (iblk1 V c 2 t) (iblk1 V c 3 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
    · -- column tiles 1 and 2
      have hc1 : ¬cond1_1 (grid1.coords t) := fun h => h1 ((hcond1_1 t).mp h)
      rw [Dat.leavesExact_idle (dat1 V c) 4 t (idleAt1_4 t hc1) (noFlush1_4 t hc1)]
      iintro ⟨⟨Hr, HS, Hg⟩, Ho, ⟨%d0, H0⟩, ⟨%d1, H1⟩, ⟨%d2, H2⟩, ⟨%d3, H3⟩, ⟨%d4, H4⟩⟩
      iapply (runB c (grid1.coords t) (m0 t) (hm0 t) (m1 t) (hm1 t) (m2 t) (hm2 t) (m3 t) (hm3 t) (m4 t) (hm4 t) scM (Memref.isWhole_whole _)
        hc0 hc1 (iblk1 V c 0 t) (iblk1 V c 1 t) (iblk1 V c 2 t) (iblk1 V c 3 t) ((dat1 V c).before 4 t d4)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 :=
  Idealize.SL.BI.Entails.refl _

/-- After the last point the invariant gives the scoped rest and the generator register back: the
    accumulator's named contents are forgotten. -/
theorem hout1 (c : Dev nD) : (dat1 V c).Φ (Fin.last cfg1.N) ⊢ Pipeline.ΦA spec1 c := by
  rw [PhiA1_eq]
  exact PhiS_any V c (Fin.last cfg1.N).val (Nat.le_of_lt_succ (Fin.last cfg1.N).isLt)

end Cert.KernelIdeal.R1

end
-- ==== Proof.KI.Run.lean ====
/-
  The whole program's run: @main is host operations, the cross-entropy region, host operations, the
  global-align region, host operations. The buffers' contents at each boundary are a fold from the launch
  memory (`W0 … W6`: a host stretch applies its operations, a region leaves its arrays at what its
  write-backs make of them and every other buffer as entered); the launch over these six segments ends
  with every unscoped buffer at `W6`, from which the arguments are read back unchanged.
-/
import proofs.«409325_j5102421147884_2_alg».proof.Proof.KI.Region0
import proofs.«409325_j5102421147884_2_alg».proof.Proof.KI.Region1
import proofs.«409325_j5102421147884_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the column-norm stretch. -/
abbrev W1 : Dev nD → Valuation τ sig (Elt F) := fun c => StableHlo.after hostOps0 (W0 m c)
/-- After the normalisation, the format changes and the concatenations: the cross-entropy region's entry. -/
abbrev W2 : Dev nD → Valuation τ sig (Elt F) := fun c => StableHlo.after hostOps0_1 (W1 m c)
/-- The same read at the TensorCore's references. -/
abbrev V2 : (c : Dev nD) → (b : Ref sig .tc) → Buf (Elt F) ((c : Thread nD τ).loc b) := fun c b => W2 m c b
/-- At the cross-entropy region's exit: its arrays at what the pipeline leaves, every other buffer as entered. -/
def W3 (c : Dev nD) : Valuation τ sig (Elt F) :=
  Pipeline.withArrays spec0 c (W2 m c) fun w => (R0.dat0 (V2 m) c).arrAt w cfg0.N
/-- After the two means and their sum: the global-align region's entry. -/
abbrev W4 : Dev nD → Valuation τ sig (Elt F) := fun c => StableHlo.after hostOps1 (W3 m c)
abbrev V4 : (c : Dev nD) → (b : Ref sig .tc) → Buf (Elt F) ((c : Thread nD τ).loc b) := fun c b => W4 m c b
/-- At the global-align region's exit. -/
def W5 (c : Dev nD) : Valuation τ sig (Elt F) :=
  Pipeline.withArrays spec1 c (W4 m c) fun w => (R1.dat1 (V4 m) c).arrAt w cfg1.N
/-- After the last stretch (the sum of the row losses, doubled, over the batch size). -/
abbrev W6 : Dev nD → Valuation τ sig (Elt F) := fun c => StableHlo.after hostOps2 (W5 m c)

theorem W3_arr (c : Dev nD) (w : Fin cfg0.W) :
    W3 m c (Proc.devRef .tc (Pipeline.arrRef spec0 w)) = (R0.dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
theorem W5_arr (c : Dev nD) (w : Fin cfg1.W) :
    W5 m c (Proc.devRef .tc (Pipeline.arrRef spec1 w)) = (R1.dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb

/-- The same boundaries read at the TensorCore's references: each region's exit contents. -/
abbrev V3 : (c : Dev nD) → (b : Ref sig .tc) → Buf (Elt F) ((c : Thread nD τ).loc b) := fun c b => W3 m c b
abbrev V5 : (c : Dev nD) → (b : Ref sig .tc) → Buf (Elt F) ((c : Thread nD τ).loc b) := fun c b => W5 m c b

/-- At the cross-entropy region's exit each of its arrays holds what its write-backs make of it, -/
theorem exit0_arr (c : Dev nD) (w : Fin cfg0.W) : (R0.dat0 (V2 m) c).arrAt w cfg0.N = V3 m c (Pipeline.arrRef spec0 w) :=
  (W3_arr m c w).symm
/-- and a buffer that is none of its arrays holds what it held at the entry. -/
theorem exit0_off (c : Dev nD) : ∀ b, b ∉ Finset.univ.image (Pipeline.arrRef spec0) → V3 m c b = V2 m c b :=
  fun b hb => W3_of_ne m c b fun w e => hb (Finset.mem_image.mpr ⟨w, Finset.mem_univ _, e⟩)
/-- The same two facts of the global-align region. -/
theorem exit1_arr (c : Dev nD) (w : Fin cfg1.W) : (R1.dat1 (V4 m) c).arrAt w cfg1.N = V5 m c (Pipeline.arrRef spec1 w) :=
  (W5_arr m c w).symm
theorem exit1_off (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ## A buffer nobody writes

A reference outside every stretch's written set and outside both regions' arrays is carried through the
whole fold unchanged: six steps, each an equality of the two neighbouring boundaries at that reference. -/

theorem W6_untouched (c : Dev nD) (r : Ref sig .tc)
    (h0 : r ∉ hostOps0_W) (h1 : r ∉ hostOps0_1_W) (h2 : ∀ w, Pipeline.arrRef spec0 w ≠ r)
    (h3 : r ∉ hostOps1_W) (h4 : ∀ w, Pipeline.arrRef spec1 w ≠ r) (h5 : r ∉ hostOps2_W) :
    W6 m c (Proc.devRef .tc r) = m ((c : Thread nD τ).loc r) :=
  calc W6 m c (Proc.devRef .tc r)
    _ = W5 m c (Proc.devRef .tc r) := StableHlo.after_of_writes_sub hostOps2 _ hostOps2_writes h5
    _ = W4 m c (Proc.devRef .tc r) := W5_of_ne m c r h4
    _ = W3 m c (Proc.devRef .tc r) := StableHlo.after_of_writes_sub hostOps1 _ hostOps1_writes h3
    _ = W2 m c (Proc.devRef .tc r) := W3_of_ne m c r h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-! ## The proof data of the two pipelines, and what a core carries beside its buffers -/

/-- Both pipelines' proof data, each at the contents its region is entered with. The two cases are written
    out so that the family at a numeral is the region's own record by computation. -/
def pdats : (p : Fin 2) → (c : Dev nD) → Dat τ (Elt F) Unit ℕ (UR sig nD τ) ℕ (Pipeline.pin (pcfgs (F := F)) adm p) c
  | ⟨0, _⟩ => fun c => R0.dat0 (V2 m) c
  | ⟨1, _⟩ => fun c => R1.dat1 (V4 m) c

/-- No step counter is refined, no level is assigned: no core ever owes another anything. -/
abbrev 𝒱₀ : Variants := Variants.none
abbrev L : GSem nD τ sig → Finset Unit := fun _ => ∅
abbrev lv : GSem nD τ sig → Unit → ℕ := fun _ _ => 0

/-- Beside its unscoped buffers a core carries, through every segment, its generator register at some
    state and its ledger of dues, empty. -/
abbrev Side (c : Dev nD) : sProp 𝕄 :=
  iprop((∃ r, prngReg c r) ∗ ∃ W, owes (c : Thread nD τ) (0 : CellTallies nD τ sig Unit) W)

/-- The state between two segments: every unscoped buffer whole at the boundary's contents, and the rest. -/
abbrev At (W : Dev nD → Valuation τ sig (Elt F)) (c : Dev nD) : sProp 𝕄 :=
  iprop(StableHlo.held (c : Thread nD τ) (Pipeline.ucRefs τ sig) (W c) ∗ Side c)

/-- The last state, its empty ledger set apart (the launch asks for it separately). -/
abbrev Tₙ (c : Dev nD) : sProp 𝕄 :=
  iprop(StableHlo.held (c : Thread nD τ) (Pipeline.ucRefs τ sig) (W6 m c) ∗ ∃ r, prngReg c r)

/-- An empty ledger is what a pipeline that owes nothing asks for at any of its positions: the recorded
    pairs are unconstrained, so any set of them is within bounds. -/
theorem ledger_in {cfg : Cfg sig Λ₀} (c : Dev nD) (d : Dat τ (Elt F) Unit ℕ (UR sig nD τ) ℕ cfg c) (t : Fin (cfg.N + 1))
    (h0 : d.owed t = 0) (hr : d.recorded t = Set.univ) :
    (iprop(∃ W, owes (c : Thread nD τ) (0 : CellTallies nD τ sig Unit) W) : sProp 𝕄) ⊢ d.owesAt () t := by
  unfold Pipeline.Dat.owesAt Pipeline.owesWithin Pipeline.Dat.bound
  rw [h0, hr]
  iintro ⟨%W, H⟩
  iexists W
  isplitr
  · ipureintro; exact fun _ _ => Or.inl trivial
  iexact H
/-- And such a pipeline hands the ledger back empty, the bound forgotten. -/
theorem ledger_out {cfg : Cfg sig Λ₀} (c : Dev nD) (d : Dat τ (Elt F) Unit ℕ (UR sig nD τ) ℕ cfg c) (t : Fin (cfg.N + 1))
    (h0 : d.owed t = 0) :
    d.owesAt () t ⊢ (iprop(∃ W, owes (c : Thread nD τ) (0 : CellTallies nD τ sig Unit) W) : sProp 𝕄) := by
  unfold Pipeline.Dat.owesAt Pipeline.owesWithin
  rw [h0]
  iintro ⟨%W, -, H⟩
  iexists W
  iexact H

/-! ## The host stretches as segments -/

/-- A stretch of host operations from the boundary contents W: it takes every unscoped buffer from W to
    the stretch applied to W, the rest untouched. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (fun op h => List.forall_iff_forall_mem.mp hfresh op h) W Side

/-! ## The two regions as segments -/

-- the configuration pinned at a pipeline index equals the printed one only up to unfolding definitions
set_option backward.isDefEq.respectTransparency.types false in
/-- THE CROSS-ENTROPY REGION as a segment: entered with the unscoped buffers at `W2`, left with them at `W3`.
    Its invariant is the scoped rest and the generator register throughout; it has no semaphore of its own and
    owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V2 m) c).loose
  hwaits := Pipeline.hwaits_of_owed_zero _ _ _ _ L lv 0 fun _ _ => rfl
  pre := At (W2 m)
  post := At (W3 m)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    -- the unscoped buffers fall into the windows' arrays and the others; the register and the ledger go their ways
    rw [Pipeline.ownSems0_none]
    have cut := Pipeline.arrays_of_unscopedBufs (p := 0) (pcfgs (F := F)) adm (pdats m) launch0.win launch0.arr_whole c
      ((pdats m 0 c).share_full fun _ => rfl) (V2 m c) fun _ => rfl
    rw [Pipeline.unscopedBufs_held] at cut
    iintro ⟨⟨Hbufs, Hreg, Hled⟩, -, -⟩
    ihave Hcut := cut $$ Hbufs
    icases Hcut with ⟨Harr, Hoff⟩
    imodintro
    isplitl [Harr]
    · iexact Harr
    isplitr
    · unfold Pipeline.prefHeld
      rw [show (Finset.univ : Finset (Fin 0)) = ∅ from rfl, BI.bigSep_empty]
      iempintro
    isplitl [Hled]
    · iapply (ledger_in c (pdats m 0 c) 0 rfl rfl)
      iexact Hled
    isplitl [Hreg]
    · iexact Hreg
    iexact Hoff
  hin c := by
    rw [show (pdats m 0 c).Φ 0 = Pipeline.ΦA spec0 c from rfl]
    unfold Pipeline.ΦA
    iintro ⟨Hreg, -, Hscoped⟩
    isplitl [Hscoped]
    · iexact Hscoped
    iexact Hreg
  hout c := by
    rw [Pipeline.ownSems0_none, show (pdats m 0 c).Φ (Fin.last _) = Pipeline.ΦA spec0 c from rfl]
    unfold Pipeline.ΦA
    iintro ⟨Hscoped, Hreg⟩
    isplitl [Hreg]
    · iexact Hreg
    isplitr
    · iempintro
    iexact Hscoped
  hexit c := by
    -- the arrays at their exit contents and the others as entered are the unscoped buffers at the next boundary
    have join := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (exit0_arr m c) (exit0_off m c)
    rw [Pipeline.unscopedBufs_held] at join
    iintro ⟨Harr, Hled, Hreg, Hoff⟩
    imodintro
    isplitl [Harr Hoff]
    · iapply join
      isplitl [Harr] <;> iassumption
    isplitl [Hreg]
    · iexact Hreg
    iapply (ledger_out c (pdats m 0 c) (Fin.last _) rfl)
    iexact Hled

-- the configuration pinned at a pipeline index equals the printed one only up to unfolding definitions
set_option backward.isDefEq.respectTransparency.types false in
/-- THE GLOBAL-ALIGN REGION as a segment: entered with the unscoped buffers at `W4`, left with them at `W5`.
    Its invariant names the accumulator after the first point, so the scoped rest and the register are turned
    into the first invariant on the way in and recovered from the last on the way out. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V4 m) c).loose
  hwaits := Pipeline.hwaits_of_owed_zero _ _ _ _ L lv 1 fun _ _ => rfl
  pre := At (W4 m)
  post := At (W5 m)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    -- the unscoped buffers fall into the windows' arrays and the others; the register and the ledger go their ways
    rw [Pipeline.ownSems0_none]
    have cut := Pipeline.arrays_of_unscopedBufs (p := 1) (pcfgs (F := F)) adm (pdats m) launch1.win launch1.arr_whole c
      ((pdats m 1 c).share_full fun _ => rfl) (V4 m c) fun _ => rfl
    rw [Pipeline.unscopedBufs_held] at cut
    iintro ⟨⟨Hbufs, Hreg, Hled⟩, -, -⟩
    ihave Hcut := cut $$ Hbufs
    icases Hcut with ⟨Harr, Hoff⟩
    imodintro
    isplitl [Harr]
    · iexact Harr
    isplitr
    · unfold Pipeline.prefHeld
      rw [show (Finset.univ : Finset (Fin 0)) = ∅ from rfl, BI.bigSep_empty]
      iempintro
    isplitl [Hled]
    · iapply (ledger_in c (pdats m 1 c) 0 rfl rfl)
      iexact Hled
    isplitl [Hreg]
    · iexact Hreg
    iexact Hoff
  hin c := by
    -- the scoped rest and the register first, then the region's own first invariant from them
    have first : (Pipeline.ΦA spec1 c : sProp 𝕄) ⊢ (pdats m 1 c).Φ 0 := R1.hin1 (V4 m) c
    unfold Pipeline.ΦA at first
    iintro ⟨Hreg, -, Hscoped⟩
    iapply first
    isplitl [Hscoped]
    · iexact Hscoped
    iexact Hreg
  hout c := by
    -- the region's last invariant forgets the accumulator, leaving the scoped rest and the register
    have last : (pdats m 1 c).Φ (Fin.last _) ⊢ (Pipeline.ΦA spec1 c : sProp 𝕄) := R1.hout1 (V4 m) c
    unfold Pipeline.ΦA at last
    rw [Pipeline.ownSems0_none]
    iintro H
    ihave H' := last $$ H
    icases H' with ⟨Hscoped, Hreg⟩
    isplitl [Hreg]
    · iexact Hreg
    isplitr
    · iempintro
    iexact Hscoped
  hexit c := by
    -- the arrays at their exit contents and the others as entered are the unscoped buffers at the next boundary
    have join := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (exit1_arr m c) (exit1_off m c)
    rw [Pipeline.unscopedBufs_held] at join
    iintro ⟨Harr, Hled, Hreg, Hoff⟩
    imodintro
    isplitl [Harr Hoff]
    · iapply join
      isplitl [Harr] <;> iassumption
    isplitl [Hreg]
    · iexact Hreg
    iapply (ledger_out c (pdats m 1 c) (Fin.last _) rfl)
    iexact Hled

/-! ## @main as six segments, and the launch -/

/-- @main in order: the column-norm stretch, the stretch up to the first kernel, the cross-entropy region,
    the stretch between the kernels, the global-align region, the last stretch. -/
abbrev segs : List (Pipeline.Seg (pcfgs (F := F)) adm (pdats m) () defs₀ 𝒱₀ L lv) :=
  [ .host (hostSeg hostOps0 hostOps0_sub hostOps0_fresh (W0 m)),
    .host (hostSeg hostOps0_1 hostOps0_1_sub hostOps0_1_fresh (W1 m)),
    .region (reg0 m),
    .host (hostSeg hostOps1 hostOps1_sub hostOps1_fresh (W3 m)),
    .region (reg1 m),
    .host (hostSeg hostOps2 hostOps2_sub hostOps2_fresh (W5 m)) ]

/-- The segments' programs, one after the other, are the items @main is the chain of. -/
theorem segs_progs : (segs m).map Pipeline.Seg.prog = [
      StableHlo.seq hostOps0,
      StableHlo.seq hostOps0_1,
      Prog.lift (.customCall (Pipeline.entry 0) ()),
      StableHlo.seq hostOps1,
      Prog.lift (.customCall (Pipeline.entry 1) ()),
      StableHlo.seq hostOps2 ] := rfl

/-- The last stretch leaves the register and the empty ledger side by side; the launch wants the ledger apart. -/
theorem last_apart (c : Dev nD) :
    At (W6 m) c ⊢ iprop(Tₙ m c ∗ ∃ W, owes (c : Thread nD τ) (0 : CellTallies nD τ sig Unit) W) := by
  iintro ⟨Hbufs, Hreg, Hled⟩
  isplitl [Hbufs Hreg]
  · isplitl [Hbufs] <;> iassumption
  iexact Hled

-- the launch's conclusion equals the statement below only up to unfolding definitions
set_option backward.isDefEq.respectTransparency.types false in
/-- From any memory with zero counters every weakly fair execution of @main terminates, nothing
    faulting, with every unscoped buffer of every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      -- @main is the chain of its items, and so is the run of the segments
      rewrite [main_chain c, Pipeline.Seg.run_eq_chain, segs_progs m]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core needs a ghost resource besides
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := At (W0 m)) (Tₙ := Tₙ m)
    (hch := ⟨fun _ => .rfl, fun _ => .rfl, fun _ => .rfl, fun _ => .rfl, fun _ => .rfl, fun _ => .rfl, last_apart m⟩)
    (hinit := by
      -- each core by itself: its unscoped buffers as launched, its register at the launch state, an empty ledger
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hled, -, Hreg, -⟩, -⟩
      imodintro
      isplitl [Hbufs]
      · iexact Hbufs
      isplitl [Hreg]
      · iexists _; iexact Hreg
      iexists ∅
      iexact Hled)
    (QY := fun c s => ∀ b ∈ Pipeline.ucRefs τ sig, s.mem (((c : Thread nD τ)).1, b) = W6 m c b)
    (hfin := fun c s' => by
      -- buffers held whole beside a final state say what that state's memory holds
      iintro ⟨⟨Hbufs, -⟩, Hstate⟩
      unfold StableHlo.held
      imodintro
      iapply (pointsTo_read_all (Pipeline.ucRefs τ sig) (fun b => (((c : Thread nD τ)).1, b)) (W6 m c) s')
      isplitl [Hbufs] <;> iassumption)
    (hQ := fun s h c => h c)

/-- No stretch and no region writes an argument array: the last boundary holds each as launched. -/
theorem W6_arg0 (c : Dev nD) : W6 m c (Proc.devRef .tc main_arg0) = m ((c : Thread nD τ).loc main_arg0) :=
  W6_untouched m c main_arg0 (by decide) (by decide) (by decide) (by decide) (by decide) (by decide)
theorem W6_arg1 (c : Dev nD) : W6 m c (Proc.devRef .tc main_arg1) = m ((c : Thread nD τ).loc main_arg1) :=
  W6_untouched m c main_arg1 (by decide) (by decide) (by decide) (by decide) (by decide) (by decide)
theorem W6_arg2 (c : Dev nD) : W6 m c (Proc.devRef .tc main_arg2) = m ((c : Thread nD τ).loc main_arg2) :=
  W6_untouched m c main_arg2 (by decide) (by decide) (by decide) (by decide) (by decide) (by decide)
theorem W6_arg3 (c : Dev nD) : W6 m c (Proc.devRef .tc main_arg3) = m ((c : Thread nD τ).loc main_arg3) :=
  W6_untouched m c main_arg3 (by decide) (by decide) (by decide) (by decide) (by decide) (by decide)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_arg0 m c), (h c _ (mem_uc main_arg1 (by decide))).trans (W6_arg1 m c),
     (h c _ (mem_uc main_arg2 (by decide))).trans (W6_arg2 m c), (h c _ (mem_uc main_arg3 (by decide))).trans (W6_arg3 m c)⟩)
    (run_all m ρ)

end Cert.KernelIdeal.Fr

end
-- ==== Proof.Spec.lean ====
/-
  The four results as functions of the argument arrays, index by index over the extended reals.

  Cross-entropy half. With Wn k c = W k c / sqrt (Σ_k' W k' c ²) (columns of W scaled to unit length) and, for a row x of
  an embedding, logits X c, the kernel computes
      nllK X l = (max_c X c + log Σ_c exp (X c - max_c X c)) - Σ_c [c = l] · X c
  over X c = Σ_k (x k · 28) · Wn k c, and the reference
      nllR X l = -((X l - max_c X c) - log Σ_c exp (X c - max_c X c))
  over X c = 28 · Σ_k x k · Wn k c. Each loss is the mean of its 4096 rows.

  Global-align half. With sim r c = Σ_k v r k · t c k and softplus a = max a 0 + log1p (exp (-|a|)),
      pair r c = softplus (if label r = label c then -10 · (sim r c - 0.6) else 40 · (sim r c - 0.4)),
  and the loss is 2 · Σ_r Σ_c pair r c / 4096 (the literals are the f32 words both programs carry).
-/
import Idealize.ShloMosaic.PureOps.Ideal
import Idealize.ShloMosaic.Lib.ValueIdx

noncomputable section

namespace Cert.Spec

open Idealize.ShloMosaic Idealize.ShloMosaic.ValueIdx

/-- A float matrix read at the ideal instance. -/
abbrev Mat (a b : Nat) : Type := (⟨2, ![a, b]⟩ : Shape).Idx → EReal
/-- The label vector: one 32-bit word per row. -/
abbrev Lab (a : Nat) : Type := (⟨1, ![a]⟩ : Shape).Idx → BitVec 32

/-! ## The literals, as the words the programs carry -/

/-- 28 as the kernel's bf16 word. -/
abbrev b28 : EReal := Ideal.ofBits .bf16 0x41E0#16
/-- 28 as the reference's f32 word. -/
abbrev f28 : EReal := Ideal.ofBits .f32 0x41E00000#32
/-- 4096 (the batch size the means divide by). -/
abbrev f4096 : EReal := Ideal.ofBits .f32 0x45800000#32
/-- 2. -/
abbrev f2 : EReal := Ideal.ofBits .f32 0x40000000#32
/-- The f32 nearest 0.6. -/
abbrev fAlpha : EReal := Ideal.ofBits .f32 0x3F19999A#32
/-- The f32 nearest 0.4. -/
abbrev fBeta : EReal := Ideal.ofBits .f32 0x3ECCCCCD#32
/-- -10. -/
abbrev fNegPos : EReal := Ideal.ofBits .f32 0xC1200000#32
/-- 40. -/
abbrev fNeg : EReal := Ideal.ofBits .f32 0x42200000#32

/-! ## The normalised weight -/

/-- The squared length of column `c` of `W`. -/
def colSq (W : Mat 512 5000) (c : Fin 5000) : EReal := ∑ k : Fin 512, W (ix2 k c) * W (ix2 k c)

/-- `W` with every column divided by its length. -/
def wn (W : Mat 512 5000) (k : Fin 512) (c : Fin 5000) : EReal :=
  Ideal.div (W (ix2 k c)) (Ideal.sqrt (colSq W c))

/-! ## Cross-entropy of one row -/

/-- The kernel's logits of row `r`: the row is scaled by 28 before the contraction. -/
def logitK {R : Nat} (x : Mat R 512) (w : Fin 512 → Fin 5000 → EReal) (r : Fin R) (c : Fin 5000) : EReal :=
  ∑ k : Fin 512, (x (ix2 r k) * b28) * w k c

/-- The reference's logits of row `r`: the contraction is scaled by 28 afterwards. -/
def logitR {R : Nat} (x : Mat R 512) (w : Fin 512 → Fin 5000 → EReal) (r : Fin R) (c : Fin 5000) : EReal :=
  f28 * ∑ k : Fin 512, x (ix2 r k) * w k c

/-- The largest logit of a row (`⊥` is the fold's start). -/
def rowMax (X : Fin 5000 → EReal) : EReal := Finset.univ.sup X

/-- The sum of the shifted exponentials of a row. -/
def sumExp (X : Fin 5000 → EReal) : EReal := ∑ c : Fin 5000, Ideal.exp (X c - rowMax X)

/-- The class a label word names, as a column (total: the word's value modulo the number of classes). -/
def lblIdx (l : BitVec 32) : Fin 5000 := ⟨l.toNat % 5000, Nat.mod_lt _ (by decide)⟩

/-- The kernel's negative log-likelihood of a row: log-sum-exp minus the logit the label's column
    selects, the selection a sum over the columns of the logit where the column's index is the label. -/
def nllK (X : Fin 5000 → EReal) (l : BitVec 32) : EReal :=
  (rowMax X + Ideal.log (sumExp X)) - ∑ c : Fin 5000, (if BitVec.ofNat 32 c.val = l then X c else 0)

/-- The reference's: minus the log-softmax at the label's column. -/
def nllR (X : Fin 5000 → EReal) (l : BitVec 32) : EReal :=
  -((X (lblIdx l) - rowMax X) - Ideal.log (sumExp X))

/-- The mean over the 4096 rows. -/
def meanRows (f : Fin 4096 → EReal) : EReal := Ideal.div (∑ r : Fin 4096, f r) f4096

/-- The kernel's cross-entropy loss of an embedding. -/
def lossK (x : Mat 4096 512) (lab : Lab 4096) (W : Mat 512 5000) : EReal :=
  meanRows fun r => nllK (logitK x (wn W) r) (lab (ix1 r))

/-- The reference's. -/
def lossR (x : Mat 4096 512) (lab : Lab 4096) (W : Mat 512 5000) : EReal :=
  meanRows fun r => nllR (logitR x (wn W) r) (lab (ix1 r))

/-! ## The global-align loss -/

/-- The similarity of visual row `r` and textual row `c`. -/
def sim (v t : Mat 4096 512) (r c : Fin 4096) : EReal := ∑ k : Fin 512, v (ix2 r k) * t (ix2 c k)

/-- softplus a = max a 0 + log (1 + exp (-|a|)). -/
def softplus (a : EReal) : EReal := max a 0 + Ideal.log1p (Ideal.exp (-(max a (-a))))

/-- The argument of the softplus for a pair, from the row's label `lr r` and the column's `lc c`: the
    matching pairs' margin or the others'. -/
def pairArg (v t : Mat 4096 512) (lr lc : Fin 4096 → BitVec 32) (r c : Fin 4096) : EReal :=
  if lr r = lc c then fNegPos * (sim v t r c - fAlpha) else fNeg * (sim v t r c - fBeta)

/-- The loss of one pair. -/
def pair (v t : Mat 4096 512) (lr lc : Fin 4096 → BitVec 32) (r c : Fin 4096) : EReal :=
  softplus (pairArg v t lr lc r c)

/-- The sum of a row's pair losses over all columns. -/
def rowLoss (v t : Mat 4096 512) (lr lc : Fin 4096 → BitVec 32) (r : Fin 4096) : EReal :=
  ∑ c : Fin 4096, pair v t lr lc r c

/-- The global-align loss: twice the sum over all pairs, over the batch size. -/
def ga (v t : Mat 4096 512) (lab : Lab 4096) : EReal :=
  Ideal.div (f2 * ∑ r : Fin 4096, rowLoss v t (fun r => lab (ix1 r)) (fun c => lab (ix1 c)) r) f4096

/-! ## The domain -/

/-- What the precondition says of the arguments: every float entry a real number, every label a class
    index, no column of `W` zero. -/
structure Hyps (v t : Mat 4096 512) (lab : Lab 4096) (W : Mat 512 5000) : Prop where
  hv : ∀ (r : Fin 4096) (k : Fin 512), ∃ x : ℝ, v (ix2 r k) = (x : EReal)
  ht : ∀ (r : Fin 4096) (k : Fin 512), ∃ x : ℝ, t (ix2 r k) = (x : EReal)
  hW : ∀ (k : Fin 512) (c : Fin 5000), ∃ x : ℝ, W (ix2 k c) = (x : EReal)
  hl : ∀ r : Fin 4096, (lab (ix1 r)).toNat < 5000
  hc : ∀ c : Fin 5000, 0 < colSq W c

end Cert.Spec

end
-- ==== Proof.KI.Pay0.lean ====
/-
  The cross-entropy kernel's stored value read at a row: the 256 × 1 block the body stores holds, at row
  p, the row's log-sum-exp minus the logit its label selects, the logits the row of the (scaled) embedding
  block against the weight block.
-/
import proofs.«409325_j5102421147884_2_alg».proof.Proof.Gen.KernelIdeal.Skeleton
import proofs.«409325_j5102421147884_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R0

open Cert.KernelIdeal Cert.KernelIdeal.Gen Idealize.ShloMosaic Idealize.ShloMosaic.ValueIdx

/-! ## Layout: a vector as a column, a column across the lanes -/

/-- A length-`a` vector cast to the column shape `[a, 1]` reads, at `(i, u)`, the vector at `i`: both
    positions are `i` in row-major order, the unit coordinate being `0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The reductions along a row -/

/-- The source index over row `p` with lane `c` put back is `(p, c)`. -/
theorem lift_row (h : S256x5000.Reduces [1] S256) (p : Fin 256) (c : Fin 5000) :
    h.lift (ix1 p) c = ix2 p c :=
  funext fun a => Fin.ext (by
    match a with
    | ⟨0, _⟩ => rfl
    | ⟨1, _⟩ => rfl)

/-- The lane sum of a `256 × 5000` block at row `p` is the sum of the row's entries. -/
theorem rowSum_apply (src : FVec Ideal S256x5000 .f32) (h : S256x5000.Reduces [1] S256) (hφ : FKind.Formats .f32)
    (hacc : (0x00000000#32 : BitVec 32) = 0x00000000#32) (p : Fin 256) :
    multiReduction (F := Ideal) .add [1] S256 src 0x00000000#32 h hφ hacc (ix1 p) = ∑ c : Fin 5000, src (ix2 p c) := by
  refine (Ideal.multiReduction_add_single src 0x00000000#32 h hφ hacc (ix1 p)).trans ?_
  exact Finset.sum_congr rfl fun c _ => congrArg src (lift_row h p c)

/-- The word `0xFF800000` is minus infinity, the least extended real. -/
theorem ofBits_negInf_f32 : Ideal.ofBits .f32 0xFF800000#32 = ⊥ := by
  simp [Ideal.ofBits, Ideal.ieee]

/-- The lane maximum of a `256 × 5000` block at row `p`, folded from minus infinity, is the supremum of the
    row's entries. -/
theorem rowMax_apply (src : FVec Ideal S256x5000 .f32) (h : S256x5000.Reduces [1] S256) (hφ : FKind.Formats .f32)
    (hacc : (0xFF800000#32 : BitVec 32) = 0xFF800000#32) (p : Fin 256) :
    multiReduction (F := Ideal) .maximumf [1] S256 src 0xFF800000#32 h hφ hacc (ix1 p)
      = Finset.univ.sup fun c : Fin 5000 => src (ix2 p c) := by
  refine (Ideal.multiReduction_maximumf_single src 0xFF800000#32 h hφ hacc (ix1 p)).trans ?_
  show (Finset.univ : Finset (Fin 5000)).fold max (Ideal.ofBits .f32 0xFF800000#32) (src ∘ h.lift (ix1 p)) = _
  rw [ofBits_negInf_f32]
  have e : (src ∘ h.lift (ix1 p)) = fun c : Fin 5000 => src (ix2 p c) :=
    funext fun c => congrArg src (lift_row h p c)
  rw [e]
  rfl

/-! ## The block product at an entry -/

theorem lhs_logit_0 (i : S256x5000.Idx) (q : dot_S256x512_S512x5000_S256x5000_1_0_0_1_n_n.contr.Idx) :
    (dot_S256x512_S512x5000_S256x5000_1_0_0_1_n_n.lhsIdx i q 0).val = (i 0).val := by
  unfold DotDims.lhsIdx
  rw [dif_neg (show ¬(0 : Fin S256x512.rank) ∈ dot_S256x512_S512x5000_S256x5000_1_0_0_1_n_n.lhsBatch by decide), dif_pos (show (0 : Fin S256x512.rank) ∈ dot_S256x512_S512x5000_S256x5000_1_0_0_1_n_n.lhsNonContracting by decide)]
  rfl
theorem lhs_logit_1 (i : S256x5000.Idx) (q : dot_S256x512_S512x5000_S256x5000_1_0_0_1_n_n.contr.Idx) :
    (dot_S256x512_S512x5000_S256x5000_1_0_0_1_n_n.lhsIdx i q 1).val = (q ⟨0, by decide⟩).val :=
  dot_S256x512_S512x5000_S256x5000_1_0_0_1_n_n.lhsIdx_val_of_single rfl i q
theorem rhs_logit_0 (i : S256x5000.Idx) (q : dot_S256x512_S512x5000_S256x5000_1_0_0_1_n_n.contr.Idx) :
    (dot_S256x512_S512x5000_S256x5000_1_0_0_1_n_n.rhsIdx i q 0).val = (q ⟨0, by decide⟩).val :=
  dot_S256x512_S512x5000_S256x5000_1_0_0_1_n_n.rhsIdx_val_of_single rfl i q
theorem rhs_logit_1 (i : S256x5000.Idx) (q : dot_S256x512_S512x5000_S256x5000_1_0_0_1_n_n.contr.Idx) :
    (dot_S256x512_S512x5000_S256x5000_1_0_0_1_n_n.rhsIdx i q 1).val = (i 1).val := by
  unfold DotDims.rhsIdx
  rw [dif_neg (show ¬(1 : Fin S512x5000.rank) ∈ dot_S256x512_S512x5000_S256x5000_1_0_0_1_n_n.rhsBatch by decide), dif_pos (show (1 : Fin S512x5000.rank) ∈ dot_S256x512_S512x5000_S256x5000_1_0_0_1_n_n.rhsNonContracting by decide)]
  rfl

/-- The product of a `256 × 512` block and a `512 × 5000` block, accumulated into zero, read at `(p, c)`: the
    sum over the contracted coordinate of row `p` of the left against column `c` of the right. -/
theorem matmul_row_col (lhs : FVec Ideal S256x512 .bf16) (rhs : FVec Ideal S512x5000 .bf16) (p : Fin 256) (c : Fin 5000) :
    matmul (F := Ideal) dot_S256x512_S512x5000_S256x5000_1_0_0_1_n_n none lhs rhs (constant (F := Ideal) S256x5000 .f32 0x00000000#32) (ix2 p c)
      = ∑ k : Fin 512, lhs (ix2 p k) * rhs (ix2 k c) := by
  simp only [matmul]
  rw [Ideal.matmul_constant_zero_apply, ← Equiv.sum_comp (ValueIdx.contrEquiv1 dot_S256x512_S512x5000_S256x5000_1_0_0_1_n_n 512 rfl rfl).symm]
  refine Finset.sum_congr rfl fun k _ => ?_
  have hk := ValueIdx.contrEquiv1_symm_val dot_S256x512_S512x5000_S256x5000_1_0_0_1_n_n 512 rfl rfl k
  have el : dot_S256x512_S512x5000_S256x5000_1_0_0_1_n_n.lhsIdx (ix2 p c) ((ValueIdx.contrEquiv1 dot_S256x512_S512x5000_S256x5000_1_0_0_1_n_n 512 rfl rfl).symm k) = ix2 p k := funext fun a => Fin.ext (by
    match a with
    | ⟨0, _⟩ => exact lhs_logit_0 _ _
    | ⟨1, _⟩ => exact (lhs_logit_1 _ _).trans hk)
  have er : dot_S256x512_S512x5000_S256x5000_1_0_0_1_n_n.rhsIdx (ix2 p c) ((ValueIdx.contrEquiv1 dot_S256x512_S512x5000_S256x5000_1_0_0_1_n_n 512 rfl rfl).symm k) = ix2 k c := funext fun a => Fin.ext (by
    match a with
    | ⟨0, _⟩ => exact (rhs_logit_0 _ _).trans hk
    | ⟨1, _⟩ => exact rhs_logit_1 _ _)
  rw [el, er]

/-! ## The lane index and the selection by a label -/

/-- The lane counter along axis 1 of a `256 × 5000` block is, at `(p, c)`, the word of `c`. -/
theorem iota_lane (h : S256x5000.Iotas .tc 32 [1]) (p : Fin 256) (c : Fin 5000) :
    iota .tc S256x5000 32 [1] h (ix2 p c) = BitVec.ofNat 32 c.val := by
  show BitVec.ofNat 32 (0 * 5000 + c.val) = _
  rw [Nat.zero_mul, Nat.zero_add]

/-- Selecting by the word an equality test gives is the if-then-else on the equality. -/
theorem select_cmpi_eq {α : Type} (a b : BitVec 32) (x y : α) :
    Scalar.select (IntOp.cmpi .eq a b) x y = if a = b then x else y := by
  unfold Scalar.select IntOp.cmpi
  by_cases h : a = b
  · rw [if_pos h]; subst h
    have e : BitVec.ofBool (a == a) = 1#1 := by simp
    exact if_pos e
  · rw [if_neg h]
    have e : ¬ BitVec.ofBool (a == b) = 1#1 := by
      have hb : (a == b) = false := by simpa using h
      rw [hb]; decide
    exact if_neg e

/-! ## The logits block -/

/-- The block product of the scaled embedding block and the weight block, read at `(p, c)`: the logit of row `p`
    against column `c`, each entry of the row times the word of 28 before the contraction. The two casts to a
    block's own shape change nothing. -/
theorem logit_apply (x : FVec Ideal S256x512 .bf16) (w : FVec Ideal S512x5000 .bf16)
    (h1 : S256x512.ShapeCasts S256x512) (h2 : S512x5000.ShapeCasts S512x5000) (p : Fin 256) (c : Fin 5000) :
    matmul (F := Ideal) dot_S256x512_S512x5000_S256x5000_1_0_0_1_n_n none
        (mulf (shapeCast S256x512 x h1) (broadcast S256x512 (Scalar.ofBits (F := Ideal) .bf16 0x41E0#16)))
        (shapeCast S512x5000 w h2) (constant (F := Ideal) S256x5000 .f32 0x00000000#32) (ix2 p c)
      = ∑ k : Fin 512, (x (ix2 p k) * Cert.Spec.b28) * w (ix2 k c) := by
  refine (matmul_row_col _ _ p c).trans ?_
  refine Finset.sum_congr rfl fun k _ => ?_
  rw [shapeCast_self x h1, shapeCast_self w h2]
  rfl

/-- Row `p` of the stored block is the kernel-form negative log-likelihood of the row's logits. -/
theorem pay0_apply (x : FVec Ideal S256x512 .bf16) (w : FVec Ideal S512x5000 .bf16) (l : Vec Ideal S256x1 .i32) (p : Fin 256) :
    k0_pay1 (F := Ideal) x w l (ix2 p 0)
      = Cert.Spec.nllK (fun c : Fin 5000 => ∑ k : Fin 512, (x (ix2 p k) * Cert.Spec.b28) * w (ix2 k c)) (l (ix2 p 0)) := by
  -- name the row of logits, and the block the kernel forms
  obtain ⟨X, hX⟩ : ∃ X : Fin 5000 → EReal,
      X = fun c : Fin 5000 => ∑ k : Fin 512, (x (ix2 p k) * Cert.Spec.b28) * w (ix2 k c) := ⟨_, rfl⟩
  rw [← hX]
  unfold k0_pay1
  refine (subf_apply _ _ _).trans ?_
  have hLX : ∀ c : Fin 5000,
      matmul (F := Ideal) dot_S256x512_S512x5000_S256x5000_1_0_0_1_n_n none
        (mulf (shapeCast S256x512 x shapeCasts_S256x512_S256x512) (broadcast S256x512 (Scalar.ofBits (F := Ideal) .bf16 0x41E0#16)))
        (shapeCast S512x5000 w shapeCasts_S512x5000_S512x5000) (constant (F := Ideal) S256x5000 .f32 0x00000000#32) (ix2 p c)
        = X c := fun c => by
    rw [hX]; exact logit_apply x w _ _ p c
  generalize matmul (F := Ideal) dot_S256x512_S512x5000_S256x5000_1_0_0_1_n_n none
        (mulf (shapeCast S256x512 x shapeCasts_S256x512_S256x512) (broadcast S256x512 (Scalar.ofBits (F := Ideal) .bf16 0x41E0#16)))
        (shapeCast S512x5000 w shapeCasts_S512x5000_S512x5000) (constant (F := Ideal) S256x5000 .f32 0x00000000#32) = L at hLX ⊢
  clear hX
  -- the row's maximum, as the column the kernel keeps it in
  have hmax : ∀ (hr : S256x5000.Reduces [1] S256) (hφ : FKind.Formats .f32) (ha : (0xFF800000#32 : BitVec 32) = 0xFF800000#32)
      (hc : S256.ShapeCasts S256x1),
      shapeCast S256x1 (multiReduction (F := Ideal) .maximumf [1] S256 L 0xFF800000#32 hr hφ ha) hc (ix2 p 0) = Cert.Spec.rowMax X := by
    intro hr hφ ha hc
    refine (shapeCast_a_a1_apply _ _ p 0).trans ?_
    refine (rowMax_apply L hr hφ ha p).trans ?_
    unfold Cert.Spec.rowMax
    exact congrArg (Finset.univ.sup) (funext hLX)
  unfold Cert.Spec.nllK
  refine congrArg₂ (· - ·) ?_ ?_
  · -- log-sum-exp: the maximum plus the logarithm of the sum of shifted exponentials
    refine (addf_apply _ _ _).trans ?_
    refine congrArg₂ (· + ·) (hmax _ _ _ _) ?_
    refine congrArg Ideal.log ?_
    refine (shapeCast_a_a1_apply _ _ p 0).trans ?_
    refine (rowSum_apply _ _ _ _ p).trans ?_
    unfold Cert.Spec.sumExp
    refine Finset.sum_congr rfl fun c _ => ?_
    refine congrArg Ideal.exp ?_
    refine (subf_apply _ _ _).trans ?_
    refine congrArg₂ (· - ·) (hLX c) ?_
    exact (broadcastTo_a1_ab_apply _ _ p c).trans (hmax _ _ _ _)
  · -- the logit at the label's column: the lanes whose index is the label keep their logit, the others zero
    refine (shapeCast_a_a1_apply _ _ p 0).trans ?_
    refine (rowSum_apply _ _ _ _ p).trans ?_
    refine Finset.sum_congr rfl fun c _ => ?_
    refine (select_apply _ _ _ _).trans ?_
    show Scalar.select (IntOp.cmpi .eq (iota .tc S256x5000 32 [1] iota_S256x5000_d1_w32 (ix2 p c))
        (broadcastTo S256x5000 (shapeCast S256x1 l shapeCasts_S256x1_S256x1) broadcasts_S256x1_S256x5000 (ix2 p c)))
        (L (ix2 p c)) (Ideal.ofBits .f32 0x00000000#32) = _
    rw [iota_lane, broadcastTo_a1_ab_apply, shapeCast_self, hLX c, Ideal.ofBits_zero_f32, select_cmpi_eq]

end Cert.KernelIdeal.R0

end
-- ==== Proof.KI.Value0.lean ====
/-
  The cross-entropy region's result array as one function of its operand arrays: row i of the 8192 × 1
  result is the kernel-form negative log-likelihood of row i of the stacked embeddings against the
  weight array, at row i's label (point t of the grid writes back rows 256 t … 256 t + 255, and the 32
  blocks tile the array).
-/
import proofs.«409325_j5102421147884_2_alg».proof.Proof.KI.Region0
import proofs.«409325_j5102421147884_2_alg».proof.Proof.KI.Pay0

set_option maxRecDepth 16384

noncomputable section

namespace Cert.KernelIdeal.R0

open Cert.KernelIdeal Cert.KernelIdeal.Gen Idealize.ShloMosaic Idealize.ShloMosaic.TcCoe Idealize.ShloMosaic.ValueIdx Idealize.SL.Sem
open Idealize.ShloMosaic.Pipeline (Dat)

/-- The body's whole-buffer rectangles start at the origin: their offsets are the zero function. -/
theorem arr0_origin : (![0, 0] : Fin 2 → Nat) = fun _ => 0 :=
  funext fun a => match a with | ⟨0, _⟩ => rfl | ⟨1, _⟩ => rfl

/-- The result as one function of the three operand arrays: at row i, the kernel-form negative
    log-likelihood of row i's logits (the scaled row of X against W) at row i's label. -/
abbrev arr0_fn (X : S8192x512.Idx → EReal) (W : S512x5000.Idx → EReal) (L : S8192x1.Idx → BitVec 32) :
    S8192x1.Idx → EReal := fun i =>
  Cert.Spec.nllK (Cert.Spec.logitK (R := 8192) X (fun k c' => W (ix2 k c')) ⟨(i 0).val, idx2_lt0 i⟩) (L i)

/-- The block indices over the grid: at point t the embedding, label and result blocks are block row t
    (column block 0), the weight block is the one block (0, 0). -/
theorem arr0_blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row p of the embedding block at point t is row 256 t + p of the stacked embeddings. -/
theorem arr0_embBlock (c : Dev nD) (t : Fin cfg0.N) (p : Fin 256) (k : Fin 512) (r : Fin 8192)
    (hr : r.val = t.val * 256 + p.val) :
    (iblk0 (F := Ideal) V c 0 t : Vec Ideal S256x512 .bf16) (ix2 p k) = (V c main_v8 : S8192x512.Idx → EReal) (ix2 r k) := by
  obtain ⟨e0, e1, -⟩ := arr0_blockIdx t
  unfold iblk0
  rw [View.read_apply]
  show V c main_v8 _ = V c main_v8 _
  congr 1
  funext a; apply Fin.ext
  match a with
  | ⟨0, _⟩ => show win0_0.index t (0 : Fin 2) * 256 + 1 * p.val = r.val; omega
  | ⟨1, _⟩ => show win0_0.index t (1 : Fin 2) * 512 + 1 * k.val = k.val; omega

/-- The weight block is the whole weight array at every point. -/
theorem arr0_wBlock (c : Dev nD) (t : Fin cfg0.N) (k : Fin 512) (c' : Fin 5000) :
    (iblk0 (F := Ideal) V c 1 t : Vec Ideal S512x5000 .bf16) (ix2 k c') = (V c main_v5 : S512x5000.Idx → EReal) (ix2 k c') := by
  obtain ⟨-, -, e0, e1, -⟩ := arr0_blockIdx t
  unfold iblk0
  rw [View.read_apply]
  show V c main_v5 _ = V c main_v5 _
  congr 1
  funext a; apply Fin.ext
  match a with
  | ⟨0, _⟩ => show win0_1.index t (0 : Fin 2) * 512 + 1 * k.val = k.val; omega
  | ⟨1, _⟩ => show win0_1.index t (1 : Fin 2) * 5000 + 1 * c'.val = c'.val; omega

/-- Row p of the label block at point t is the label of row 256 t + p. -/
theorem arr0_labBlock (c : Dev nD) (t : Fin cfg0.N) (p : Fin 256) (i : S8192x1.Idx)
    (hi : (i 0).val = t.val * 256 + p.val) :
    (iblk0 (F := Ideal) V c 2 t : Vec Ideal S256x1 .i32) (ix2 p 0) = (V c main_v10 : S8192x1.Idx → BitVec 32) i := by
  obtain ⟨-, -, -, -, e0, e1, -⟩ := arr0_blockIdx t
  have hi1 := idx2_lt1 i
  unfold iblk0
  rw [View.read_apply]
  show V c main_v10 _ = V c main_v10 _
  congr 1
  funext a; apply Fin.ext
  match a with
  | ⟨0, _⟩ => show win0_2.index t (0 : Fin 2) * 256 + 1 * p.val = (i 0).val; omega
  | ⟨1, _⟩ => show win0_2.index t (1 : Fin 2) * 1 + 1 * 0 = (i 1).val; omega

omit V in
/-- The stored block at a row whose three reads are rows of the operand arrays is the result function
    at that row of the array: the stored value's row formula, its reads replaced one by one. -/
theorem arr0_payRow (x0 : Vec Ideal S256x512 .bf16) (x1 : Vec Ideal S512x5000 .bf16) (x2 : Vec Ideal S256x1 .i32)
    (X : S8192x512.Idx → EReal) (W : S512x5000.Idx → EReal) (L : S8192x1.Idx → BitVec 32)
    (y : S256x1.Idx) (i : S8192x1.Idx) (p : Fin 256) (hp : (y 0).val = p.val)
    (h0 : ∀ k : Fin 512, x0 (ix2 p k) = X (ix2 ⟨(i 0).val, idx2_lt0 i⟩ k))
    (h1 : ∀ (k : Fin 512) (c' : Fin 5000), x1 (ix2 k c') = W (ix2 k c'))
    (h2 : x2 (ix2 p 0) = L i) :
    k0_pay1 (F := Ideal) x0 x1 x2 y = arr0_fn X W L i := by
  have hy : y = ix2 p 0 := by
    funext a
    match a with
    | ⟨0, _⟩ => exact Fin.ext hp
    | ⟨1, _⟩ => exact Fin.ext (by have := idx2_lt1 y; show (y 1).val = 0; omega)
  rw [hy, pay0_apply, h2]
  show Cert.Spec.nllK _ _ = Cert.Spec.nllK _ _
  congr 1
  funext c'
  unfold Cert.Spec.logitK
  exact Finset.sum_congr rfl fun k _ => by rw [h0 k, h1 k c']

/-- What point t writes back is block t of the result function of the operand arrays. -/
theorem arr0_flushed (c : Dev nD) (t : Fin cfg0.N) :
    (dat0 (F := Ideal) V c).flushed 3 t
      = ((cfg0.win 3).blk t).view.read (Elt Ideal) (arr0_fn (V c main_v8) (V c main_v5) (V c main_v10)) := by
  show (cfg0.win 3).cut (grid0.coords t) ((dat0 V c).after 3 t) = _
  dsimp only [dat0]
  unfold out0_3
  rw [View.canon_unit_zero arr0_origin]
  simp only [View.ld_unit_zero (S := S256x512) arr0_origin, View.ld_unit_zero (S := S512x5000) arr0_origin,
    View.ld_unit_zero (S := S256x1) arr0_origin]
  funext j
  obtain ⟨-, -, -, -, -, -, e0, e1⟩ := arr0_blockIdx t
  have hj0 : (j 0).val < 256 := (j 0).isLt
  have hrow : ((((cfg0.win 3).blk t).view.emb j) 0).val = t.val * 256 + (j 0).val := by
    show win0_3.index t (0 : Fin 2) * 256 + 1 * (j 0).val = _
    omega
  refine arr0_payRow _ _ _ (V c main_v8) (V c main_v5) (V c main_v10) _ (((cfg0.win 3).blk t).view.emb j)
    ⟨(j 0).val, hj0⟩ rfl ?_ ?_ ?_
  · intro k; exact arr0_embBlock V c t _ k _ hrow
  · intro k c'; exact arr0_wBlock V c t k c'
  · exact arr0_labBlock V c t _ _ hrow

omit V in
/-- An index of the result array is in point t's block iff each coordinate is in the block's range. -/
theorem arr0_memBlk (t : Fin cfg0.N) (i : S8192x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v11).slice (win0_3.rect t)).set ↔ _
  rw [View.set_slice_whole, Rect.mem_set_unit]
  exact Iff.rfl

omit V in
/-- The 32 blocks tile the result array: row r is in the block of point r / 256. -/
theorem arr0_cover (i : S8192x1.Idx) :
    ∃ t : Fin cfg0.N, (cfg0.win 3).flush t = true ∧ i ∈ ((cfg0.win 3).blk t).view.set := by
  have hi0 := idx2_lt0 i
  have hi1 := idx2_lt1 i
  obtain ⟨t, ht⟩ : ∃ t : Fin cfg0.N, t.val = (i 0).val / 256 :=
    ⟨⟨(i 0).val / 256, by show _ < grid0.N; rw [N_0]; omega⟩, rfl⟩
  obtain ⟨-, -, -, -, -, -, e0, e1⟩ := arr0_blockIdx t
  refine ⟨t, flush0_3 t, ?_⟩
  rw [arr0_memBlk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1 ≤ (i 1).val ∧ (i 1).val < win0_3.index t (1 : Fin 2) * 1 + 1
    omega

theorem arr0_spec (V : (c : Dev nD) → (b : Ref sig .tc) → Buf (Elt Ideal) ((c : Thread nD τ).loc b)) (c : Dev nD) :
    (dat0 (F := Ideal) V c).arrAt 3 cfg0.N = fun i : S8192x1.Idx =>
      Cert.Spec.nllK (Cert.Spec.logitK (R := 8192) (V c main_v8) (fun k c' => V c main_v5 (ix2 k c')) ⟨(i 0).val, idx2_lt0 i⟩) (V c main_v10 i) :=
  (dat0 (F := Ideal) V c).arrAt_eq_of_cover 3 (arr0_fn (V c main_v8) (V c main_v5) (V c main_v10))
    (fun t _ => arr0_flushed V c t) arr0_cover

end Cert.KernelIdeal.R0

end
-- ==== Proof.KI.Pay1.lean ====
/-
  The global-align kernel's stored values read at an index: the tile of pair losses (the softplus of the
  margin the labels' match selects, over the similarity of a visual row and a textual row), the
  accumulator's update (what it held plus the tile's row sum) and its reset (zero).
-/
import proofs.«409325_j5102421147884_2_alg».proof.Proof.Gen.KernelIdeal.Skeleton
import proofs.«409325_j5102421147884_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R1

open Cert.KernelIdeal Cert.KernelIdeal.Gen Idealize.ShloMosaic Idealize.ShloMosaic.ValueIdx

section Columns
variable {α : Type}

/-- One column broadcast over many: an `[a, 1]` array broadcast to `[a, b]` reads, at `(p, c)`, the operand's
    one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A trailing unit axis added to a vector: an `[a]` array cast to `[a, 1]` reads, at `(i, u)`, the operand at
    `i`, whatever the unit coordinate `u`: both sit at row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Columns

/-- The sum along the lanes of a 1024 × 1024 tile, started from the zero word, is at row `p` the sum of that
    row's entries: the index over row `p` with lane `q` inserted is `(p, q)`. -/
theorem laneSum_apply (src : FVec Ideal S1024x1024 .f32) (h : S1024x1024.Reduces [1] S1024) (hφ : FKind.Formats .f32)
    (hacc : (0x00000000#32 : BitVec 32) = 0x00000000#32) (p : Fin 1024) :
    multiReduction (F := Ideal) .add [1] S1024 src 0x00000000#32 h hφ hacc (ix1 p) = ∑ q : Fin 1024, src (ix2 p q) := by
  refine (Ideal.multiReduction_add_single src 0x00000000#32 h hφ hacc (ix1 p)).trans ?_
  refine Finset.sum_congr rfl fun k _ => congrArg src ?_
  exact funext fun c => Fin.ext (match c with | ⟨0, _⟩ => rfl | ⟨1, _⟩ => rfl)

/-! ## The similarity: the contraction read at an index -/

theorem sim_lhs_0 (i : S1024x1024.Idx) (κ : dot_S1024x512_S512x1024_S1024x1024_1_0_0_1_n_n.contr.Idx) :
    (dot_S1024x512_S512x1024_S1024x1024_1_0_0_1_n_n.lhsIdx i κ 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem sim_lhs_1 (i : S1024x1024.Idx) (κ : dot_S1024x512_S512x1024_S1024x1024_1_0_0_1_n_n.contr.Idx) :
    (dot_S1024x512_S512x1024_S1024x1024_1_0_0_1_n_n.lhsIdx i κ 1).val = (κ ⟨0, by decide⟩).val :=
  dot_S1024x512_S512x1024_S1024x1024_1_0_0_1_n_n.lhsIdx_val_of_single rfl i κ
theorem sim_rhs_0 (i : S1024x1024.Idx) (κ : dot_S1024x512_S512x1024_S1024x1024_1_0_0_1_n_n.contr.Idx) :
    (dot_S1024x512_S512x1024_S1024x1024_1_0_0_1_n_n.rhsIdx i κ 0).val = (κ ⟨0, by decide⟩).val :=
  dot_S1024x512_S512x1024_S1024x1024_1_0_0_1_n_n.rhsIdx_val_of_single rfl i κ
theorem sim_rhs_1 (i : S1024x1024.Idx) (κ : dot_S1024x512_S512x1024_S1024x1024_1_0_0_1_n_n.contr.Idx) :
    (dot_S1024x512_S512x1024_S1024x1024_1_0_0_1_n_n.rhsIdx i κ 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of the visual block with the transposed textual block, into zero: entry `(p, q)` is the sum over
    the 512 features of visual row `p` times textual row `q`. The contraction index is its one coordinate; the
    left operand is read at `(p, k)`, the right at `(k, q)`, which the transpose reads at `(q, k)`. -/
theorem sim_apply (xv xt : FVec Ideal S1024x512 .bf16) (hT : S1024x512.Transposes [1, 0] S512x1024) (p q : Fin 1024) :
    matmul dot_S1024x512_S512x1024_S1024x1024_1_0_0_1_n_n none xv (transpose S512x1024 [1, 0] xt hT)
        (constant (F := Ideal) S1024x1024 .f32 0x00000000#32) (ix2 p q)
      = ∑ k : Fin 512, xv (ix2 p k) * xt (ix2 q k) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact sim_lhs_0 _ _
    | ⟨1, _⟩ => exact (sim_lhs_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (sim_rhs_0 _ _).trans hk
    | ⟨1, _⟩ => exact sim_rhs_1 _ _)
  rw [el, er, transpose_ix2_apply]

/-! ## The scalar laws the tile's entry rests on -/

/-- A comparison "ordered and not equal" of an extended real with itself is false. -/
theorem cmp_one_self (x : EReal) : Ideal.cmp .one x x = 0#1 := by
  unfold Ideal.cmp
  simp

/-- A select on the equality of two label words is the choice their equality makes. -/
theorem select_cmpi_eq {α : Type} (x y : BitVec 32) (A B : α) :
    Scalar.select (IntOp.cmpi .eq x y) A B = if x = y then A else B := by
  unfold Scalar.select IntOp.cmpi
  by_cases h : x = y
  · subst h; simp
  · have hb : (x == y) = false := beq_eq_false_iff_ne.mpr h
    simp [h, hb]

/-- The guarded spelling of the softplus: the guard compares `a - 0` with itself, so it never holds and the
    select takes `max a 0 + log1p (exp (0 - |a - 0|))`; with `a - 0 = a`, `0 - y = -y` and `|a| = max a (-a)`
    that is the softplus of `a`. -/
theorem softplus_guard (a : EReal) :
    Scalar.select (Ideal.cmp .one (a - Ideal.ofBits .f32 0x00000000#32) (a - Ideal.ofBits .f32 0x00000000#32))
        (a + Ideal.ofBits .f32 0x00000000#32)
        (max a (Ideal.ofBits .f32 0x00000000#32)
          + Ideal.log1p (Ideal.exp (Ideal.ofBits .f32 0x00000000#32
              - max (a - Ideal.ofBits .f32 0x00000000#32) (-(a - Ideal.ofBits .f32 0x00000000#32)))))
      = Cert.Spec.softplus a := by
  rw [Ideal.ofBits_zero_f32, sub_zero, zero_sub, cmp_one_self, select_zero]
  rfl

section Pointwise
variable {s : Shape} {φ : FTy} {w : Nat}
/-- The exponential, `log (1 + ·)`, the absolute value and an integer comparison act entry by entry. -/
theorem exp_at (a : FVec Ideal s φ) (i : s.Idx) : exp a i = Ideal.exp (a i) := rfl
theorem log1p_at (a : FVec Ideal s φ) (i : s.Idx) : log1p a i = Ideal.log1p (a i) := rfl
theorem absf_at (a : FVec Ideal s φ) (i : s.Idx) : absf a i = max (a i) (-(a i)) := rfl
theorem cmpi_at (c : CmpIPredicate) (x y : IVec s w) (i : s.Idx) : cmpi c x y i = IntOp.cmpi c (x i) (y i) := rfl
theorem cmpf_at (c : CmpFPredicate) (a b : FVec Ideal s φ) (i : s.Idx) : cmpf c a b i = Ideal.cmp c (a i) (b i) := rfl
end Pointwise

/-! ## The three stored values -/

/-- Entry (p, q) of the tile: the softplus of the pair's margin. -/
theorem pay3_apply (xv xt : FVec Ideal S1024x512 .bf16) (lr : Vec Ideal S1024x1 .i32) (lc : Vec Ideal S1x1024 .i32) (p q : Fin 1024) :
    k1_pay3 (F := Ideal) xv xt lr lc (ix2 p q)
      = Cert.Spec.softplus (if lr (ix2 p 0) = lc (ix2 0 q)
          then Cert.Spec.fNegPos * ((∑ k : Fin 512, xv (ix2 p k) * xt (ix2 q k)) - Cert.Spec.fAlpha)
          else Cert.Spec.fNeg * ((∑ k : Fin 512, xv (ix2 p k) * xt (ix2 q k)) - Cert.Spec.fBeta)) := by
  unfold k1_pay3
  rw [shapeCast_self, shapeCast_self, shapeCast_self, shapeCast_self]
  have hs := sim_apply xv xt transposes_S1024x512_p1_0_S512x1024 p q
  generalize matmul dot_S1024x512_S512x1024_S1024x1024_1_0_0_1_n_n none xv (transpose S512x1024 [1, 0] xt transposes_S1024x512_p1_0_S512x1024)
    (constant (F := Ideal) S1024x1024 .f32 0x00000000#32) = s at hs ⊢
  simp only [select_apply, cmpf_at, addf_apply, subf_apply, mulf_apply, maximumf_apply, broadcast_apply, exp_at, log1p_at,
    absf_at, cmpi_at]
  refine (softplus_guard _).trans ?_
  rw [select_cmpi_eq, broadcastTo_a1_ab_apply, broadcastTo_1b_ab_apply, hs]
  rfl

/-- Row `p` of the updated accumulator: what it held plus the tile's row sum. -/
theorem pay1_apply (tl : FVec Ideal S1024x1024 .f32) (acc : Vec Ideal S1024x1 .f32) (p : Fin 1024) :
    k1_pay1 (F := Ideal) tl acc (ix2 p 0) = acc (ix2 p 0) + ∑ q : Fin 1024, tl (ix2 p q) := by
  unfold k1_pay1
  rw [shapeCast_self, addf_apply]
  refine congrArg (acc (ix2 p 0) + ·) ?_
  refine (shapeCast_a_a1_apply _ _ p (0 : Fin 1)).trans ?_
  exact laneSum_apply tl _ _ _ p

/-- The reset accumulator is zero. -/
theorem pay2_apply (p : Fin 1024) : k1_pay2 (F := Ideal) (ix2 p 0) = 0 := by
  unfold k1_pay2
  rw [shapeCast_self, broadcast_apply]
  exact Ideal.ofBits_zero_f32

end Cert.KernelIdeal.R1

end
-- ==== Proof.KI.Value1.lean ====
/-
  The global-align region's result array as one function of its operand arrays: row i of the 4096 × 1
  result is the sum over all 4096 columns of the pair losses of row i (the accumulator after the fourth
  column tile of i's row tile, written back at that point; the four write-backs' blocks tile the array).
-/
import proofs.«409325_j5102421147884_2_alg».proof.Proof.KI.Region1
import proofs.«409325_j5102421147884_2_alg».proof.Proof.KI.Pay1
import Mathlib.Algebra.BigOperators.Fin
import Mathlib.Data.Fintype.BigOperators
import Mathlib.Logic.Equiv.Fin.Basic

set_option maxRecDepth 16384

noncomputable section

namespace Cert.KernelIdeal.R1

open Cert.KernelIdeal Cert.KernelIdeal.Gen Idealize.ShloMosaic Idealize.ShloMosaic.TcCoe Idealize.ShloMosaic.ValueIdx Idealize.SL.Sem
open Idealize.ShloMosaic.Pipeline (Dat)

namespace Arr

/-! ## Rows and columns of the 4096 × 4096 pair matrix by tile -/

/-- Row (or column) `p` of tile `s`: position `1024 s + p` (total in `s`: taken modulo 4096, which
    changes nothing for the four tiles `s < 4`). -/
def tileIdx (s : ℕ) (p : Fin 1024) : Fin 4096 := ⟨(1024 * s + p.val) % 4096, Nat.mod_lt _ (by decide)⟩

theorem tileIdx_val (s : ℕ) (hs : s < 4) (p : Fin 1024) : (tileIdx s p).val = 1024 * s + p.val := by
  have hp : p.val < 1024 := p.isLt
  show (1024 * s + p.val) % 4096 = _
  omega

/-- A sum over the 4096 columns is the sum over the four column tiles of the sums over each tile's
    1024 columns (a re-indexing of a finite sum in a commutative monoid). -/
theorem sum_tiles {M : Type*} [AddCommMonoid M] (f : Fin 4096 → M) :
    ∑ s ∈ Finset.range 4, ∑ q : Fin 1024, f (tileIdx s q) = ∑ c' : Fin 4096, f c' := by
  rw [Finset.sum_range, ← Fintype.sum_prod_type' (fun (s : Fin 4) (q : Fin 1024) => f (tileIdx s.val q))]
  refine Fintype.sum_equiv (finProdFinEquiv : Fin 4 × Fin 1024 ≃ Fin 4096) _ _ fun x => ?_
  refine congrArg f (Fin.ext ?_)
  have h1 : x.1.val < 4 := x.1.isLt
  have h2 : x.2.val < 1024 := x.2.isLt
  show (1024 * x.1.val + x.2.val) % 4096 = x.2.val + 1024 * x.1.val
  omega

/-! ## The grid's index maps, decided over the sixteen points -/

/-- Point `t` is row tile `t / 4` against column tile `t % 4`: the block index of every window. -/
theorem idx_facts1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = t.val % 4
    ∧ win1_4.index t (0 : Fin 2) = t.val / 4 ∧ win1_4.index t (1 : Fin 2) = 0 :=
  (by decide +kernel : ∀ t : Fin grid1.N, _)

variable (V : (c : Dev nD) → (b : Ref sig .tc) → Buf (Elt Ideal) ((c : Thread nD τ).loc b)) (c : Dev nD)

/-! ## The four input blocks at a point, read at an entry -/

/-- The visual rows' block at point `t`. -/
abbrev blkV (t : Fin cfg1.N) : FVec Ideal S1024x512 .bf16 := iblk1 V c 0 t
/-- The textual rows' block. -/
abbrev blkT (t : Fin cfg1.N) : FVec Ideal S1024x512 .bf16 := iblk1 V c 1 t
/-- The row labels' block. -/
abbrev blkR (t : Fin cfg1.N) : Vec Ideal S1024x1 .i32 := iblk1 V c 2 t
/-- The column labels' block. -/
abbrev blkC (t : Fin cfg1.N) : Vec Ideal S1x1024 .i32 := iblk1 V c 3 t

/-- Row `p` of the visual block of point `t` is row `1024 (t / 4) + p` of the visual array. -/
theorem blkV_apply (t : Fin cfg1.N) (p : Fin 1024) (k : Fin 512) :
    blkV V c t (ix2 p k) = (V c main_v3 : S4096x512.Idx → EReal) (ix2 (tileIdx (t.val / 4) p) k) := by
  obtain ⟨e0, e1, -⟩ := idx_facts1 t
  have hN : cfg1.N = 16 := N_1
  have ht : t.val < 16 := hN ▸ t.isLt
  have hp : p.val < 1024 := p.isLt
  unfold blkV iblk1
  rw [View.read_apply]
  show V c main_v3 _ = V c main_v3 _
  congr 1
  funext a
  apply Fin.ext
  match a with
  | ⟨0, _⟩ => show win1_0.index t (0 : Fin 2) * 1024 + 1 * p.val = (1024 * (t.val / 4) + p.val) % 4096; rw [e0]; omega
  | ⟨1, _⟩ => show win1_0.index t (1 : Fin 2) * 512 + 1 * k.val = k.val; rw [e1]; omega

/-- Row `q` of the textual block of point `t` is row `1024 (t % 4) + q` of the textual array. -/
theorem blkT_apply (t : Fin cfg1.N) (q : Fin 1024) (k : Fin 512) :
    blkT V c t (ix2 q k) = (V c main_v4 : S4096x512.Idx → EReal) (ix2 (tileIdx (t.val % 4) q) k) := by
  obtain ⟨-, -, e0, e1, -⟩ := idx_facts1 t
  have hq : q.val < 1024 := q.isLt
  unfold blkT iblk1
  rw [View.read_apply]
  show V c main_v4 _ = V c main_v4 _
  congr 1
  funext a
  apply Fin.ext
  match a with
  | ⟨0, _⟩ => show win1_1.index t (0 : Fin 2) * 1024 + 1 * q.val = (1024 * (t.val % 4) + q.val) % 4096; rw [e0]; omega
  | ⟨1, _⟩ => show win1_1.index t (1 : Fin 2) * 512 + 1 * k.val = k.val; rw [e1]; omega

/-- Entry `p` of the row labels' block of point `t` is the label of row `1024 (t / 4) + p`. -/
theorem blkR_apply (t : Fin cfg1.N) (p : Fin 1024) :
    blkR V c t (ix2 p 0) = (V c main_v6 : S4096x1.Idx → BitVec 32) (ix2 (tileIdx (t.val / 4) p) 0) := by
  obtain ⟨-, -, -, -, e0, e1, -⟩ := idx_facts1 t
  have hN : cfg1.N = 16 := N_1
  have ht : t.val < 16 := hN ▸ t.isLt
  have hp : p.val < 1024 := p.isLt
  unfold blkR iblk1
  rw [View.read_apply]
  show V c main_v6 _ = V c main_v6 _
  congr 1
  funext a
  apply Fin.ext
  match a with
  | ⟨0, _⟩ => show win1_2.index t (0 : Fin 2) * 1024 + 1 * p.val = (1024 * (t.val / 4) + p.val) % 4096; rw [e0]; omega
  | ⟨1, _⟩ => show win1_2.index t (1 : Fin 2) * 1 + 1 * 0 = 0; rw [e1]

/-- Entry `q` of the column labels' block of point `t` is the label of column `1024 (t % 4) + q`. -/
theorem blkC_apply (t : Fin cfg1.N) (q : Fin 1024) :
    blkC V c t (ix2 0 q) = (V c main_v7 : S1x4096.Idx → BitVec 32) (ix2 0 (tileIdx (t.val % 4) q)) := by
  obtain ⟨-, -, -, -, -, -, e0, e1, -⟩ := idx_facts1 t
  have hq : q.val < 1024 := q.isLt
  unfold blkC iblk1
  rw [View.read_apply]
  show V c main_v7 _ = V c main_v7 _
  congr 1
  funext a
  apply Fin.ext
  match a with
  | ⟨0, _⟩ => show win1_3.index t (0 : Fin 2) * 1 + 1 * 0 = 0; rw [e0]
  | ⟨1, _⟩ => show win1_3.index t (1 : Fin 2) * 1024 + 1 * q.val = (1024 * (t.val % 4) + q.val) % 4096; rw [e1]; omega

/-! ## A tile's entry is the pair loss of its row and column -/

/-- Over any four blocks that are restrictions of the arrays to row `r` and column `c'`: the
    tile's entry is the specification's pair loss. -/
theorem pay3_pair (v t' : Cert.Spec.Mat 4096 512) (lr lc : Fin 4096 → BitVec 32)
    (xv xt : FVec Ideal S1024x512 .bf16) (br : Vec Ideal S1024x1 .i32) (bc : Vec Ideal S1x1024 .i32)
    (r c' : Fin 4096) (p q : Fin 1024)
    (hv : ∀ k : Fin 512, xv (ix2 p k) = v (ix2 r k)) (ht : ∀ k : Fin 512, xt (ix2 q k) = t' (ix2 c' k))
    (hr : br (ix2 p 0) = lr r) (hc : bc (ix2 0 q) = lc c') :
    k1_pay3 (F := Ideal) xv xt br bc (ix2 p q) = Cert.Spec.pair v t' lr lc r c' := by
  refine (pay3_apply xv xt br bc p q).trans ?_
  unfold Cert.Spec.pair Cert.Spec.pairArg Cert.Spec.sim
  have hs : (∑ k : Fin 512, xv (ix2 p k) * xt (ix2 q k)) = ∑ k : Fin 512, v (ix2 r k) * t' (ix2 c' k) :=
    Finset.sum_congr rfl fun k _ => by rw [hv k, ht k]
  rw [hs]
  by_cases h : lr r = lc c'
  · rw [if_pos h, if_pos (by rw [hr, hc]; exact h)]
  · rw [if_neg h, if_neg (by rw [hr, hc]; exact h)]

/-- The operand arrays as the specification reads them. -/
abbrev labR : Fin 4096 → BitVec 32 := fun r => V c main_v6 (ix2 r 0)
abbrev labC : Fin 4096 → BitVec 32 := fun c' => V c main_v7 (ix2 0 c')

/-- Entry (p, q) of the tile at point `t`: the pair loss of row `1024 (t / 4) + p` and column
    `1024 (t % 4) + q`. -/
theorem tile_apply (t : Fin cfg1.N) (p q : Fin 1024) :
    tile V c t (ix2 p q)
      = Cert.Spec.pair (V c main_v3) (V c main_v4) (labR V c) (labC V c) (tileIdx (t.val / 4) p) (tileIdx (t.val % 4) q) :=
  pay3_pair (V c main_v3) (V c main_v4) (labR V c) (labC V c) (blkV V c t) (blkT V c t) (blkR V c t) (blkC V c t)
    (tileIdx (t.val / 4) p) (tileIdx (t.val % 4) q) p q
    (fun k => blkV_apply V c t p k) (fun k => blkT_apply V c t q k) (blkR_apply V c t p) (blkC_apply V c t q)

/-- The sum of row `r`'s pair losses over the 1024 columns of column tile `s`. -/
def colSum (r : Fin 4096) (s : ℕ) : EReal :=
  ∑ q : Fin 1024, Cert.Spec.pair (V c main_v3) (V c main_v4) (labR V c) (labC V c) r (tileIdx s q)

/-- One accumulation step at point `t`, row `p`: what the accumulator held plus the row's sum over the
    point's column tile. -/
theorem step_apply (t : Fin cfg1.N) (acc : Vec Ideal S1024x1 .f32) (p : Fin 1024) :
    k1_pay1 (F := Ideal) (tile V c t) acc (ix2 p 0) = acc (ix2 p 0) + colSum V c (tileIdx (t.val / 4) p) (t.val % 4) := by
  refine (pay1_apply (tile V c t) acc p).trans ?_
  unfold colSum
  exact congrArg (acc (ix2 p 0) + ·) (Finset.sum_congr rfl fun q _ => tile_apply V c t p q)

/-- THE ACCUMULATOR after point `n`, row `p`: the row's sums over column tiles `0 … n % 4` (by
    induction on the point: a reset at the first column tile of a row tile, a step elsewhere). -/
theorem accAt_apply : ∀ (n : ℕ) (hn : n < cfg1.N) (p : Fin 1024),
    accAt V c n hn (ix2 p 0) = ∑ s ∈ Finset.range (n % 4 + 1), colSum V c (tileIdx (n / 4) p) s
  | 0, hn, p => by
    rw [accAt]
    refine (step_apply V c ⟨0, hn⟩ (k1_pay2 (F := Ideal)) p).trans ?_
    rw [pay2_apply, zero_add]
    show _ = ∑ s ∈ Finset.range 1, _
    rw [Finset.sum_range_one]
    rfl
  | n + 1, hn, p => by
    rw [accAt]
    by_cases h : (n + 1) % 4 = 0
    · rw [if_pos h]
      refine (step_apply V c ⟨n + 1, hn⟩ (k1_pay2 (F := Ideal)) p).trans ?_
      rw [pay2_apply, zero_add]
      show colSum V c (tileIdx ((n + 1) / 4) p) ((n + 1) % 4) = _
      rw [h, Finset.sum_range_one]
    · rw [if_neg h]
      refine (step_apply V c ⟨n + 1, hn⟩ _ p).trans ?_
      rw [accAt_apply n (Nat.lt_of_succ_lt hn) p]
      show _ + colSum V c (tileIdx ((n + 1) / 4) p) ((n + 1) % 4) = _
      have h1 : (n + 1) / 4 = n / 4 := by omega
      have h2 : (n + 1) % 4 = n % 4 + 1 := by omega
      rw [h1, h2, Finset.sum_range_succ _ (n % 4 + 1)]

/-! ## The write-backs -/

/-- The result: row `i`'s pair losses summed over all columns. -/
abbrev G1 : S4096x1.Idx → EReal := fun i =>
  Cert.Spec.rowLoss (V c main_v3) (V c main_v4) (fun r => V c main_v6 (ix2 r 0)) (fun c' => V c main_v7 (ix2 0 c')) ⟨(i 0).val, idx2_lt0 i⟩

/-- At the last column tile of a row tile the accumulator's row `p` is the whole row's loss. -/
theorem accAt_last (n : ℕ) (hn : n < cfg1.N) (h3 : n % 4 = 3) (p : Fin 1024) :
    accAt V c n hn (ix2 p 0)
      = Cert.Spec.rowLoss (V c main_v3) (V c main_v4) (labR V c) (labC V c) (tileIdx (n / 4) p) := by
  rw [accAt_apply V c n hn p, h3]
  unfold colSum Cert.Spec.rowLoss
  exact sum_tiles fun c' => Cert.Spec.pair (V c main_v3) (V c main_v4) (labR V c) (labC V c) (tileIdx (n / 4) p) c'

/-- WHAT A WRITE-BACK WRITES: at a point that writes the output window back (the last column tile of
    its row tile) the block written is that row tile's block of the result. -/
theorem flushed_eq1 (t : Fin cfg1.N) (hf : (cfg1.win 4).flush t = true) :
    (dat1 (F := Ideal) V c).flushed 4 t = ((cfg1.win 4).blk t).view.read (Elt Ideal) (G1 V c) := by
  have h3 : t.val % 4 = 3 := (flush1_4 t).mp hf
  obtain ⟨-, -, -, -, -, -, -, -, e0, e1⟩ := idx_facts1 t
  have hN : cfg1.N = 16 := N_1
  have ht : t.val < 16 := hN ▸ t.isLt
  show (cfg1.win 4).cut (grid1.coords t) ((dat1 (F := Ideal) V c).after 4 t) = _
  dsimp only [dat1]
  funext y
  obtain ⟨p, z, rfl⟩ : ∃ (p : Fin 1024) (z : Fin 1), y = ix2 p z := ⟨y 0, y 1, eq_ix2 y⟩
  obtain rfl : z = 0 := Subsingleton.elim _ _
  have hp : p.val < 1024 := p.isLt
  rw [View.read_apply]
  refine (accAt_last V c t.val t.isLt h3 p).trans ?_
  show _ = Cert.Spec.rowLoss (V c main_v3) (V c main_v4) (labR V c) (labC V c) _
  refine congrArg (Cert.Spec.rowLoss (V c main_v3) (V c main_v4) (labR V c) (labC V c)) (Fin.ext ?_)
  show (1024 * (t.val / 4) + p.val) % 4096 = win1_4.index t (0 : Fin 2) * 1024 + 1 * p.val
  rw [e0]; omega

/-- An index of the result array is in point `t`'s block iff each coordinate is in the block's range. -/
theorem mem_blk1 (t : Fin cfg1.N) (i : S4096x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v19).slice (win1_4.rect t)).set ↔ _
  rw [View.set_slice_whole, Rect.mem_set_unit]
  exact Iff.rfl

/-- Row `r` of the result is covered by the write-back at the last column tile of row tile `r / 1024`. -/
theorem cover1 (i : S4096x1.Idx) :
    ∃ t : Fin cfg1.N, (cfg1.win 4).flush t = true ∧ i ∈ ((cfg1.win 4).blk t).view.set := by
  have hN : cfg1.N = 16 := N_1
  have hi0 : (i 0).val < 4096 := idx2_lt0 i
  have hi1 : (i 1).val < 1 := idx2_lt1 i
  let t : Fin cfg1.N := ⟨4 * ((i 0).val / 1024) + 3, by rw [hN]; omega⟩
  have htv : t.val = 4 * ((i 0).val / 1024) + 3 := rfl
  obtain ⟨-, -, -, -, -, -, -, -, e0, e1⟩ := idx_facts1 t
  refine ⟨t, (flush1_4 t).mpr (by rw [htv]; omega), ?_⟩
  rw [mem_blk1]
  intro a
  match a with
  | ⟨0, _⟩ => show win1_4.index t (0 : Fin 2) * 1024 ≤ (i 0).val ∧ (i 0).val < win1_4.index t (0 : Fin 2) * 1024 + 1024; rw [e0, htv]; omega
  | ⟨1, _⟩ => show win1_4.index t (1 : Fin 2) * 1 ≤ (i 1).val ∧ (i 1).val < win1_4.index t (1 : Fin 2) * 1 + 1; rw [e1]; omega

end Arr

theorem arr1_spec (V : (c : Dev nD) → (b : Ref sig .tc) → Buf (Elt Ideal) ((c : Thread nD τ).loc b)) (c : Dev nD) :
    (dat1 (F := Ideal) V c).arrAt 4 cfg1.N = fun i : S4096x1.Idx =>
      Cert.Spec.rowLoss (V c main_v3) (V c main_v4) (fun r => V c main_v6 (ix2 r 0)) (fun c' => V c main_v7 (ix2 0 c')) ⟨(i 0).val, idx2_lt0 i⟩ := by
  exact (dat1 (F := Ideal) V c).arrAt_eq_of_cover 4 (Arr.G1 V c) (fun t hf => Arr.flushed_eq1 V c t hf) Arr.cover1

end Cert.KernelIdeal.R1

end
-- ==== Proof.KI.Tail.lean ====
/-
  The kernel program's four results as functions of its arguments, at the ideal instance: the host
  operations before the regions (the column-normalised weight, the stacked embeddings and labels, the
  labels as a column and as a row) and after them (the two means over the halves of the cross-entropy
  region's result, their sum, and the doubled, batch-normalised sum of the global-align region's result)
  read at an index, over the two regions' result arrays.
-/
import proofs.«409325_j5102421147884_2_alg».proof.Proof.KI.Run
import proofs.«409325_j5102421147884_2_alg».proof.Proof.KI.Value0
import proofs.«409325_j5102421147884_2_alg».proof.Proof.KI.Value1
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-! ## The buffers the host writes before the first region, as terms of the arguments -/

/-- The weight with every column divided by its length (the square root of the column's sum of
    squares), in the kernel's operand format. -/
theorem W2_v5 (c : Dev nD) : W2 (F := Ideal) m c (Proc.devRef .tc main_v5)
    = (truncf .bf16 (Host.divf (F := Ideal) (m ((c.tc : Thread nD τ).loc main_arg3)) (broadcastInDim S512x5000 ![0, 1] bcast_S1x5000_S512x5000_0_1 (Host.sqrt (F := Ideal) (broadcastInDim S1x5000 ![1] bcast_S5000_S1x5000_1 (Host.reduceAdd (F := Ideal) (mulf (m ((c.tc : Thread nD τ).loc main_arg3)) (m ((c.tc : Thread nD τ).loc main_arg3))) (constant (F := Ideal) S_ .f32 0x00000000#32) reducesTo_S512x5000_S5000_d0 h_S_))))) bitsLt_bf16_f32 : (⟨S512x5000, .bf16⟩ : BufTy).Contents (Elt Ideal)) := by
  show StableHlo.after hostOps0_1 (StableHlo.after hostOps0 _) (Proc.devRef .tc main_v5) = _
  after_results <;> rfl

/-- The two embeddings in the kernel's operand format. -/
theorem W2_v3 (c : Dev nD) : W2 (F := Ideal) m c (Proc.devRef .tc main_v3)
    = (truncf .bf16 (m ((c.tc : Thread nD τ).loc main_arg0) : FVec Ideal S4096x512 .f32) bitsLt_bf16_f32 : FVec Ideal S4096x512 .bf16) := by
  show StableHlo.after hostOps0_1 (StableHlo.after hostOps0 _) (Proc.devRef .tc main_v3) = _
  after_results <;> rfl
theorem W2_v4 (c : Dev nD) : W2 (F := Ideal) m c (Proc.devRef .tc main_v4)
    = (truncf .bf16 (m ((c.tc : Thread nD τ).loc main_arg1) : FVec Ideal S4096x512 .f32) bitsLt_bf16_f32 : FVec Ideal S4096x512 .bf16) := by
  show StableHlo.after hostOps0_1 (StableHlo.after hostOps0 _) (Proc.devRef .tc main_v4) = _
  after_results <;> rfl

/-- The labels as a column and as a row. -/
theorem W2_v6 (c : Dev nD) : W2 (F := Ideal) m c (Proc.devRef .tc main_v6)
    = (shapeCast S4096x1 (m ((c.tc : Thread nD τ).loc main_arg2)) shapeCasts_S4096_S4096x1 : (⟨S4096x1, .i32⟩ : BufTy).Contents (Elt Ideal)) := by
  show StableHlo.after hostOps0_1 (StableHlo.after hostOps0 _) (Proc.devRef .tc main_v6) = _
  after_results <;> rfl
theorem W2_v7 (c : Dev nD) : W2 (F := Ideal) m c (Proc.devRef .tc main_v7)
    = (shapeCast S1x4096 (m ((c.tc : Thread nD τ).loc main_arg2)) shapeCasts_S4096_S1x4096 : (⟨S1x4096, .i32⟩ : BufTy).Contents (Elt Ideal)) := by
  show StableHlo.after hostOps0_1 (StableHlo.after hostOps0 _) (Proc.devRef .tc main_v7) = _
  after_results <;> rfl

/-- The two embeddings stacked, the visual rows first. -/
theorem W2_v8 (c : Dev nD) : W2 (F := Ideal) m c (Proc.devRef .tc main_v8)
    = (concatenate S8192x512 0 [⟨S4096x512, (truncf .bf16 (m ((c.tc : Thread nD τ).loc main_arg0) : FVec Ideal S4096x512 .f32) bitsLt_bf16_f32 : FVec Ideal S4096x512 .bf16)⟩, ⟨S4096x512, (truncf .bf16 (m ((c.tc : Thread nD τ).loc main_arg1) : FVec Ideal S4096x512 .f32) bitsLt_bf16_f32 : FVec Ideal S4096x512 .bf16)⟩] concatenates_S4096x512_S4096x512_S8192x512_d0 : (⟨S8192x512, .bf16⟩ : BufTy).Contents (Elt Ideal)) := by
  show StableHlo.after hostOps0_1 (StableHlo.after hostOps0 _) (Proc.devRef .tc main_v8) = _
  after_results <;> rfl

/-- The labels twice over, as a column. -/
theorem W2_v10 (c : Dev nD) : W2 (F := Ideal) m c (Proc.devRef .tc main_v10)
    = (shapeCast S8192x1 (concatenate S8192 0 [⟨S4096, m ((c.tc : Thread nD τ).loc main_arg2)⟩, ⟨S4096, m ((c.tc : Thread nD τ).loc main_arg2)⟩] concatenates_S4096_S4096_S8192_d0 : (⟨S8192, .i32⟩ : BufTy).Contents (Elt Ideal)) shapeCasts_S8192_S8192x1 : (⟨S8192x1, .i32⟩ : BufTy).Contents (Elt Ideal)) := by
  show StableHlo.after hostOps0_1 (StableHlo.after hostOps0 _) (Proc.devRef .tc main_v10) = _
  after_results <;> rfl

/-! ## Those terms read at an index -/

/-- A sum over the indices of an n × 1 array is the sum over its rows. -/
theorem sum_col {n : Nat} (f : (⟨2, ![n, 1]⟩ : Shape).Idx → EReal) : ∑ i, f i = ∑ r : Fin n, f (ix2 r (0 : Fin 1)) := by
  rw [sum_idx2]
  exact Finset.sum_congr rfl fun r _ => Fin.sum_univ_one _

/-- The host's sum down a column of the squared weight is that column's squared length. -/
theorem colSq_read (x3 : FVec Ideal S512x5000 .f32) (c' : Fin 5000) :
    Host.reduceAdd (F := Ideal) (mulf x3 x3) (constant (F := Ideal) S_ .f32 0x00000000#32) reducesTo_S512x5000_S5000_d0 h_S_ (ix1 c')
      = Cert.Spec.colSq x3 c' := by
  generalize hy : mulf x3 x3 = y
  simp only [Host.reduceAdd, Ideal.hostReduceAdd_def]
  rw [Ideal.hostReduceAdd_single reducesTo_S512x5000_S5000_d0 (by decide)]
  subst hy
  refine (congrArg (· + _) (show (constant (F := Ideal) S_ .f32 0x00000000#32) (Shape.Idx.first h_S_) = (0 : EReal) from Ideal.ofBits_zero_f32)).trans ?_
  rw [zero_add]
  unfold Cert.Spec.colSq
  refine Finset.sum_congr rfl fun k _ => ?_
  have e : (Shape.Reduces.lift (s := S512x5000) (t := S5000) (a := 0) (by decide) (ix1 c') k) = ix2 k c' :=
    funext fun a => Fin.ext (by match a with | ⟨0, _⟩ => rfl | ⟨1, _⟩ => rfl)
  rw [e]
  rfl

/-- The normalised weight the host computes, entry by entry: the entry over its column's length. -/
theorem wn_read (x3 : FVec Ideal S512x5000 .f32) (k : Fin 512) (c' : Fin 5000) :
    (truncf .bf16 (Host.divf (F := Ideal) x3 (broadcastInDim S512x5000 ![0, 1] bcast_S1x5000_S512x5000_0_1 (Host.sqrt (F := Ideal) (broadcastInDim S1x5000 ![1] bcast_S5000_S1x5000_1 (Host.reduceAdd (F := Ideal) (mulf x3 x3) (constant (F := Ideal) S_ .f32 0x00000000#32) reducesTo_S512x5000_S5000_d0 h_S_))))) bitsLt_bf16_f32 : FVec Ideal S512x5000 .bf16) (ix2 k c')
      = Cert.Spec.wn x3 k c' := by
  generalize hs : Host.reduceAdd (F := Ideal) (mulf x3 x3) (constant (F := Ideal) S_ .f32 0x00000000#32) reducesTo_S512x5000_S5000_d0 h_S_ = s
  have hs' : s (ix1 c') = Cert.Spec.colSq x3 c' := by rw [← hs]; exact colSq_read x3 c'
  unfold Cert.Spec.wn
  rw [← hs']
  show Ideal.div (x3 (ix2 k c')) (broadcastInDim S512x5000 ![0, 1] bcast_S1x5000_S512x5000_0_1 (Host.sqrt (F := Ideal) (broadcastInDim S1x5000 ![1] bcast_S5000_S1x5000_1 s)) (ix2 k c')) = _
  refine congrArg (Ideal.div (x3 (ix2 k c'))) ?_
  refine (broadcastInDim_apply _ bcast_S1x5000_S512x5000_0_1 _ (ix2 k c') (ix2 (0 : Fin 1) c') (fun a => match a with
    | ⟨0, _⟩ => by show 0 = if (1 : Nat) = 1 then 0 else k.val; rw [if_pos rfl]
    | ⟨1, _⟩ => by show c'.val = if (5000 : Nat) = 1 then 0 else c'.val; rw [if_neg (by decide)])).trans ?_
  show Ideal.sqrt (broadcastInDim S1x5000 ![1] bcast_S5000_S1x5000_1 s (ix2 (0 : Fin 1) c')) = _
  refine congrArg Ideal.sqrt ?_
  exact broadcastInDim_apply _ bcast_S5000_S1x5000_1 s (ix2 (0 : Fin 1) c') (ix1 c') (fun a => match a with
    | ⟨0, _⟩ => by show c'.val = if (5000 : Nat) = 1 then 0 else c'.val; rw [if_neg (by decide)])

/-- A row of the stacked embeddings below the first's extent is that row of the first. -/
theorem cat_left {α : Type} (x0 x1 : S4096x512.Idx → α) (r : Fin 4096) (k : Fin 512) (h : r.val < 8192) :
    concatenate S8192x512 0 [⟨S4096x512, x0⟩, ⟨S4096x512, x1⟩] concatenates_S4096x512_S4096x512_S8192x512_d0 (ix2 (⟨r.val, h⟩ : Fin 8192) k)
      = x0 (ix2 r k) :=
  concatenate_pair_apply_left 0 x0 x1 concatenates_S4096x512_S4096x512_S8192x512_d0 (ix2 (⟨r.val, h⟩ : Fin 8192) k) rfl (ix2 r k)
    (fun b => match b with | ⟨0, _⟩ => rfl | ⟨1, _⟩ => rfl)

/-- A row at or past it is the second's row that many less. -/
theorem cat_right {α : Type} (x0 x1 : S4096x512.Idx → α) (r : Fin 4096) (k : Fin 512) (h : 4096 + r.val < 8192) :
    concatenate S8192x512 0 [⟨S4096x512, x0⟩, ⟨S4096x512, x1⟩] concatenates_S4096x512_S4096x512_S8192x512_d0 (ix2 (⟨4096 + r.val, h⟩ : Fin 8192) k)
      = x1 (ix2 r k) :=
  concatenate_pair_apply_right 0 x0 x1 concatenates_S4096x512_S4096x512_S8192x512_d0 (ix2 (⟨4096 + r.val, h⟩ : Fin 8192) k) rfl rfl (ix2 r k)
    (fun b hb => match b with | ⟨0, _⟩ => absurd rfl hb | ⟨1, _⟩ => rfl)
    (by show r.val + 4096 = 4096 + r.val; omega)

/-- The doubled label column at a row below 4096 is the label of that row … -/
theorem lab_left {α : Type} (x2 : S4096.Idx → α) (r : Fin 4096) (h : r.val < 8192) :
    shapeCast S8192x1 (concatenate S8192 0 [⟨S4096, x2⟩, ⟨S4096, x2⟩] concatenates_S4096_S4096_S8192_d0) shapeCasts_S8192_S8192x1 (ix2 (⟨r.val, h⟩ : Fin 8192) (0 : Fin 1))
      = x2 (ix1 r) := by
  refine (shapeCast_apply _ shapeCasts_S8192_S8192x1 (ix2 (⟨r.val, h⟩ : Fin 8192) (0 : Fin 1)) (ix1 (⟨r.val, h⟩ : Fin 8192)) ?_).trans ?_
  · rw [Shape.rowMajor_val_one, Shape.rowMajor_val_two]; show r.val = r.val * 1 + 0; omega
  · exact concatenate_pair_apply_left 0 x2 x2 concatenates_S4096_S4096_S8192_d0 (ix1 (⟨r.val, h⟩ : Fin 8192)) rfl (ix1 r)
      (fun b => match b with | ⟨0, _⟩ => rfl)

/-- … and at a row from 4096 on the label of the row 4096 less. -/
theorem lab_right {α : Type} (x2 : S4096.Idx → α) (r : Fin 4096) (h : 4096 + r.val < 8192) :
    shapeCast S8192x1 (concatenate S8192 0 [⟨S4096, x2⟩, ⟨S4096, x2⟩] concatenates_S4096_S4096_S8192_d0) shapeCasts_S8192_S8192x1 (ix2 (⟨4096 + r.val, h⟩ : Fin 8192) (0 : Fin 1))
      = x2 (ix1 r) := by
  refine (shapeCast_apply _ shapeCasts_S8192_S8192x1 (ix2 (⟨4096 + r.val, h⟩ : Fin 8192) (0 : Fin 1)) (ix1 (⟨4096 + r.val, h⟩ : Fin 8192)) ?_).trans ?_
  · rw [Shape.rowMajor_val_one, Shape.rowMajor_val_two]; show 4096 + r.val = (4096 + r.val) * 1 + 0; omega
  · exact concatenate_pair_apply_right 0 x2 x2 concatenates_S4096_S4096_S8192_d0 (ix1 (⟨4096 + r.val, h⟩ : Fin 8192)) rfl rfl (ix1 r)
      (fun b hb => match b with | ⟨0, _⟩ => absurd rfl hb)
      (by show r.val + 4096 = 4096 + r.val; omega)

/-- The label column and the label row at an index are the label vector there. -/
theorem col_read {α : Type} (x2 : S4096.Idx → α) (r : Fin 4096) :
    shapeCast S4096x1 x2 shapeCasts_S4096_S4096x1 (ix2 r (0 : Fin 1)) = x2 (ix1 r) :=
  shapeCast_apply x2 shapeCasts_S4096_S4096x1 (ix2 r (0 : Fin 1)) (ix1 r)
    (by rw [Shape.rowMajor_val_one, Shape.rowMajor_val_two]; show r.val = r.val * 1 + 0; omega)
theorem row_read {α : Type} (x2 : S4096.Idx → α) (r : Fin 4096) :
    shapeCast S1x4096 x2 shapeCasts_S4096_S1x4096 (ix2 (0 : Fin 1) r) = x2 (ix1 r) :=
  shapeCast_apply x2 shapeCasts_S4096_S1x4096 (ix2 (0 : Fin 1) r) (ix1 r)
    (by rw [Shape.rowMajor_val_one, Shape.rowMajor_val_two]; show r.val = 0 * 4096 + r.val; omega)

/-! ## The regions' operand arrays, entry by entry over the arguments -/

theorem V2_v8_lo (c : Dev nD) (r : Fin 4096) (k : Fin 512) :
    V2 (F := Ideal) m c main_v8 (ix2 (⟨r.val, by omega⟩ : Fin 8192) k) = m ((c.tc : Thread nD τ).loc main_arg0) (ix2 r k) :=
  (congrFun (W2_v8 m c) _).trans (cat_left _ _ r k _)
theorem V2_v8_hi (c : Dev nD) (r : Fin 4096) (k : Fin 512) :
    V2 (F := Ideal) m c main_v8 (ix2 (⟨4096 + r.val, by omega⟩ : Fin 8192) k) = m ((c.tc : Thread nD τ).loc main_arg1) (ix2 r k) :=
  (congrFun (W2_v8 m c) _).trans (cat_right _ _ r k _)
theorem V2_v10_lo (c : Dev nD) (r : Fin 4096) :
    V2 (F := Ideal) m c main_v10 (ix2 (⟨r.val, by omega⟩ : Fin 8192) (0 : Fin 1)) = m ((c.tc : Thread nD τ).loc main_arg2) (ix1 r) :=
  (congrFun (W2_v10 m c) _).trans (lab_left _ r _)
theorem V2_v10_hi (c : Dev nD) (r : Fin 4096) :
    V2 (F := Ideal) m c main_v10 (ix2 (⟨4096 + r.val, by omega⟩ : Fin 8192) (0 : Fin 1)) = m ((c.tc : Thread nD τ).loc main_arg2) (ix1 r) :=
  (congrFun (W2_v10 m c) _).trans (lab_right _ r _)
theorem V2_v5 (c : Dev nD) (k : Fin 512) (c' : Fin 5000) :
    V2 (F := Ideal) m c main_v5 (ix2 k c') = Cert.Spec.wn (m ((c.tc : Thread nD τ).loc main_arg3)) k c' :=
  (congrFun (W2_v5 m c) _).trans (wn_read _ k c')

/-- Neither the cross-entropy region nor the stretch after it writes a buffer of the first stretches. -/
theorem W4_v3 (c : Dev nD) : W4 (F := Ideal) m c (Proc.devRef .tc main_v3) = W2 (F := Ideal) m c (Proc.devRef .tc main_v3) := by
  show StableHlo.after hostOps1 _ (Proc.devRef .tc main_v3) = _
  after_results
  exact W3_of_ne m c main_v3 (by decide)
theorem W4_v4 (c : Dev nD) : W4 (F := Ideal) m c (Proc.devRef .tc main_v4) = W2 (F := Ideal) m c (Proc.devRef .tc main_v4) := by
  show StableHlo.after hostOps1 _ (Proc.devRef .tc main_v4) = _
  after_results
  exact W3_of_ne m c main_v4 (by decide)
theorem W4_v6 (c : Dev nD) : W4 (F := Ideal) m c (Proc.devRef .tc main_v6) = W2 (F := Ideal) m c (Proc.devRef .tc main_v6) := by
  show StableHlo.after hostOps1 _ (Proc.devRef .tc main_v6) = _
  after_results
  exact W3_of_ne m c main_v6 (by decide)
theorem W4_v7 (c : Dev nD) : W4 (F := Ideal) m c (Proc.devRef .tc main_v7) = W2 (F := Ideal) m c (Proc.devRef .tc main_v7) := by
  show StableHlo.after hostOps1 _ (Proc.devRef .tc main_v7) = _
  after_results
  exact W3_of_ne m c main_v7 (by decide)

theorem V4_v3 (c : Dev nD) : V4 (F := Ideal) m c main_v3 = m ((c.tc : Thread nD τ).loc main_arg0) :=
  (W4_v3 m c).trans ((W2_v3 m c).trans (funext fun _ => rfl))
theorem V4_v4 (c : Dev nD) : V4 (F := Ideal) m c main_v4 = m ((c.tc : Thread nD τ).loc main_arg1) :=
  (W4_v4 m c).trans ((W2_v4 m c).trans (funext fun _ => rfl))
theorem V4_v6 (c : Dev nD) (r : Fin 4096) : V4 (F := Ideal) m c main_v6 (ix2 r (0 : Fin 1)) = m ((c.tc : Thread nD τ).loc main_arg2) (ix1 r) :=
  (congrFun ((W4_v6 m c).trans (W2_v6 m c)) _).trans (col_read _ r)
theorem V4_v7 (c : Dev nD) (q : Fin 4096) : V4 (F := Ideal) m c main_v7 (ix2 (0 : Fin 1) q) = m ((c.tc : Thread nD τ).loc main_arg2) (ix1 q) :=
  (congrFun ((W4_v7 m c).trans (W2_v7 m c)) _).trans (row_read _ q)

/-! ## The cross-entropy region's result and the means over its halves -/

/-- The region's result array at its exit: row i's negative log-likelihood over the region's operands. -/
theorem W3_v11 (c : Dev nD) : W3 (F := Ideal) m c (Proc.devRef .tc main_v11) = fun i : S8192x1.Idx =>
    Cert.Spec.nllK (Cert.Spec.logitK (R := 8192) (V2 (F := Ideal) m c main_v8) (fun k c' => V2 (F := Ideal) m c main_v5 (ix2 k c')) ⟨(i 0).val, idx2_lt0 i⟩) (V2 (F := Ideal) m c main_v10 i) :=
  (W3_arr m c 3).trans (R0.arr0_spec (V2 (F := Ideal) m) c)

/-- Two rows with the same entries, against the same weight and at the same label, have the same
    negative log-likelihood, whatever the heights of the arrays they are rows of. -/
theorem nll_row (X : Cert.Spec.Mat 8192 512) (x : Cert.Spec.Mat 4096 512) (w w' : Fin 512 → Fin 5000 → EReal) (l l' : BitVec 32)
    (q : Fin 8192) (r : Fin 4096) (hX : ∀ k, X (ix2 q k) = x (ix2 r k)) (hw : ∀ k c', w k c' = w' k c') (hl : l = l') :
    Cert.Spec.nllK (Cert.Spec.logitK (R := 8192) X w q) l = Cert.Spec.nllK (Cert.Spec.logitK (R := 4096) x w' r) l' := by
  subst hl
  have e : Cert.Spec.logitK (R := 8192) X w q = Cert.Spec.logitK (R := 4096) x w' r := by
    funext c'
    unfold Cert.Spec.logitK
    exact Finset.sum_congr rfl fun k _ => by rw [hX k, hw k c']
  rw [e]

/-- The first 4096 rows of the result are the visual rows' losses … -/
theorem v11_lo (c : Dev nD) (r : Fin 4096) (q : Fin 8192) (hq : q.val = r.val) :
    W3 (F := Ideal) m c (Proc.devRef .tc main_v11) (ix2 q (0 : Fin 1))
      = Cert.Spec.nllK (Cert.Spec.logitK (m ((c.tc : Thread nD τ).loc main_arg0)) (Cert.Spec.wn (m ((c.tc : Thread nD τ).loc main_arg3))) r) (m ((c.tc : Thread nD τ).loc main_arg2) (ix1 r)) := by
  obtain ⟨qv, hqv⟩ := q
  have e : qv = r.val := hq
  subst e
  refine (congrFun (W3_v11 m c) (ix2 (⟨r.val, hqv⟩ : Fin 8192) (0 : Fin 1))).trans ?_
  exact nll_row _ _ _ _ _ _ (⟨r.val, hqv⟩ : Fin 8192) r (fun k => V2_v8_lo m c r k) (fun k c' => V2_v5 m c k c') (V2_v10_lo m c r)

/-- … and the last 4096 the textual rows'. -/
theorem v11_hi (c : Dev nD) (r : Fin 4096) (q : Fin 8192) (hq : q.val = 4096 + r.val) :
    W3 (F := Ideal) m c (Proc.devRef .tc main_v11) (ix2 q (0 : Fin 1))
      = Cert.Spec.nllK (Cert.Spec.logitK (m ((c.tc : Thread nD τ).loc main_arg1)) (Cert.Spec.wn (m ((c.tc : Thread nD τ).loc main_arg3))) r) (m ((c.tc : Thread nD τ).loc main_arg2) (ix1 r)) := by
  obtain ⟨qv, hqv⟩ := q
  have e : qv = 4096 + r.val := hq
  subst e
  refine (congrFun (W3_v11 m c) (ix2 (⟨4096 + r.val, hqv⟩ : Fin 8192) (0 : Fin 1))).trans ?_
  exact nll_row _ _ _ _ _ _ (⟨4096 + r.val, hqv⟩ : Fin 8192) r (fun k => V2_v8_hi m c r k) (fun k c' => V2_v5 m c k c') (V2_v10_hi m c r)

/-- The host's mean of a 4096-row slice of a column starting at row `off`: the sum of the slice's rows
    from zero, over 4096. -/
theorem mean_slice (off : Nat) (hoff : off + 4096 ≤ 8192) (hs : S8192x1.Slices ![off, 0] S4096x1) (y : S8192x1.Idx → EReal) (i : S_.Idx) :
    Host.divf (F := Ideal) (Host.reduceAdd (F := Ideal) (extractStridedSlice S4096x1 ![off, 0] y hs) (constant (F := Ideal) S_ .f32 0x00000000#32) reducesTo_S4096x1_S_d0_1 h_S_) (constant (F := Ideal) S_ .f32 0x45800000#32) i
      = Cert.Spec.meanRows fun r => y (ix2 (⟨off + r.val, by omega⟩ : Fin 8192) (0 : Fin 1)) := by
  generalize hz : extractStridedSlice S4096x1 ![off, 0] y hs = z
  unfold Cert.Spec.meanRows
  show Ideal.div (Host.reduceAdd (F := Ideal) z (constant (F := Ideal) S_ .f32 0x00000000#32) reducesTo_S4096x1_S_d0_1 h_S_ i) (Ideal.ofBits .f32 0x45800000#32) = _
  refine congrArg (Ideal.div · _) ?_
  simp only [Host.reduceAdd, Ideal.hostReduceAdd_def]
  rw [Ideal.hostReduceAdd_total reducesTo_S4096x1_S_d0_1 (fun b => b.elim0)]
  refine (congrArg (· + _) (show (constant (F := Ideal) S_ .f32 0x00000000#32) (Shape.Idx.first h_S_) = (0 : EReal) from Ideal.ofBits_zero_f32)).trans ?_
  rw [zero_add]
  refine (sum_col (n := 4096) z).trans ?_
  refine Finset.sum_congr rfl fun r _ => ?_
  subst hz
  exact extractStridedSlice_apply ![off, 0] y hs (ix2 r (0 : Fin 1)) (ix2 (⟨off + r.val, by omega⟩ : Fin 8192) (0 : Fin 1))
    (fun a => match a with | ⟨0, _⟩ => rfl | ⟨1, _⟩ => rfl)

/-- The stretch after the cross-entropy region: the two means and their sum, over the region's result. -/
theorem W4_v15 (c : Dev nD) : W4 (F := Ideal) m c (Proc.devRef .tc main_v15)
    = Host.divf (F := Ideal) (Host.reduceAdd (F := Ideal) (extractStridedSlice S4096x1 ![0, 0] (W3 (F := Ideal) m c (Proc.devRef .tc main_v11)) slices_S8192x1_S4096x1_0_0) (constant (F := Ideal) S_ .f32 0x00000000#32) reducesTo_S4096x1_S_d0_1 h_S_) (constant (F := Ideal) S_ .f32 0x45800000#32) := by
  show StableHlo.after hostOps1 _ (Proc.devRef .tc main_v15) = _
  after_results <;> rfl
theorem W4_v17 (c : Dev nD) : W4 (F := Ideal) m c (Proc.devRef .tc main_v17)
    = Host.divf (F := Ideal) (Host.reduceAdd (F := Ideal) (extractStridedSlice S4096x1 ![4096, 0] (W3 (F := Ideal) m c (Proc.devRef .tc main_v11)) slices_S8192x1_S4096x1_4096_0) (constant (F := Ideal) S_ .f32 0x00000000#32) reducesTo_S4096x1_S_d0_1 h_S_) (constant (F := Ideal) S_ .f32 0x45800000#32) := by
  show StableHlo.after hostOps1 _ (Proc.devRef .tc main_v17) = _
  after_results <;> rfl
theorem W4_v18 (c : Dev nD) : W4 (F := Ideal) m c (Proc.devRef .tc main_v18)
    = (addf (W4 (F := Ideal) m c (Proc.devRef .tc main_v15) : FVec Ideal S_ .f32) (W4 (F := Ideal) m c (Proc.devRef .tc main_v17) : FVec Ideal S_ .f32) : FVec Ideal S_ .f32) := by
  show StableHlo.after hostOps1 (W3 (F := Ideal) m c) (Proc.devRef .tc main_v18) = (addf (StableHlo.after hostOps1 (W3 (F := Ideal) m c) (Proc.devRef .tc main_v15) : FVec Ideal S_ .f32) (StableHlo.after hostOps1 (W3 (F := Ideal) m c) (Proc.devRef .tc main_v17) : FVec Ideal S_ .f32) : FVec Ideal S_ .f32)
  after_results <;> rfl

/-- The visual mean. -/
theorem W4_lossV (c : Dev nD) : W4 (F := Ideal) m c (Proc.devRef .tc main_v15)
    = fun _ => Cert.Spec.lossK (m ((c.tc : Thread nD τ).loc main_arg0)) (m ((c.tc : Thread nD τ).loc main_arg2)) (m ((c.tc : Thread nD τ).loc main_arg3)) := by
  rw [W4_v15]
  funext i
  refine (mean_slice 0 (by omega) slices_S8192x1_S4096x1_0_0 _ i).trans ?_
  unfold Cert.Spec.lossK
  refine congrArg Cert.Spec.meanRows (funext fun r => ?_)
  exact v11_lo m c r _ (Nat.zero_add _)

/-- The textual mean. -/
theorem W4_lossT (c : Dev nD) : W4 (F := Ideal) m c (Proc.devRef .tc main_v17)
    = fun _ => Cert.Spec.lossK (m ((c.tc : Thread nD τ).loc main_arg1)) (m ((c.tc : Thread nD τ).loc main_arg2)) (m ((c.tc : Thread nD τ).loc main_arg3)) := by
  rw [W4_v17]
  funext i
  refine (mean_slice 4096 (by omega) slices_S8192x1_S4096x1_4096_0 _ i).trans ?_
  unfold Cert.Spec.lossK
  refine congrArg Cert.Spec.meanRows (funext fun r => ?_)
  exact v11_hi m c r _ rfl

/-- Neither the global-align region nor the last stretch writes the three cross-entropy results. -/
theorem W6_v15 (c : Dev nD) : W6 (F := Ideal) m c (Proc.devRef .tc main_v15) = W4 (F := Ideal) m c (Proc.devRef .tc main_v15) := by
  show StableHlo.after hostOps2 _ (Proc.devRef .tc main_v15) = _
  after_results
  exact W5_of_ne m c main_v15 (by decide)
theorem W6_v17 (c : Dev nD) : W6 (F := Ideal) m c (Proc.devRef .tc main_v17) = W4 (F := Ideal) m c (Proc.devRef .tc main_v17) := by
  show StableHlo.after hostOps2 _ (Proc.devRef .tc main_v17) = _
  after_results
  exact W5_of_ne m c main_v17 (by decide)
theorem W6_v18 (c : Dev nD) : W6 (F := Ideal) m c (Proc.devRef .tc main_v18) = W4 (F := Ideal) m c (Proc.devRef .tc main_v18) := by
  show StableHlo.after hostOps2 _ (Proc.devRef .tc main_v18) = _
  after_results
  exact W5_of_ne m c main_v18 (by decide)

/-- The visual cross-entropy loss. -/
theorem kres_lossV (c : Dev nD) : W6 (F := Ideal) m c (Proc.devRef .tc main_v15)
    = fun _ => Cert.Spec.lossK (m ((c.tc : Thread nD τ).loc main_arg0)) (m ((c.tc : Thread nD τ).loc main_arg2)) (m ((c.tc : Thread nD τ).loc main_arg3)) :=
  (W6_v15 m c).trans (W4_lossV m c)

/-- The textual cross-entropy loss. -/
theorem kres_lossT (c : Dev nD) : W6 (F := Ideal) m c (Proc.devRef .tc main_v17)
    = fun _ => Cert.Spec.lossK (m ((c.tc : Thread nD τ).loc main_arg1)) (m ((c.tc : Thread nD τ).loc main_arg2)) (m ((c.tc : Thread nD τ).loc main_arg3)) :=
  (W6_v17 m c).trans (W4_lossT m c)

/-- Their sum. -/
theorem kres_inst (c : Dev nD) : W6 (F := Ideal) m c (Proc.devRef .tc main_v18)
    = fun _ => Cert.Spec.lossK (m ((c.tc : Thread nD τ).loc main_arg0)) (m ((c.tc : Thread nD τ).loc main_arg2)) (m ((c.tc : Thread nD τ).loc main_arg3))
        + Cert.Spec.lossK (m ((c.tc : Thread nD τ).loc main_arg1)) (m ((c.tc : Thread nD τ).loc main_arg2)) (m ((c.tc : Thread nD τ).loc main_arg3)) := by
  refine (W6_v18 m c).trans ((W4_v18 m c).trans ?_)
  rw [W4_lossV, W4_lossT] <;> rfl

/-! ## The global-align region's result and the last stretch -/

/-- The region's result array at its exit: row i's sum of pair losses, over the arguments. -/
theorem W5_v19 (c : Dev nD) : W5 (F := Ideal) m c (Proc.devRef .tc main_v19) = fun i : S4096x1.Idx =>
    Cert.Spec.rowLoss (m ((c.tc : Thread nD τ).loc main_arg0)) (m ((c.tc : Thread nD τ).loc main_arg1))
      (fun r => m ((c.tc : Thread nD τ).loc main_arg2) (ix1 r)) (fun c' => m ((c.tc : Thread nD τ).loc main_arg2) (ix1 c')) ⟨(i 0).val, idx2_lt0 i⟩ := by
  refine ((W5_arr m c 4).trans (R1.arr1_spec (V4 (F := Ideal) m) c)).trans ?_
  have e6 : (fun r : Fin 4096 => V4 (F := Ideal) m c main_v6 (ix2 r (0 : Fin 1))) = fun r => m ((c.tc : Thread nD τ).loc main_arg2) (ix1 r) :=
    funext (V4_v6 m c)
  have e7 : (fun c' : Fin 4096 => V4 (F := Ideal) m c main_v7 (ix2 (0 : Fin 1) c')) = fun c' => m ((c.tc : Thread nD τ).loc main_arg2) (ix1 c') :=
    funext (V4_v7 m c)
  rw [V4_v3, V4_v4, e6, e7]

/-- The host's doubled sum of a 4096-row column from zero, over 4096. -/
theorem ga_tail (y : S4096x1.Idx → EReal) (i : S_.Idx) :
    Host.divf (F := Ideal) (mulf (constant (F := Ideal) S_ .f32 0x40000000#32) (Host.reduceAdd (F := Ideal) y (constant (F := Ideal) S_ .f32 0x00000000#32) reducesTo_S4096x1_S_d0_1 h_S_)) (constant (F := Ideal) S_ .f32 0x45800000#32) i
      = Ideal.div (Cert.Spec.f2 * ∑ r : Fin 4096, y (ix2 r (0 : Fin 1))) Cert.Spec.f4096 := by
  show Ideal.div (Ideal.ofBits .f32 0x40000000#32 * Host.reduceAdd (F := Ideal) y (constant (F := Ideal) S_ .f32 0x00000000#32) reducesTo_S4096x1_S_d0_1 h_S_ i) (Ideal.ofBits .f32 0x45800000#32) = _
  refine congrArg (fun s => Ideal.div (Cert.Spec.f2 * s) Cert.Spec.f4096) ?_
  simp only [Host.reduceAdd, Ideal.hostReduceAdd_def]
  rw [Ideal.hostReduceAdd_total reducesTo_S4096x1_S_d0_1 (fun b => b.elim0)]
  refine (congrArg (· + _) (show (constant (F := Ideal) S_ .f32 0x00000000#32) (Shape.Idx.first h_S_) = (0 : EReal) from Ideal.ofBits_zero_f32)).trans ?_
  rw [zero_add]
  exact sum_col (n := 4096) y

theorem W6_v22 (c : Dev nD) : W6 (F := Ideal) m c (Proc.devRef .tc main_v22)
    = Host.divf (F := Ideal) (mulf (constant (F := Ideal) S_ .f32 0x40000000#32) (Host.reduceAdd (F := Ideal) (W5 (F := Ideal) m c (Proc.devRef .tc main_v19)) (constant (F := Ideal) S_ .f32 0x00000000#32) reducesTo_S4096x1_S_d0_1 h_S_)) (constant (F := Ideal) S_ .f32 0x45800000#32) := by
  show StableHlo.after hostOps2 _ (Proc.devRef .tc main_v22) = _
  after_results <;> rfl

/-- The global-align loss. -/
theorem kres_ga (c : Dev nD) : W6 (F := Ideal) m c (Proc.devRef .tc main_v22)
    = fun _ => Cert.Spec.ga (m ((c.tc : Thread nD τ).loc main_arg0)) (m ((c.tc : Thread nD τ).loc main_arg1)) (m ((c.tc : Thread nD τ).loc main_arg2)) := by
  rw [W6_v22]
  funext i
  refine (ga_tail _ i).trans ?_
  unfold Cert.Spec.ga
  refine congrArg (fun s => Ideal.div (Cert.Spec.f2 * s) Cert.Spec.f4096) (Finset.sum_congr rfl fun r _ => ?_)
  exact congrFun (W5_v19 m c) (ix2 r (0 : Fin 1))

end Cert.KernelIdeal.Fr

end
-- ==== Proof.RefCE.lean ====
/-
  The reference's cross-entropy results read back: each loss is the mean over the rows of minus the
  log-softmax of the row's logits (28 times the row against the column-normalised weight) at the label's
  column, the label a class index (so the gather's wrap of negative indices and its fill of out-of-range
  ones do not fire).
-/
import proofs.«409325_j5102421147884_2_alg».proof.Proof.RefRead
import proofs.«409325_j5102421147884_2_alg».proof.Proof.Spec
import Idealize.ShloMosaic.Lib.ValueIdxRank1
import Idealize.ShloMosaic.Lib.StableHlo.Predicate

set_option maxRecDepth 16384

noncomputable section

namespace Cert.RefSide

open Cert.ReferenceIdeal Cert.ReferenceIdeal.Gen Cert.ReferenceIdeal.ReadP Idealize.ShloMosaic Idealize.ShloMosaic.ValueIdx

/-! ## Facts that name no operation of the program -/

/-- The f32 word of minus infinity is the least extended real. -/
theorem negInf_f32 : Ideal.ofBits .f32 0xFF800000#32 = (⊥ : EReal) := by simp [Ideal.ofBits, Ideal.ieee]

/-- A fold of the maximum from the least element is the supremum. -/
theorem fold_max_bot {n : Nat} (f : Fin n → EReal) :
    (Finset.univ : Finset (Fin n)).fold (FloatOps.maximumf (F := Ideal) (φ := .f32)) (⊥ : EReal) f = Finset.univ.sup f := rfl

/-- The maximum-reduction along the columns from minus infinity, at row `r`: the supremum of the row. -/
theorem hostMax_row (L : FVec Ideal S4096x5000 .f32) (r : Fin 4096) :
    Host.reduce FloatOps.maximumf L (constant S_ .f32 0xFF800000#32) reducesTo_S4096x5000_S4096_d1 h_S_ (ix1 r)
      = Finset.univ.sup fun c : Fin 5000 => L (ix2 r c) := by
  rw [Host.reduce_eq_fold_single FloatOps.maximumf L _ reducesTo_S4096x5000_S4096_d1 (by decide) h_S_ (ix1 r)]
  show (Finset.univ : Finset (Fin 5000)).fold (FloatOps.maximumf (F := Ideal) (φ := .f32)) (Ideal.ofBits .f32 0xFF800000#32) _ = _
  rw [negInf_f32]
  refine (fold_max_bot (n := 5000) _).trans ?_
  refine congrArg (Finset.univ.sup) (funext fun c => ?_)
  exact congrArg L (funext fun a => Fin.ext (by match a with | ⟨0, _⟩ => rfl | ⟨1, _⟩ => rfl))

/-- `and` with the set bit changes nothing. -/
theorem andi_one (b : BitVec 1) : IntOp.andi b 1#1 = b := by
  rcases BitVec.eq_zero_or_eq_one b with h | h <;> subst h <;> decide

/-- The `and`-reduction from the set bit over a last axis of extent one, at row `r`: the one element it meets. -/
theorem andReduce_unit (m : IVec S4096x1x1 1) (r : Fin 4096) :
    Host.reduce IntOp.andi m (constantI S_ 1 1#1) reducesTo_S4096x1x1_S4096x1_d2 h_S_ (ix2 r (0 : Fin 1))
      = m (ix3 r (0 : Fin 1) (0 : Fin 1)) := by
  rw [Host.reduce_eq_fold_single IntOp.andi m _ reducesTo_S4096x1x1_S4096x1_d2 (by decide) h_S_ (ix2 r (0 : Fin 1))]
  show (Finset.univ : Finset (Fin 1)).fold IntOp.andi (1#1) _ = _
  rw [Finset.univ_unique]
  refine (Finset.fold_singleton (op := IntOp.andi)).trans ?_
  refine (andi_one _).trans ?_
  exact congrArg m (funext fun a => Fin.ext (by match a with | ⟨0, _⟩ => rfl | ⟨1, _⟩ => rfl | ⟨2, _⟩ => rfl))

/-- The gather along the columns with the rows as a batch, at row `r`: the operand in that row at the
    row's start index, read signed and clamped into the columns. -/
theorem gather_row {w : Nat} (L : (S4096x5000).Idx → EReal) (idx : IVec S4096x1x1 w) (r : Fin 4096) :
    Host.gather gather_S4096x5000_S4096x1x1_S4096x1_n_1_0_0_1_2_11 L idx (ix2 r (0 : Fin 1))
      = L (ix2 r ⟨min (idx (ix3 r (0 : Fin 1) (0 : Fin 1))).toInt.toNat (5000 - 1), by omega⟩) := by
  unfold Host.gather
  refine congrArg L (funext fun a => Fin.ext ?_)
  have hb0 : (0 : Fin S4096x5000.rank) ∈ gather_S4096x5000_S4096x1x1_S4096x1_n_1_0_0_1_2_11.operandBatchingDims :=
    List.mem_singleton.mpr rfl
  have hb1 : (1 : Fin S4096x5000.rank) ∉ gather_S4096x5000_S4096x1x1_S4096x1_n_1_0_0_1_2_11.operandBatchingDims :=
    fun h => absurd (List.mem_singleton.mp h) (by decide)
  have hm1 : (1 : Fin S4096x5000.rank) ∈ gather_S4096x5000_S4096x1x1_S4096x1_n_1_0_0_1_2_11.startIndexMap :=
    List.mem_singleton.mpr rfl
  match a with
  | ⟨0, _⟩ =>
    -- the batch axis: no start, the row's own coordinate, no offset
    show gather_S4096x5000_S4096x1x1_S4096x1_n_1_0_0_1_2_11.start _ idx 0
        + gather_S4096x5000_S4096x1x1_S4096x1_n_1_0_0_1_2_11.batchCoord _ 0
        + gather_S4096x5000_S4096x1x1_S4096x1_n_1_0_0_1_2_11.offCoord _ 0 = r.val
    rw [GatherDims.start_batching _ _ _ _ hb0,
      GatherDims.offCoord_eq_zero _ _ _ (fun h => ((GatherDims.mem_sKept _ _).mp h).2 hb0)]
    unfold GatherDims.batchCoord
    rw [dif_pos hb0, Nat.add_zero, Nat.zero_add]
    rfl
  | ⟨1, _⟩ =>
    -- the collapsed axis: the clamped start index alone
    show gather_S4096x5000_S4096x1x1_S4096x1_n_1_0_0_1_2_11.start _ idx 1
        + gather_S4096x5000_S4096x1x1_S4096x1_n_1_0_0_1_2_11.batchCoord _ 1
        + gather_S4096x5000_S4096x1x1_S4096x1_n_1_0_0_1_2_11.offCoord _ 1 = _
    rw [GatherDims.batchCoord_eq_zero _ _ _ hb1,
      GatherDims.offCoord_eq_zero _ _ _ (fun h => ((GatherDims.mem_sKept _ _).mp h).1 (List.mem_singleton.mpr rfl)),
      Nat.add_zero]
    unfold GatherDims.start
    rw [dif_pos hm1]
    have hsi : gather_S4096x5000_S4096x1x1_S4096x1_n_1_0_0_1_2_11.siIdx (ix2 r (0 : Fin 1))
        ⟨List.idxOf (1 : Fin S4096x5000.rank) gather_S4096x5000_S4096x1x1_S4096x1_n_1_0_0_1_2_11.startIndexMap,
          List.idxOf_lt_length_iff.2 hm1⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- A class index is not negative as a signed word. -/
theorem slt_zero_of_class (l : BitVec 32) (h : l.toNat < 5000) : IntOp.cmpi .slt l 0#32 = 0#1 := by
  refine eq_zero_of_ne_one fun h1 => ?_
  have h2 := (StableHlo.Predicate.slt_iff_toNat (a := l) (b := 0#32) (by omega) (by decide)).mp h1
  simp at h2

/-- … it is at least zero … -/
theorem sge_zero_of_class (l : BitVec 32) (h : l.toNat < 5000) : IntOp.cmpi .sge l 0#32 = 1#1 :=
  (StableHlo.Predicate.sge_iff_toNat (a := l) (b := 0#32) (by omega) (by decide)).mpr (by simp)

/-- … and at most the last class. -/
theorem sle_last_of_class (l : BitVec 32) (h : l.toNat < 5000) : IntOp.cmpi .sle l 4999#32 = 1#1 :=
  (StableHlo.Predicate.sle_iff_toNat (a := l) (b := 4999#32) (by omega) (by decide)).mpr
    (by show l.toNat ≤ (4999#32 : BitVec 32).toNat; simp; omega)

/-- A class index read signed and clamped into the columns is the column it names. -/
theorem clamp_class (l : BitVec 32) (h : l.toNat < 5000) :
    (⟨min l.toInt.toNat (5000 - 1), by omega⟩ : Fin 5000) = Cert.Spec.lblIdx l := by
  apply Fin.ext
  show min l.toInt.toNat (5000 - 1) = l.toNat % 5000
  have e := StableHlo.Predicate.toInt_eq_toNat_of_lt (a := l) (by omega)
  omega

/-! ## The normalised weight -/

/-- The weight over the broadcast square root of its columns' sums of squares (from zero) is the
    column-normalised weight. -/
theorem v2_at (W : FVec Ideal S512x5000 .f32) (k : Fin 512) (c : Fin 5000) :
    val_main_v2 (F := Ideal) W (ix2 k c) = Cert.Spec.wn W k c := by
  have e1 : ∀ k' : Fin 512, idx_main_call0_v1 (idx_main_call0_v2 (idx_main_v1 (ix2 k c))) k' = ix2 k' c :=
    fun k' => funext fun a => Fin.ext (by match a with | ⟨0, _⟩ => rfl | ⟨1, _⟩ => rfl)
  rw [val_main_v2_apply, val_main_v1_apply, val_main_v0_apply, val_main_call0_v2_apply, val_main_call0_v1_apply,
    val_main_call0_cst_apply]
  simp only [val_main_call0_v0_apply, e1, Ideal.hostDivf_def, Ideal.hostUnary_sqrt_def, Ideal.mulf_def, Ideal.ofBits_def,
    Ideal.ofBits_zero_f32, zero_add]
  rfl

/-! ## The visual rows -/

namespace V

/-- 28 times the contraction of a row with the normalised weight: the reference's logits. -/
theorem logit_at (x : FVec Ideal S4096x512 .f32) (W : FVec Ideal S512x5000 .f32) (r : Fin 4096) (c : Fin 5000) :
    val_main_v5 (F := Ideal) x W (ix2 r c) = Cert.Spec.logitR x (Cert.Spec.wn W) r c := by
  have el : ∀ k : Fin 512, lidx_main_v3 (ix2 r c) k = ix2 r k :=
    fun k => funext fun a => Fin.ext (by match a with | ⟨0, _⟩ => rfl | ⟨1, _⟩ => rfl)
  have er : ∀ k : Fin 512, ridx_main_v3 (ix2 r c) k = ix2 k c :=
    fun k => funext fun a => Fin.ext (by match a with | ⟨0, _⟩ => rfl | ⟨1, _⟩ => rfl)
  rw [val_main_v5_apply, val_main_v4_apply, val_main_cst_apply, val_main_v3_apply]
  simp only [el, er, v2_at, Ideal.mulf_def, Ideal.ofBits_def]
  rfl

/-- The row's maximum: the maximum of minus infinity and the supremum of the row is the supremum. -/
theorem rowMax_at (x : FVec Ideal S4096x512 .f32) (W : FVec Ideal S512x5000 .f32) (r : Fin 4096) :
    val_main_call1_v2 (F := Ideal) x W (ix1 r) = Cert.Spec.rowMax (Cert.Spec.logitR x (Cert.Spec.wn W) r) := by
  have h0 : val_main_call1_v0 (F := Ideal) x W (ix1 r)
      = Finset.univ.sup fun c : Fin 5000 => val_main_v5 (F := Ideal) x W (ix2 r c) := hostMax_row _ r
  rw [val_main_call1_v2_apply, val_main_call1_v1_apply, val_main_call1_cst_0_apply, h0]
  simp only [logit_at, Ideal.maximumf_def, Ideal.ofBits_def, negInf_f32]
  exact max_eq_right bot_le

/-- The logits shifted by the row's maximum. -/
theorem shift_at (x : FVec Ideal S4096x512 .f32) (W : FVec Ideal S512x5000 .f32) (r : Fin 4096) (c : Fin 5000) :
    val_main_call1_v5 (F := Ideal) x W (ix2 r c)
      = Cert.Spec.logitR x (Cert.Spec.wn W) r c - Cert.Spec.rowMax (Cert.Spec.logitR x (Cert.Spec.wn W) r) := by
  have e : idx_main_call1_v3 (idx_main_call1_v4 (ix2 r c)) = ix1 r :=
    funext fun a => Fin.ext (by match a with | ⟨0, _⟩ => rfl)
  rw [val_main_call1_v5_apply, val_main_call1_v4_apply, val_main_call1_v3_apply, e, rowMax_at, logit_at]
  rfl

/-- The row's sum (from zero) of the shifted exponentials. -/
theorem sumExp_at (x : FVec Ideal S4096x512 .f32) (W : FVec Ideal S512x5000 .f32) (r : Fin 4096) :
    val_main_call1_v7 (F := Ideal) x W (ix1 r) = Cert.Spec.sumExp (Cert.Spec.logitR x (Cert.Spec.wn W) r) := by
  have e : ∀ k : Fin 5000, idx_main_call1_v7 (ix1 r) k = ix2 r k :=
    fun k => funext fun a => Fin.ext (by match a with | ⟨0, _⟩ => rfl | ⟨1, _⟩ => rfl)
  rw [val_main_call1_v7_apply, val_main_call1_cst_1_apply]
  simp only [val_main_call1_v6_apply, e, shift_at, Ideal.hostUnary_exp_def, Ideal.ofBits_def, Ideal.ofBits_zero_f32, zero_add]
  rfl

/-- The log-softmax: the shifted logit minus the logarithm of the row's sum. -/
theorem logSoftmax_at (x : FVec Ideal S4096x512 .f32) (W : FVec Ideal S512x5000 .f32) (r : Fin 4096) (c : Fin 5000) :
    val_main_v9 (F := Ideal) x W (ix2 r c)
      = (Cert.Spec.logitR x (Cert.Spec.wn W) r c - Cert.Spec.rowMax (Cert.Spec.logitR x (Cert.Spec.wn W) r))
        - Ideal.log (Cert.Spec.sumExp (Cert.Spec.logitR x (Cert.Spec.wn W) r)) := by
  have e : idx_main_call1_v8 (idx_main_call1_v10 (ix2 r c)) = ix1 r :=
    funext fun a => Fin.ext (by match a with | ⟨0, _⟩ => rfl)
  rw [val_main_v9_apply, val_main_call1_v10_apply, val_main_call1_v9_apply, val_main_call1_v8_apply, e, sumExp_at, shift_at]
  rfl

/-- The start index of row `r`: a class index is not negative, so the wrap keeps the label. -/
theorem start_at (lab : IVec S4096 32) (r : Fin 4096) (hl : (lab (ix1 r)).toNat < 5000) :
    val_main_call2_v5 (F := Ideal) lab (ix3 r (0 : Fin 1) (0 : Fin 1)) = lab (ix1 r) := by
  have e5 : idx_main_call2_v5 (ix3 r (0 : Fin 1) (0 : Fin 1)) = ix2 r (0 : Fin 1) :=
    funext fun a => Fin.ext (by
      match a with
      | ⟨0, _⟩ => show ((r.val * 1 + 0) * 1 + 0) / 1 = r.val; omega
      | ⟨1, _⟩ => rfl)
  have e10 : idx_main_v10 (ix2 r (0 : Fin 1)) = ix1 r :=
    funext fun a => Fin.ext (by match a with | ⟨0, _⟩ => rfl)
  rw [val_main_call2_v5_apply, e5, val_main_call2_v4_apply, val_main_call2_v1_apply, val_main_call2_v0_apply,
    val_main_call2_c_apply, val_main_v10_apply, e10, slt_zero_of_class _ hl, select_zero]

/-- The in-range mask of row `r` is set: a class index is between zero and the last class. -/
theorem mask_at (lab : IVec S4096 32) (r : Fin 4096) (hl : (lab (ix1 r)).toNat < 5000) :
    val_main_call2_v12 (F := Ideal) lab (ix2 r (0 : Fin 1)) = 1#1 := by
  have h0 : val_main_call2_v12 (F := Ideal) lab (ix2 r (0 : Fin 1))
      = val_main_call2_v11 (F := Ideal) lab (ix3 r (0 : Fin 1) (0 : Fin 1)) := andReduce_unit _ r
  rw [h0, val_main_call2_v11_apply, val_main_call2_v7_apply, val_main_call2_v10_apply, val_main_call2_v6_apply,
    val_main_call2_c_2_apply, val_main_call2_v9_apply, val_main_call2_v8_apply, val_main_call2_c_1_apply,
    start_at lab r hl, sge_zero_of_class _ hl, sle_last_of_class _ hl]
  decide

/-- The gathered element of row `r`: the log-softmax at the label's column. -/
theorem gathered_at (x : FVec Ideal S4096x512 .f32) (lab : IVec S4096 32) (W : FVec Ideal S512x5000 .f32) (r : Fin 4096)
    (hl : (lab (ix1 r)).toNat < 5000) :
    val_main_call2_v13 (F := Ideal) x lab W (ix2 r (0 : Fin 1))
      = val_main_v9 (F := Ideal) x W (ix2 r (Cert.Spec.lblIdx (lab (ix1 r)))) := by
  have h0 : val_main_call2_v13 (F := Ideal) x lab W (ix2 r (0 : Fin 1))
      = val_main_v9 (F := Ideal) x W (ix2 r ⟨min (val_main_call2_v5 (F := Ideal) lab (ix3 r (0 : Fin 1) (0 : Fin 1))).toInt.toNat (5000 - 1), by omega⟩) :=
    gather_row _ _ r
  rw [h0]
  refine congrArg (fun c : Fin 5000 => val_main_v9 (F := Ideal) x W (ix2 r c)) ?_
  refine Eq.trans ?_ (clamp_class _ hl)
  exact Fin.ext (by show min _ _ = min _ _; rw [start_at lab r hl])

/-- Minus the selected element: the reference's negative log-likelihood of row `r`. -/
theorem nll_at (x : FVec Ideal S4096x512 .f32) (lab : IVec S4096 32) (W : FVec Ideal S512x5000 .f32) (r : Fin 4096)
    (hl : (lab (ix1 r)).toNat < 5000) :
    val_main_v13 (F := Ideal) x lab W (ix1 r)
      = Cert.Spec.nllR (Cert.Spec.logitR x (Cert.Spec.wn W) r) (lab (ix1 r)) := by
  have e12 : idx_main_v12 (ix1 r) = ix2 r (0 : Fin 1) :=
    funext fun a => Fin.ext (by
      match a with
      | ⟨0, _⟩ => show r.val / 1 = r.val; omega
      | ⟨1, _⟩ => rfl)
  rw [val_main_v13_apply, val_main_v12_apply, e12, val_main_v11_apply, mask_at lab r hl, select_one,
    gathered_at x lab W r hl, logSoftmax_at]
  rfl

end V

/-! ## The textual rows -/

namespace T

/-- 28 times the contraction of a row with the normalised weight: the reference's logits. -/
theorem logit_at (x : FVec Ideal S4096x512 .f32) (W : FVec Ideal S512x5000 .f32) (r : Fin 4096) (c : Fin 5000) :
    val_main_v8 (F := Ideal) x W (ix2 r c) = Cert.Spec.logitR x (Cert.Spec.wn W) r c := by
  have el : ∀ k : Fin 512, lidx_main_v6 (ix2 r c) k = ix2 r k :=
    fun k => funext fun a => Fin.ext (by match a with | ⟨0, _⟩ => rfl | ⟨1, _⟩ => rfl)
  have er : ∀ k : Fin 512, ridx_main_v6 (ix2 r c) k = ix2 k c :=
    fun k => funext fun a => Fin.ext (by match a with | ⟨0, _⟩ => rfl | ⟨1, _⟩ => rfl)
  rw [val_main_v8_apply, val_main_v7_apply, val_main_cst_0_apply, val_main_v6_apply]
  simp only [el, er, v2_at, Ideal.mulf_def, Ideal.ofBits_def]
  rfl

/-- The row's maximum: the maximum of minus infinity and the supremum of the row is the supremum. -/
theorem rowMax_at (x : FVec Ideal S4096x512 .f32) (W : FVec Ideal S512x5000 .f32) (r : Fin 4096) :
    val_main_call3_v2 (F := Ideal) x W (ix1 r) = Cert.Spec.rowMax (Cert.Spec.logitR x (Cert.Spec.wn W) r) := by
  have h0 : val_main_call3_v0 (F := Ideal) x W (ix1 r)
      = Finset.univ.sup fun c : Fin 5000 => val_main_v8 (F := Ideal) x W (ix2 r c) := hostMax_row _ r
  rw [val_main_call3_v2_apply, val_main_call3_v1_apply, val_main_call3_cst_0_apply, h0]
  simp only [logit_at, Ideal.maximumf_def, Ideal.ofBits_def, negInf_f32]
  exact max_eq_right bot_le

/-- The logits shifted by the row's maximum. -/
theorem shift_at (x : FVec Ideal S4096x512 .f32) (W : FVec Ideal S512x5000 .f32) (r : Fin 4096) (c : Fin 5000) :
    val_main_call3_v5 (F := Ideal) x W (ix2 r c)
      = Cert.Spec.logitR x (Cert.Spec.wn W) r c - Cert.Spec.rowMax (Cert.Spec.logitR x (Cert.Spec.wn W) r) := by
  have e : idx_main_call3_v3 (idx_main_call3_v4 (ix2 r c)) = ix1 r :=
    funext fun a => Fin.ext (by match a with | ⟨0, _⟩ => rfl)
  rw [val_main_call3_v5_apply, val_main_call3_v4_apply, val_main_call3_v3_apply, e, rowMax_at, logit_at]
  rfl

/-- The row's sum (from zero) of the shifted exponentials. -/
theorem sumExp_at (x : FVec Ideal S4096x512 .f32) (W : FVec Ideal S512x5000 .f32) (r : Fin 4096) :
    val_main_call3_v7 (F := Ideal) x W (ix1 r) = Cert.Spec.sumExp (Cert.Spec.logitR x (Cert.Spec.wn W) r) := by
  have e : ∀ k : Fin 5000, idx_main_call3_v7 (ix1 r) k = ix2 r k :=
    fun k => funext fun a => Fin.ext (by match a with | ⟨0, _⟩ => rfl | ⟨1, _⟩ => rfl)
  rw [val_main_call3_v7_apply, val_main_call3_cst_1_apply]
  simp only [val_main_call3_v6_apply, e, shift_at, Ideal.hostUnary_exp_def, Ideal.ofBits_def, Ideal.ofBits_zero_f32, zero_add]
  rfl

/-- The log-softmax: the shifted logit minus the logarithm of the row's sum. -/
theorem logSoftmax_at (x : FVec Ideal S4096x512 .f32) (W : FVec Ideal S512x5000 .f32) (r : Fin 4096) (c : Fin 5000) :
    val_main_v16 (F := Ideal) x W (ix2 r c)
      = (Cert.Spec.logitR x (Cert.Spec.wn W) r c - Cert.Spec.rowMax (Cert.Spec.logitR x (Cert.Spec.wn W) r))
        - Ideal.log (Cert.Spec.sumExp (Cert.Spec.logitR x (Cert.Spec.wn W) r)) := by
  have e : idx_main_call3_v8 (idx_main_call3_v10 (ix2 r c)) = ix1 r :=
    funext fun a => Fin.ext (by match a with | ⟨0, _⟩ => rfl)
  rw [val_main_v16_apply, val_main_call3_v10_apply, val_main_call3_v9_apply, val_main_call3_v8_apply, e, sumExp_at, shift_at]
  rfl

/-- The start index of row `r`: a class index is not negative, so the wrap keeps the label. -/
theorem start_at (lab : IVec S4096 32) (r : Fin 4096) (hl : (lab (ix1 r)).toNat < 5000) :
    val_main_call4_v5 (F := Ideal) lab (ix3 r (0 : Fin 1) (0 : Fin 1)) = lab (ix1 r) := by
  have e5 : idx_main_call4_v5 (ix3 r (0 : Fin 1) (0 : Fin 1)) = ix2 r (0 : Fin 1) :=
    funext fun a => Fin.ext (by
      match a with
      | ⟨0, _⟩ => show ((r.val * 1 + 0) * 1 + 0) / 1 = r.val; omega
      | ⟨1, _⟩ => rfl)
  have e10 : idx_main_v17 (ix2 r (0 : Fin 1)) = ix1 r :=
    funext fun a => Fin.ext (by match a with | ⟨0, _⟩ => rfl)
  rw [val_main_call4_v5_apply, e5, val_main_call4_v4_apply, val_main_call4_v1_apply, val_main_call4_v0_apply,
    val_main_call4_c_apply, val_main_v17_apply, e10, slt_zero_of_class _ hl, select_zero]

/-- The in-range mask of row `r` is set: a class index is between zero and the last class. -/
theorem mask_at (lab : IVec S4096 32) (r : Fin 4096) (hl : (lab (ix1 r)).toNat < 5000) :
    val_main_call4_v12 (F := Ideal) lab (ix2 r (0 : Fin 1)) = 1#1 := by
  have h0 : val_main_call4_v12 (F := Ideal) lab (ix2 r (0 : Fin 1))
      = val_main_call4_v11 (F := Ideal) lab (ix3 r (0 : Fin 1) (0 : Fin 1)) := andReduce_unit _ r
  rw [h0, val_main_call4_v11_apply, val_main_call4_v7_apply, val_main_call4_v10_apply, val_main_call4_v6_apply,
    val_main_call4_c_2_apply, val_main_call4_v9_apply, val_main_call4_v8_apply, val_main_call4_c_1_apply,
    start_at lab r hl, sge_zero_of_class _ hl, sle_last_of_class _ hl]
  decide

/-- The gathered element of row `r`: the log-softmax at the label's column. -/
theorem gathered_at (x : FVec Ideal S4096x512 .f32) (lab : IVec S4096 32) (W : FVec Ideal S512x5000 .f32) (r : Fin 4096)
    (hl : (lab (ix1 r)).toNat < 5000) :
    val_main_call4_v13 (F := Ideal) x lab W (ix2 r (0 : Fin 1))
      = val_main_v16 (F := Ideal) x W (ix2 r (Cert.Spec.lblIdx (lab (ix1 r)))) := by
  have h0 : val_main_call4_v13 (F := Ideal) x lab W (ix2 r (0 : Fin 1))
      = val_main_v16 (F := Ideal) x W (ix2 r ⟨min (val_main_call4_v5 (F := Ideal) lab (ix3 r (0 : Fin 1) (0 : Fin 1))).toInt.toNat (5000 - 1), by omega⟩) :=
    gather_row _ _ r
  rw [h0]
  refine congrArg (fun c : Fin 5000 => val_main_v16 (F := Ideal) x W (ix2 r c)) ?_
  refine Eq.trans ?_ (clamp_class _ hl)
  exact Fin.ext (by show min _ _ = min _ _; rw [start_at lab r hl])

/-- Minus the selected element: the reference's negative log-likelihood of row `r`. -/
theorem nll_at (x : FVec Ideal S4096x512 .f32) (lab : IVec S4096 32) (W : FVec Ideal S512x5000 .f32) (r : Fin 4096)
    (hl : (lab (ix1 r)).toNat < 5000) :
    val_main_v20 (F := Ideal) x lab W (ix1 r)
      = Cert.Spec.nllR (Cert.Spec.logitR x (Cert.Spec.wn W) r) (lab (ix1 r)) := by
  have e12 : idx_main_v19 (ix1 r) = ix2 r (0 : Fin 1) :=
    funext fun a => Fin.ext (by
      match a with
      | ⟨0, _⟩ => show r.val / 1 = r.val; omega
      | ⟨1, _⟩ => rfl)
  rw [val_main_v20_apply, val_main_v19_apply, e12, val_main_v18_apply, mask_at lab r hl, select_one,
    gathered_at x lab W r hl, logSoftmax_at]
  rfl

end T

/-! ## The three results -/

/-- The visual loss: the sum (from zero) over the rows of the negative log-likelihoods, over the batch size. -/
theorem ref_lossV (x : FVec Ideal S4096x512 .f32) (lab : IVec S4096 32) (W : FVec Ideal S512x5000 .f32)
    (hl : ∀ r : Fin 4096, (lab (ix1 r)).toNat < 5000) :
    val_main_v15 (F := Ideal) x lab W = fun _ => Cert.Spec.lossR x lab W := by
  funext i
  rw [val_main_v15_apply, val_main_v14_apply, val_main_cst_2_apply, val_main_cst_1_apply,
    ← Equiv.sum_comp (idxEquiv1 (n := 4096)).symm]
  simp only [Ideal.hostDivf_def, Ideal.ofBits_def, Ideal.ofBits_zero_f32, zero_add]
  unfold Cert.Spec.lossR Cert.Spec.meanRows
  refine congrArg (fun s => Ideal.div s Cert.Spec.f4096) (Finset.sum_congr rfl fun r _ => ?_)
  exact V.nll_at x lab W r (hl r)

/-- The textual loss, by the same steps. -/
theorem ref_lossT (x : FVec Ideal S4096x512 .f32) (lab : IVec S4096 32) (W : FVec Ideal S512x5000 .f32)
    (hl : ∀ r : Fin 4096, (lab (ix1 r)).toNat < 5000) :
    val_main_v22 (F := Ideal) x lab W = fun _ => Cert.Spec.lossR x lab W := by
  funext i
  rw [val_main_v22_apply, val_main_v21_apply, val_main_cst_4_apply, val_main_cst_3_apply,
    ← Equiv.sum_comp (idxEquiv1 (n := 4096)).symm]
  simp only [Ideal.hostDivf_def, Ideal.ofBits_def, Ideal.ofBits_zero_f32, zero_add]
  unfold Cert.Spec.lossR Cert.Spec.meanRows
  refine congrArg (fun s => Ideal.div s Cert.Spec.f4096) (Finset.sum_congr rfl fun r _ => ?_)
  exact T.nll_at x lab W r (hl r)

/-- The instance loss: the sum of the two. -/
theorem ref_inst (x0 x1 : FVec Ideal S4096x512 .f32) (lab : IVec S4096 32) (W : FVec Ideal S512x5000 .f32)
    (hl : ∀ r : Fin 4096, (lab (ix1 r)).toNat < 5000) :
    val_main_v23 (F := Ideal) x0 x1 lab W = fun _ => Cert.Spec.lossR x0 lab W + Cert.Spec.lossR x1 lab W := by
  funext i
  rw [val_main_v23_apply, ref_lossV x0 lab W hl, ref_lossT x1 lab W hl]
  rfl

end Cert.RefSide

end
-- ==== Proof.RefGA.lean ====
/-
  The reference's global-align result read back: the select between the two softplus branches by the
  labels' match is the softplus of the selected margin, the sum over the 4096 × 4096 pairs is the sum over
  rows of the sums over columns, and the similarity is the contraction of a visual row with a textual row.
-/
import proofs.«409325_j5102421147884_2_alg».proof.Proof.RefRead
import proofs.«409325_j5102421147884_2_alg».proof.Proof.Spec

set_option maxRecDepth 16384

noncomputable section

namespace Cert.RefSide

open Cert.ReferenceIdeal Cert.ReferenceIdeal.Gen Cert.ReferenceIdeal.ReadP Idealize.ShloMosaic Idealize.ShloMosaic.ValueIdx

/-! ## Words -/

/-- No extended real differs from itself: the unequal-to-itself test gives the zero bit. -/
theorem cmp_une_self (d : EReal) : Ideal.cmp .une d d = 0#1 := by
  simp [Ideal.cmp]

/-- A select on the equality bit of two words is the conditional on their equality. -/
theorem select_cmpi_eq {w : Nat} (a b : BitVec w) (A B : EReal) :
    Scalar.select (IntOp.cmpi .eq a b) A B = if a = b then A else B := by
  unfold Scalar.select IntOp.cmpi
  by_cases h : a = b
  · subst h; simp
  · have hb : (a == b) = false := beq_eq_false_iff_ne.mpr h
    simp [hb, h]

/-- The softplus routine on one element a: the self-inequality test fails, so the second branch is
    taken; there a - 0 is a, and the absolute value is the larger of a and -a. -/
theorem softplus_word (a : EReal) :
    Scalar.select (Ideal.cmp .une (a - 0) (a - 0)) (a + 0)
      (max a 0 + Ideal.log1p (Ideal.exp (-(max (a - 0) (-(a - 0)))))) = Cert.Spec.softplus a := by
  rw [cmp_une_self, select_zero, sub_zero]
  rfl

/-! ## The similarity matrix -/

/-- Entry (r, c) of the product of the visual matrix with the transposed textual one is the
    contraction of visual row r with textual row c. -/
theorem sim_elem (x0 x1 : FVec Ideal S4096x512 .f32) (r c : Fin 4096) :
    val_main_v25 (F := Ideal) x0 x1 (ix2 r c) = Cert.Spec.sim x0 x1 r c := by
  rw [val_main_v25_apply]
  unfold Cert.Spec.sim
  refine Finset.sum_congr rfl fun k _ => ?_
  rw [val_main_v24_apply]
  have e1 : lidx_main_v25 (ix2 r c) k = ix2 r k :=
    funext fun a => Fin.ext (by match a with | ⟨0, _⟩ => rfl | ⟨1, _⟩ => rfl)
  have e2 : idx_main_v24 (ridx_main_v25 (ix2 r c) k) = ix2 c k :=
    funext fun a => Fin.ext (by match a with | ⟨0, _⟩ => rfl | ⟨1, _⟩ => rfl)
  rw [e1, e2]

/-! ## The two margins -/

/-- The matching pairs' margin: -10 · (sim - 0.6). -/
theorem margin_pos (x0 x1 : FVec Ideal S4096x512 .f32) (r c : Fin 4096) :
    val_main_v34 (F := Ideal) x0 x1 (ix2 r c)
      = Cert.Spec.fNegPos * (Cert.Spec.sim x0 x1 r c - Cert.Spec.fAlpha) := by
  rw [val_main_v34_apply, val_main_v33_apply, val_main_cst_6_apply, val_main_v32_apply, val_main_v31_apply,
    val_main_cst_5_apply, sim_elem]
  rfl

/-- The other pairs' margin: 40 · (sim - 0.4). -/
theorem margin_neg (x0 x1 : FVec Ideal S4096x512 .f32) (r c : Fin 4096) :
    val_main_v39 (F := Ideal) x0 x1 (ix2 r c)
      = Cert.Spec.fNeg * (Cert.Spec.sim x0 x1 r c - Cert.Spec.fBeta) := by
  rw [val_main_v39_apply, val_main_v38_apply, val_main_cst_8_apply, val_main_v37_apply, val_main_v36_apply,
    val_main_cst_7_apply, sim_elem]
  rfl

/-! ## The softplus routine, twice -/

/-- The first call of the routine is the softplus of its argument, element by element. -/
theorem softplus_pos (x0 x1 : FVec Ideal S4096x512 .f32) (i : S4096x4096.Idx) :
    val_main_v35 (F := Ideal) x0 x1 i = Cert.Spec.softplus (val_main_v34 (F := Ideal) x0 x1 i) := by
  rw [val_main_v35_apply, val_main_call5_v4_apply, val_main_call5_v6_apply, val_main_call5_v11_apply,
    val_main_call5_v1_apply, val_main_call5_v10_apply, val_main_call5_v9_apply, val_main_call5_v8_apply,
    val_main_call5_v7_apply, val_main_call5_v3_apply, val_main_call5_v0_apply, val_main_call5_v2_apply,
    val_main_call5_v5_apply]
  simp only [val_main_call5_cst_apply]
  generalize val_main_v34 (F := Ideal) x0 x1 i = a
  simp only [Ideal.cmpf_def, Ideal.addf_def, Ideal.subf_def, Ideal.maximumf_def, Ideal.hostUnary_log1p_def,
    Ideal.hostUnary_exp_def, Ideal.hostNegf_def, Ideal.negf_def, Ideal.hostAbsf_def, Ideal.absf_def,
    Ideal.ofBits_def, Ideal.ofBits_zero_f32]
  exact softplus_word a

/-- The second call likewise. -/
theorem softplus_neg (x0 x1 : FVec Ideal S4096x512 .f32) (i : S4096x4096.Idx) :
    val_main_v40 (F := Ideal) x0 x1 i = Cert.Spec.softplus (val_main_v39 (F := Ideal) x0 x1 i) := by
  rw [val_main_v40_apply, val_main_call6_v4_apply, val_main_call6_v6_apply, val_main_call6_v11_apply,
    val_main_call6_v1_apply, val_main_call6_v10_apply, val_main_call6_v9_apply, val_main_call6_v8_apply,
    val_main_call6_v7_apply, val_main_call6_v3_apply, val_main_call6_v0_apply, val_main_call6_v2_apply,
    val_main_call6_v5_apply]
  simp only [val_main_call6_cst_apply]
  generalize val_main_v39 (F := Ideal) x0 x1 i = a
  simp only [Ideal.cmpf_def, Ideal.addf_def, Ideal.subf_def, Ideal.maximumf_def, Ideal.hostUnary_log1p_def,
    Ideal.hostUnary_exp_def, Ideal.hostNegf_def, Ideal.negf_def, Ideal.hostAbsf_def, Ideal.absf_def,
    Ideal.ofBits_def, Ideal.ofBits_zero_f32]
  exact softplus_word a

/-! ## The labels' match -/

/-- The match bit at (r, c) compares row r's label with row c's: a select on it is the
    conditional on the two labels being equal. -/
theorem select_match (lab : IVec S4096 32) (r c : Fin 4096) (A B : EReal) :
    Scalar.select (val_main_v30 (F := Ideal) lab (ix2 r c)) A B
      = if lab (ix1 r) = lab (ix1 c) then A else B := by
  rw [val_main_v30_apply, val_main_v28_apply, val_main_v29_apply, val_main_v26_apply, val_main_v27_apply]
  have e1 : idx_main_v26 (idx_main_v28 (ix2 r c)) = ix1 r :=
    funext fun a => Fin.ext (by match a with | ⟨0, _⟩ => rfl)
  have e2 : idx_main_v27 (idx_main_v29 (ix2 r c)) = ix1 c :=
    funext fun a => Fin.ext (by match a with | ⟨0, _⟩ => rfl)
  rw [e1, e2]
  exact select_cmpi_eq _ _ A B

/-! ## One pair, then all of them -/

/-- The selected softplus value at (r, c) is the pair's loss: choosing between two softplus values
    is taking the softplus of the chosen margin. -/
theorem pair_elem (x0 x1 : FVec Ideal S4096x512 .f32) (lab : IVec S4096 32) (r c : Fin 4096) :
    val_main_v41 (F := Ideal) x0 x1 lab (ix2 r c)
      = Cert.Spec.pair x0 x1 (fun r => lab (ix1 r)) (fun c => lab (ix1 c)) r c := by
  rw [val_main_v41_apply, select_match, softplus_pos, softplus_neg, margin_pos, margin_neg]
  unfold Cert.Spec.pair Cert.Spec.pairArg
  exact (apply_ite Cert.Spec.softplus _ _ _).symm

/-- The whole loss: the zero start drops out of the sum over all pairs, the sum over the index pairs is
    the sum over rows of the sums over columns, and the scaling by 2 and by 1/4096 is the specification's. -/
theorem ref_ga (x0 x1 : FVec Ideal S4096x512 .f32) (lab : IVec S4096 32) :
    val_main_v44 (F := Ideal) x0 x1 lab = fun _ => Cert.Spec.ga x0 x1 lab := by
  funext i
  rw [val_main_v44_apply, val_main_v43_apply, val_main_v42_apply, val_main_cst_9_apply, val_main_cst_10_apply,
    val_main_cst_11_apply, sum_idx2]
  simp only [pair_elem, Ideal.hostDivf_def, Ideal.mulf_def, Ideal.ofBits_def, Ideal.ofBits_zero_f32, zero_add]
  rfl

end Cert.RefSide

end
-- ==== Proof.Math.lean ====
/-
  The law that joins the two cross-entropy forms. Where every entry of the embedding and of W is a real
  number, every label a class index and no column of W zero, the normalised weight, the logits, the
  row maximum and the sum of shifted exponentials are real numbers (the sum positive, so its logarithm
  is real), the scale 28 moves across the contraction, the label's column is the one term of the
  selecting sum, and (m + L) - x = -((x - m) - L) is an identity of real numbers.
-/
import proofs.«409325_j5102421147884_2_alg».proof.Proof.Spec

noncomputable section

namespace Cert.Spec

open Idealize.ShloMosaic Idealize.ShloMosaic.ValueIdx

/-! ## The two words of 28 -/

/-- The bf16 word 0x41E0 denotes the real number 28. -/
theorem b28_eq : b28 = ((28 : ℝ) : EReal) := by
  simp [b28, Ideal.ofBits, Ideal.ieee, -EReal.coe_mul]; norm_num

/-- The f32 word 0x41E00000 denotes the real number 28. -/
theorem f28_eq : f28 = ((28 : ℝ) : EReal) := by
  simp [f28, Ideal.ofBits, Ideal.ieee, -EReal.coe_mul]; norm_num

/-! ## Finite sums of real numbers, read in the extended reals -/

/-- The reading of a finite sum of real numbers is the sum of the readings. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The normalised weight is real -/

/-- The squared length of a column of real entries is a real number. -/
theorem colSq_real (W : Mat 512 5000)
    (hW : ∀ (k : Fin 512) (c : Fin 5000), ∃ y : ℝ, W (ix2 k c) = (y : EReal)) (c : Fin 5000) :
    ∃ s : ℝ, colSq W c = (s : EReal) := by
  choose w hw using hW
  refine ⟨∑ k, w k c * w k c, ?_⟩
  unfold colSq
  rw [coe_sum]
  refine Finset.sum_congr rfl fun k _ => ?_
  rw [hw, EReal.coe_mul]

/-- A real entry over the square root of a positive real squared length is a real number. -/
theorem wn_real (W : Mat 512 5000)
    (hW : ∀ (k : Fin 512) (c : Fin 5000), ∃ y : ℝ, W (ix2 k c) = (y : EReal))
    (hc : ∀ c : Fin 5000, 0 < colSq W c) (k : Fin 512) (c : Fin 5000) :
    ∃ y : ℝ, wn W k c = (y : EReal) := by
  obtain ⟨s, hs⟩ := colSq_real W hW c
  obtain ⟨w, hw⟩ := hW k c
  have hpos : 0 < s := by
    have h := hc c
    rw [hs] at h
    exact_mod_cast h
  have hsq : 0 < Real.sqrt s := Real.sqrt_pos.mpr hpos
  refine ⟨w * (1 / Real.sqrt s), ?_⟩
  unfold wn
  rw [hs, Ideal.sqrt_coe, if_neg (not_lt.mpr hpos.le), Ideal.div_coe hsq.ne', hw, EReal.coe_mul]

/-! ## The scale moves across the contraction -/

/-- Over real entries the two logits are one real number: 28 is a common factor of the sum's terms. -/
theorem logitK_eq_logitR {R : Nat} (x : Mat R 512) (w : Fin 512 → Fin 5000 → EReal)
    (hx : ∀ (r : Fin R) (k : Fin 512), ∃ y : ℝ, x (ix2 r k) = (y : EReal))
    (hw : ∀ (k : Fin 512) (c : Fin 5000), ∃ y : ℝ, w k c = (y : EReal))
    (r : Fin R) (c : Fin 5000) :
    logitK x w r c = logitR x w r c ∧ ∃ y : ℝ, logitR x w r c = (y : EReal) := by
  choose x' hx' using hx
  choose w' hw' using hw
  have hK : logitK x w r c = ((∑ k, x' r k * 28 * w' k c : ℝ) : EReal) := by
    unfold logitK
    rw [coe_sum]
    refine Finset.sum_congr rfl fun k _ => ?_
    rw [hx', hw', b28_eq, EReal.coe_mul, EReal.coe_mul]
  have hR : logitR x w r c = ((28 * ∑ k, x' r k * w' k c : ℝ) : EReal) := by
    unfold logitR
    rw [f28_eq, EReal.coe_mul, coe_sum]
    congr 1
    refine Finset.sum_congr rfl fun k _ => ?_
    rw [hx', hw', EReal.coe_mul]
  refine ⟨?_, _, hR⟩
  rw [hK, hR, Finset.mul_sum]
  congr 1
  refine Finset.sum_congr rfl fun k _ => ?_
  ring

/-! ## The selecting sum -/

/-- A column's index, as a 32-bit word, is the label exactly at the label's column. -/
theorem ofNat_eq_iff (l : BitVec 32) (hl : l.toNat < 5000) (c : Fin 5000) :
    BitVec.ofNat 32 c.val = l ↔ c = lblIdx l := by
  have hc : c.val < 2 ^ 32 := lt_trans c.isLt (by norm_num)
  constructor
  · intro h
    apply Fin.ext
    have h1 : l.toNat = c.val := by
      rw [← h, BitVec.toNat_ofNat]
      exact Nat.mod_eq_of_lt hc
    show c.val = l.toNat % 5000
    rw [h1, Nat.mod_eq_of_lt c.isLt]
  · intro h
    apply BitVec.eq_of_toNat_eq
    rw [BitVec.toNat_ofNat, h]
    show (l.toNat % 5000) % 2 ^ 32 = l.toNat
    rw [Nat.mod_eq_of_lt hl, Nat.mod_eq_of_lt (lt_trans hl (by norm_num))]

/-- The sum that keeps a logit only where the column is the label is the label's logit. -/
theorem select_sum (X : Fin 5000 → EReal) (l : BitVec 32) (hl : l.toNat < 5000) :
    (∑ c : Fin 5000, (if BitVec.ofNat 32 c.val = l then X c else 0)) = X (lblIdx l) := by
  rw [Finset.sum_eq_single (lblIdx l)]
  · rw [if_pos ((ofNat_eq_iff l hl _).mpr rfl)]
  · intro c _ hne
    rw [if_neg (fun h => hne ((ofNat_eq_iff l hl c).mp h))]
  · intro h
    exact absurd (Finset.mem_univ _) h

/-! ## One row -/

/-- Over a row of real logits both negative log-likelihoods are the real number
    (max + log-sum) minus the label's logit. -/
theorem nllK_eq_nllR (X : Fin 5000 → EReal) (hX : ∀ c, ∃ y : ℝ, X c = (y : EReal))
    (l : BitVec 32) (hl : l.toNat < 5000) : nllK X l = nllR X l := by
  choose X' hX' using hX
  obtain ⟨i, -, hi⟩ := Finset.exists_mem_eq_sup Finset.univ
    ⟨(⟨0, by norm_num⟩ : Fin 5000), Finset.mem_univ _⟩ X
  have hM : rowMax X = ((X' i : ℝ) : EReal) := by
    unfold rowMax
    rw [hi, hX']
  have hS : sumExp X = ((∑ c, Real.exp (X' c - X' i) : ℝ) : EReal) := by
    unfold sumExp
    rw [coe_sum]
    refine Finset.sum_congr rfl fun c _ => ?_
    rw [hM, hX', ← EReal.coe_sub, Ideal.exp_coe]
  have hSpos : 0 < ∑ c, Real.exp (X' c - X' i) :=
    Finset.sum_pos (fun c _ => Real.exp_pos _) ⟨i, Finset.mem_univ _⟩
  have hL : Ideal.log (sumExp X) = ((Real.log (∑ c, Real.exp (X' c - X' i)) : ℝ) : EReal) := by
    rw [hS, Ideal.log_coe, if_neg (not_le.mpr hSpos)]
  unfold nllK nllR
  rw [select_sum X l hl, hM, hL, hX']
  rw [← EReal.coe_add, ← EReal.coe_sub, ← EReal.coe_sub, ← EReal.coe_sub, ← EReal.coe_neg]
  congr 1
  ring

/-! ## The two losses -/

/-- Row by row the logits agree and so do the negative log-likelihoods, so the two means are one. -/
theorem lossK_eq_lossR (x : Mat 4096 512) (lab : Lab 4096) (W : Mat 512 5000)
    (hx : ∀ (r : Fin 4096) (k : Fin 512), ∃ y : ℝ, x (ix2 r k) = (y : EReal))
    (hW : ∀ (k : Fin 512) (c : Fin 5000), ∃ y : ℝ, W (ix2 k c) = (y : EReal))
    (hl : ∀ r : Fin 4096, (lab (ix1 r)).toNat < 5000)
    (hc : ∀ c : Fin 5000, 0 < colSq W c) :
    lossK x lab W = lossR x lab W := by
  unfold lossK lossR
  congr 1
  funext r
  have hrow : logitK x (wn W) r = logitR x (wn W) r :=
    funext fun c => (logitK_eq_logitR x (wn W) hx (wn_real W hW hc) r c).1
  rw [hrow]
  exact nllK_eq_nllR _ (fun c => (logitK_eq_logitR x (wn W) hx (wn_real W hW hc) r c).2) _ (hl r)

end Cert.Spec

end
-- ==== Proof.PreFacts.lean ====
/-
  What the precondition says of the arguments at the ideal instance: each of its six conjuncts decoded —
  |x| < +∞ at every entry of the three float arrays (so each entry is a real number), 0 ≤ label and
  label < 5000 as signed words at every row (so each label's value is below 5000), and a positive sum of
  squares down every column of W.
-/
import proofs.«409325_j5102421147884_2_alg».proof.Pre_finite_inputs
import proofs.«409325_j5102421147884_2_alg».proof.Proof.Gen.Pre_finite_inputs
import proofs.«409325_j5102421147884_2_alg».proof.Proof.Spec
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Pre_finite_inputs

/-- The scalar shape has a single index. -/
instance : Subsingleton S_.Idx := ⟨fun a b => funext fun d => d.elim0⟩

/-- An extended real whose absolute value, max x (-x), lies strictly below the f32 word of +∞ is a real
    number: at either infinity the maximum is ⊤ itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have h' : max x (-x) < ⊤ := by
    by_contra hc
    simp [Ideal.cmp, hc] at h
  induction x using EReal.rec with
  | bot => simp at h'
  | coe r => exact ⟨r, rfl⟩
  | top => simp at h'

/-- A 32-bit word that is, read signed, at least 0 and below 5000 has an unsigned value below 5000: a
    non-negative signed reading is the unsigned one. -/
theorem lab_lt (x : BitVec 32) (h1 : IntOp.cmpi .sge x 0#32 = 1#1) (h2 : IntOp.cmpi .slt x 5000#32 = 1#1) :
    x.toNat < 5000 := by
  have a1 := IntOp.cmpi_sge.1 h1
  have a2 := IntOp.cmpi_slt.1 h2
  have e0 : (0#32 : BitVec 32).toInt = 0 := by decide
  have e5 : (5000#32 : BitVec 32).toInt = 5000 := by decide
  rw [e0] at a1
  rw [e5] at a2
  have hx : x.toInt = x.toNat := by
    rw [BitVec.toInt_eq_toNat_cond] at a1 ⊢
    split_ifs at a1 ⊢ with hc
    · rfl
    · omega
  omega

/-- The sum of W ⊙ W down axis 0, started from the zero word, read at column c: the zero word is 0, and the
    single-axis sum runs over the 512 rows of that column, which is the squared length of the column. -/
theorem colsum_eq [hP : Cert.Pre_finite_inputs.Facts] (W : FVec Ideal S512x5000 .f32) (c : Fin 5000) :
    Host.reduceAdd (F := Ideal) (mulf W W) (constant (F := Ideal) S_ .f32 0x00000000#32)
        hP.reducesTo_S512x5000_S5000_d0 hP.h_S_ (ix1 c)
      = Cert.Spec.colSq W c := by
  simp only [Host.reduceAdd, Ideal.hostReduceAdd_def]
  rw [Ideal.hostReduceAdd_single hP.reducesTo_S512x5000_S5000_d0 (by decide)]
  show Ideal.ofBits .f32 0x00000000#32 + _ = _
  rw [Ideal.ofBits_zero_f32, zero_add]
  unfold Cert.Spec.colSq
  refine Finset.sum_congr rfl fun k _ => ?_
  have e : ((by decide : Shape.Reduces S512x5000 [0] S5000).lift (ix1 c) k) = ix2 k c :=
    funext fun a => Fin.ext (by match a with | ⟨0, _⟩ => rfl | ⟨1, _⟩ => rfl)
  rw [e]
  rfl

theorem hyps_of_pre [hP : Cert.Pre_finite_inputs.Facts]
    (v t : FVec Ideal S4096x512 .f32) (lab : IVec S4096 32) (W : FVec Ideal S512x5000 .f32)
    (h : Cert.Pre_finite_inputs.fn (F := Ideal) v t lab W = fun _ => 1#1) :
    Cert.Spec.Hyps v t lab W := by
  have h0 := congrFun h ValueIdx.ix0
  dsimp only [Cert.Pre_finite_inputs.fn, Cert.Pre_finite_inputs.fn_part1] at h0
  -- the six conjuncts, outermost first
  obtain ⟨h5, hG⟩ := IntOp.andi_eq_one.1 h0
  obtain ⟨h4, hF⟩ := IntOp.andi_eq_one.1 h5
  obtain ⟨h3, hE⟩ := IntOp.andi_eq_one.1 h4
  obtain ⟨h2, hC⟩ := IntOp.andi_eq_one.1 h3
  obtain ⟨hA, hB⟩ := IntOp.andi_eq_one.1 h2
  -- each "all" holds at every index of its operand
  have eA := Host.reduce_andi_all _ _ _ _ _ hA
  have eB := Host.reduce_andi_all _ _ _ _ _ hB
  have eC := Host.reduce_andi_all _ _ _ _ _ hC
  have eE := Host.reduce_andi_all _ _ _ _ _ hE
  have eF := Host.reduce_andi_all _ _ _ _ _ hF
  have eG := Host.reduce_andi_all _ _ _ _ _ hG
  refine ⟨fun r k => ?_, fun r k => ?_, fun k c => ?_, fun r => ?_, fun c => ?_⟩
  · exact real_of_abs_lt_top _ (eA (ix2 r k))
  · exact real_of_abs_lt_top _ (eB (ix2 r k))
  · exact real_of_abs_lt_top _ (eC (ix2 k c))
  · exact lab_lt _ (eE (ix1 r)) (eF (ix1 r))
  · have g := eG (ix1 c)
    have g' : Ideal.cmp .ogt (Host.reduceAdd (F := Ideal) (mulf W W) (constant (F := Ideal) S_ .f32 0x00000000#32)
        hP.reducesTo_S512x5000_S5000_d0 hP.h_S_ (ix1 c)) (Ideal.ofBits .f32 0x00000000#32) = 1#1 := g
    rw [colsum_eq, Ideal.ofBits_zero_f32] at g'
    by_contra hc
    simp [Ideal.cmp, hc] at g'

end Cert.PreFacts

end
-- ==== Proof.lean ====
/-
  The certificate's claims assembled.

  The kernel program computes, with its two Pallas regions and the host operations around them, the
  kernel forms of the two cross-entropy losses, their sum and the global-align loss; the reference the
  reference forms. Under the precondition (every float entry a real number, every label a class index, no
  column of W zero) the cross-entropy forms agree (the scale 28 moves across the contraction, the
  label's column is the one term of the selecting sum, and (m + L) - x = -((x - m) - L) on real numbers);
  the global-align forms are one expression after regrouping the sum over the 4096 × 4096 pairs by row and
  by column tile. Each program's frame is its run with the results dropped.
-/
import proofs.«409325_j5102421147884_2_alg».proof.Defs
import proofs.«409325_j5102421147884_2_alg».proof.Proof.Gen.Kernel
import proofs.«409325_j5102421147884_2_alg».proof.Proof.Gen.KernelIdeal
import proofs.«409325_j5102421147884_2_alg».proof.Proof.Gen.ReferenceIdeal
import proofs.«409325_j5102421147884_2_alg».proof.Proof.Gen.Pre_finite_inputs
import proofs.«409325_j5102421147884_2_alg».proof.Proof.K.Run
import proofs.«409325_j5102421147884_2_alg».proof.Proof.KI.Run
import proofs.«409325_j5102421147884_2_alg».proof.Proof.KI.Tail
import proofs.«409325_j5102421147884_2_alg».proof.Proof.RefRun
import proofs.«409325_j5102421147884_2_alg».proof.Proof.RefRead
import proofs.«409325_j5102421147884_2_alg».proof.Proof.RefCE
import proofs.«409325_j5102421147884_2_alg».proof.Proof.RefGA
import proofs.«409325_j5102421147884_2_alg».proof.Proof.Math
import proofs.«409325_j5102421147884_2_alg».proof.Proof.PreFacts
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The ideal pass rewrote nothing. -/
theorem preserves : Cert.preserves_Kernel_KernelIdeal := trivial

/-- Both idealized programs end with the same four results. -/
theorem algebraic : Cert.algebraic_KernelIdeal_ReferenceIdeal := by
  intro m ρ m' ρ' hpre hagree
  refine ⟨fun c _ => Cert.Spec.lossK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        + Cert.Spec.lossK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
      fun c _ => Cert.Spec.ga (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
      fun c _ => Cert.Spec.lossK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
      fun c _ => Cert.Spec.lossK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
      ?_, ?_⟩
  · -- the kernel program: every buffer at the last boundary's contents, the four results read there
    refine (θ_run Cert.KernelIdeal.defs _ _).mono (fun r h c => ?_) (Cert.KernelIdeal.Fr.run_all (F := Ideal) m ρ)
    exact ⟨(h c _ (Cert.KernelIdeal.Fr.mem_uc Cert.KernelIdeal.main_v18 (by decide))).trans (Cert.KernelIdeal.Fr.kres_inst m c),
      (h c _ (Cert.KernelIdeal.Fr.mem_uc Cert.KernelIdeal.main_v22 (by decide))).trans (Cert.KernelIdeal.Fr.kres_ga m c),
      (h c _ (Cert.KernelIdeal.Fr.mem_uc Cert.KernelIdeal.main_v15 (by decide))).trans (Cert.KernelIdeal.Fr.kres_lossV m c),
      (h c _ (Cert.KernelIdeal.Fr.mem_uc Cert.KernelIdeal.main_v17 (by decide))).trans (Cert.KernelIdeal.Fr.kres_lossT m c),
      (h c _ (Cert.KernelIdeal.Fr.mem_uc Cert.KernelIdeal.main_arg0 (by decide))).trans (Cert.KernelIdeal.Fr.W6_arg0 m c),
      (h c _ (Cert.KernelIdeal.Fr.mem_uc Cert.KernelIdeal.main_arg1 (by decide))).trans (Cert.KernelIdeal.Fr.W6_arg1 m c),
      (h c _ (Cert.KernelIdeal.Fr.mem_uc Cert.KernelIdeal.main_arg2 (by decide))).trans (Cert.KernelIdeal.Fr.W6_arg2 m c),
      (h c _ (Cert.KernelIdeal.Fr.mem_uc Cert.KernelIdeal.main_arg3 (by decide))).trans (Cert.KernelIdeal.Fr.W6_arg3 m c)⟩
  · -- the reference: its run's terms read back, the arguments' agreement rewritten, the two forms joined
    refine (θ_run Cert.ReferenceIdeal.defs _ _).mono (fun r h c => ?_) (Cert.ReferenceIdeal.ValueP.run (F := Ideal) m' ρ')
    obtain ⟨h0, h1, h2, h3, ha⟩ := h c
    obtain ⟨e0, e1, e2, e3⟩ := hagree c
    have H := Cert.PreFacts.hyps_of_pre _ _ _ _ (hpre c)
    refine ⟨h0.trans ?_, h1.trans ?_, h2.trans ?_, h3.trans ?_, ha⟩
    · rw [Cert.ReferenceIdeal.ReadP.val_main_v23_eq, e0, e1, e2, e3, Cert.RefSide.ref_inst _ _ _ _ H.hl]
      funext _
      dsimp only
      rw [Cert.Spec.lossK_eq_lossR _ _ _ H.hv H.hW H.hl H.hc, Cert.Spec.lossK_eq_lossR _ _ _ H.ht H.hW H.hl H.hc]
    · rw [Cert.ReferenceIdeal.ReadP.val_main_v44_eq, e0, e1, e2, Cert.RefSide.ref_ga]
      rfl
    · rw [Cert.ReferenceIdeal.ReadP.val_main_v15_eq, e0, e2, e3, Cert.RefSide.ref_lossV _ _ _ H.hl]
      funext _
      exact (Cert.Spec.lossK_eq_lossR _ _ _ H.hv H.hW H.hl H.hc).symm
    · rw [Cert.ReferenceIdeal.ReadP.val_main_v22_eq, e1, e2, e3, Cert.RefSide.ref_lossT _ _ _ H.hl]
      funext _
      exact (Cert.Spec.lossK_eq_lossR _ _ _ H.ht H.hW H.hl H.hc).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
